-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x160x72x72 : Shape := ⟨5, ![4, 16, 160, 72, 72]⟩
abbrev S4x160x1 : Shape := ⟨3, ![4, 160, 1]⟩
abbrev S_ : Shape := ⟨0, ![]⟩

class Facts : Prop where
  bcast_S_S4x16x160x72x72 : S_.BroadcastsInDim S4x16x160x72x72 (![] : Fin 0 → Fin S4x16x160x72x72.rank)
  reducesTo_S4x16x160x72x72_S_d0_1_2_3_4 : S4x16x160x72x72.ReducesTo [0, 1, 2, 3, 4] S_
  h_S_ : 0 < S_.numel
  bcast_S_S4x160x1 : S_.BroadcastsInDim S4x160x1 (![] : Fin 0 → Fin S4x160x1.rank)
  reducesTo_S4x160x1_S_d0_1_2 : S4x160x1.ReducesTo [0, 1, 2] S_

variable [Facts]

def fn {F : FTy → Type} [FloatOps F] (main_arg0 : FVec F S4x16x160x72x72 .f32) (main_arg1 : FVec F S4x160x1 .f32) : IVec S_ 1 :=
  let main_v0 : FVec F S4x16x160x72x72 .f32 := Host.absf main_arg0
  let main_cst : FVec F S_ .f32 := constant S_ .f32 0x7F800000#32
  let main_v1 : FVec F S4x16x160x72x72 .f32 := broadcastInDim S4x16x160x72x72 ![] bcast_S_S4x16x160x72x72 main_cst
  let main_v2 : IVec S4x16x160x72x72 1 := cmpf .olt main_v0 main_v1
  let main_c : IVec S_ 1 := constantI S_ 1 1#1
  let main_v3 : IVec S_ 1 := (fun x v => Host.reduce IntOp.andi x v reducesTo_S4x16x160x72x72_S_d0_1_2_3_4 h_S_) main_v2 main_c
  let main_v4 : FVec F S4x160x1 .f32 := Host.absf main_arg1
  let main_cst_0 : FVec F S_ .f32 := constant S_ .f32 0x7F800000#32
  let main_v5 : FVec F S4x160x1 .f32 := broadcastInDim S4x160x1 ![] bcast_S_S4x160x1 main_cst_0
  let main_v6 : IVec S4x160x1 1 := cmpf .olt main_v4 main_v5
  let main_c_1 : IVec S_ 1 := constantI S_ 1 1#1
  let main_v7 : IVec S_ 1 := (fun x v => Host.reduce IntOp.andi x v reducesTo_S4x160x1_S_d0_1_2 h_S_) main_v6 main_c_1
  let main_v8 : IVec S_ 1 := andi main_v3 main_v7
  main_v8
-- ==== Kernel.lean ====
abbrev S4x16x160x72x72 : Shape := ⟨5, ![4, 16, 160, 72, 72]⟩
abbrev S4x160x1 : Shape := ⟨3, ![4, 160, 1]⟩
abbrev S4x160x82944 : Shape := ⟨3, ![4, 160, 82944]⟩
abbrev S_ : Shape := ⟨0, ![]⟩
abbrev S4x1x82944 : Shape := ⟨3, ![4, 1, 82944]⟩
abbrev S1x160x9216 : Shape := ⟨3, ![1, 160, 9216]⟩
abbrev S1x160x1 : Shape := ⟨3, ![1, 160, 1]⟩
abbrev S1x1x9216 : Shape := ⟨3, ![1, 1, 9216]⟩
abbrev S160x9216 : Shape := ⟨2, ![160, 9216]⟩
abbrev S160x1 : Shape := ⟨2, ![160, 1]⟩
abbrev S9216 : Shape := ⟨1, ![9216]⟩
abbrev S1x9216 : Shape := ⟨2, ![1, 9216]⟩
abbrev S4x1 : Shape := ⟨2, ![4, 1]⟩
abbrev S4x1x1 : Shape := ⟨3, ![4, 1, 1]⟩
abbrev S160 : Shape := ⟨1, ![160]⟩

abbrev nBuf : Space → Nat
  | .hbm => 115
  | .vmem => 60
  | .smem => 0
  | _ => 0

abbrev bufTy : (tb : Table) → Fin (tcTables nBuf tb) → BufTy
  | .hbm, ⟨0, _⟩ => ⟨S4x16x160x72x72, .f32⟩
  | .hbm, ⟨1, _⟩ => ⟨S4x160x1, .f32⟩
  | .hbm, ⟨2, _⟩ => ⟨S4x160x82944, .f32⟩
  | .hbm, ⟨3, _⟩ => ⟨S_, .f32⟩
  | .hbm, ⟨4, _⟩ => ⟨S4x1x82944, .f32⟩
  | .hbm, ⟨5, _⟩ => ⟨S4x1x82944, .f32⟩
  | .hbm, ⟨6, _⟩ => ⟨S4x160x1, .f32⟩
  | .hbm, ⟨7, _⟩ => ⟨S_, .f32⟩
  | .hbm, ⟨8, _⟩ => ⟨S4x1, .f32⟩
  | .hbm, ⟨9, _⟩ => ⟨S4x1x1, .f32⟩
  | .hbm, ⟨10, _⟩ => ⟨S4x1x82944, .f32⟩
  | .hbm, ⟨11, _⟩ => ⟨S4x1x82944, .f32⟩
  | .hbm, ⟨12, _⟩ => ⟨S4x1x82944, .f32⟩
  | .hbm, ⟨13, _⟩ => ⟨S_, .f32⟩
  | .hbm, ⟨14, _⟩ => ⟨S4x1x82944, .f32⟩
  | .hbm, ⟨15, _⟩ => ⟨S4x1x82944, .f32⟩
  | .hbm, ⟨16, _⟩ => ⟨S4x1x82944, .f32⟩
  | .hbm, ⟨17, _⟩ => ⟨S4x160x1, .f32⟩
  | .hbm, ⟨18, _⟩ => ⟨S4x1x82944, .f32⟩
  | .hbm, ⟨19, _⟩ => ⟨S_, .f32⟩
  | .hbm, ⟨20, _⟩ => ⟨S4x1, .f32⟩
  | .hbm, ⟨21, _⟩ => ⟨S4x1x1, .f32⟩
  | .hbm, ⟨22, _⟩ => ⟨S4x160x1, .f32⟩
  | .hbm, ⟨23, _⟩ => ⟨S4x160x1, .f32⟩
  | .hbm, ⟨24, _⟩ => ⟨S4x160x1, .f32⟩
  | .hbm, ⟨25, _⟩ => ⟨S_, .f32⟩
  | .hbm, ⟨26, _⟩ => ⟨S4x160x1, .f32⟩
  | .hbm, ⟨27, _⟩ => ⟨S4x160x1, .f32⟩
  | .hbm, ⟨28, _⟩ => ⟨S4x160x1, .f32⟩
  | .hbm, ⟨29, _⟩ => ⟨S4x1x82944, .f32⟩
  | .hbm, ⟨30, _⟩ => ⟨S4x160x1, .f32⟩
  | .hbm, ⟨31, _⟩ => ⟨S_, .f32⟩
  | .hbm, ⟨32, _⟩ => ⟨S4x1, .f32⟩
  | .hbm, ⟨33, _⟩ => ⟨S4x1x1, .f32⟩
  | .hbm, ⟨34, _⟩ => ⟨S4x1x82944, .f32⟩
  | .hbm, ⟨35, _⟩ => ⟨S4x1x82944, .f32⟩
  | .hbm, ⟨36, _⟩ => ⟨S4x1x82944, .f32⟩
  | .hbm, ⟨37, _⟩ => ⟨S_, .f32⟩
  | .hbm, ⟨38, _⟩ => ⟨S4x1x82944, .f32⟩
  | .hbm, ⟨39, _⟩ => ⟨S4x1x82944, .f32⟩
  | .hbm, ⟨40, _⟩ => ⟨S4x1x82944, .f32⟩
  | .hbm, ⟨41, _⟩ => ⟨S4x160x1, .f32⟩
  | .hbm, ⟨42, _⟩ => ⟨S4x1x82944, .f32⟩
  | .hbm, ⟨43, _⟩ => ⟨S_, .f32⟩
  | .hbm, ⟨44, _⟩ => ⟨S4x1, .f32⟩
  | .hbm, ⟨45, _⟩ => ⟨S4x1x1, .f32⟩
  | .hbm, ⟨46, _⟩ => ⟨S4x160x1, .f32⟩
  | .hbm, ⟨47, _⟩ => ⟨S4x160x1, .f32⟩
  | .hbm, ⟨48, _⟩ => ⟨S4x160x1, .f32⟩
  | .hbm, ⟨49, _⟩ => ⟨S_, .f32⟩
  | .hbm, ⟨50, _⟩ => ⟨S4x160x1, .f32⟩
  | .hbm, ⟨51, _⟩ => ⟨S4x160x1, .f32⟩
  | .hbm, ⟨52, _⟩ => ⟨S4x160x1, .f32⟩
  | .hbm, ⟨53, _⟩ => ⟨S4x1x82944, .f32⟩
  | .hbm, ⟨54, _⟩ => ⟨S4x160x1, .f32⟩
  | .hbm, ⟨55, _⟩ => ⟨S_, .f32⟩
  | .hbm, ⟨56, _⟩ => ⟨S4x1, .f32⟩
  | .hbm, ⟨57, _⟩ => ⟨S4x1x1, .f32⟩
  | .hbm, ⟨58, _⟩ => ⟨S4x1x82944, .f32⟩
  | .hbm, ⟨59, _⟩ => ⟨S4x1x82944, .f32⟩
  | .hbm, ⟨60, _⟩ => ⟨S4x1x82944, .f32⟩
  | .hbm, ⟨61, _⟩ => ⟨S_, .f32⟩
  | .hbm, ⟨62, _⟩ => ⟨S4x1x82944, .f32⟩
  | .hbm, ⟨63, _⟩ => ⟨S4x1x82944, .f32⟩
  | .hbm, ⟨64, _⟩ => ⟨S4x1x82944, .f32⟩
  | .hbm, ⟨65, _⟩ => ⟨S4x160x1, .f32⟩
  | .hbm, ⟨66, _⟩ => ⟨S4x1x82944, .f32⟩
  | .hbm, ⟨67, _⟩ => ⟨S_, .f32⟩
  | .hbm, ⟨68, _⟩ => ⟨S4x1, .f32⟩
  | .hbm, ⟨69, _⟩ => ⟨S4x1x1, .f32⟩
  | .hbm, ⟨70, _⟩ => ⟨S4x160x1, .f32⟩
  | .hbm, ⟨71, _⟩ => ⟨S4x160x1, .f32⟩
  | .hbm, ⟨72, _⟩ => ⟨S4x160x1, .f32⟩
  | .hbm, ⟨73, _⟩ => ⟨S_, .f32⟩
  | .hbm, ⟨74, _⟩ => ⟨S4x160x1, .f32⟩
  | .hbm, ⟨75, _⟩ => ⟨S4x160x1, .f32⟩
  | .hbm, ⟨76, _⟩ => ⟨S4x160x1, .f32⟩
  | .hbm, ⟨77, _⟩ => ⟨S4x1x82944, .f32⟩
  | .hbm, ⟨78, _⟩ => ⟨S4x160x1, .f32⟩
  | .hbm, ⟨79, _⟩ => ⟨S_, .f32⟩
  | .hbm, ⟨80, _⟩ => ⟨S4x1, .f32⟩
  | .hbm, ⟨81, _⟩ => ⟨S4x1x1, .f32⟩
  | .hbm, ⟨82, _⟩ => ⟨S4x1x82944, .f32⟩
  | .hbm, ⟨83, _⟩ => ⟨S4x1x82944, .f32⟩
  | .hbm, ⟨84, _⟩ => ⟨S4x1x82944, .f32⟩
  | .hbm, ⟨85, _⟩ => ⟨S_, .f32⟩
  | .hbm, ⟨86, _⟩ => ⟨S4x1x82944, .f32⟩
  | .hbm, ⟨87, _⟩ => ⟨S4x1x82944, .f32⟩
  | .hbm, ⟨88, _⟩ => ⟨S4x1x82944, .f32⟩
  | .hbm, ⟨89, _⟩ => ⟨S4x160x1, .f32⟩
  | .hbm, ⟨90, _⟩ => ⟨S4x1x82944, .f32⟩
  | .hbm, ⟨91, _⟩ => ⟨S_, .f32⟩
  | .hbm, ⟨92, _⟩ => ⟨S4x1, .f32⟩
  | .hbm, ⟨93, _⟩ => ⟨S4x1x1, .f32⟩
  | .hbm, ⟨94, _⟩ => ⟨S4x160x1, .f32⟩
  | .hbm, ⟨95, _⟩ => ⟨S4x160x1, .f32⟩
  | .hbm, ⟨96, _⟩ => ⟨S4x160x1, .f32⟩
  | .hbm, ⟨97, _⟩ => ⟨S_, .f32⟩
  | .hbm, ⟨98, _⟩ => ⟨S4x160x1, .f32⟩
  | .hbm, ⟨99, _⟩ => ⟨S4x160x1, .f32⟩
  | .hbm, ⟨100, _⟩ => ⟨S4x160x1, .f32⟩
  | .hbm, ⟨101, _⟩ => ⟨S4x1x82944, .f32⟩
  | .hbm, ⟨102, _⟩ => ⟨S4x160x1, .f32⟩
  | .hbm, ⟨103, _⟩ => ⟨S_, .f32⟩
  | .hbm, ⟨104, _⟩ => ⟨S4x1, .f32⟩
  | .hbm, ⟨105, _⟩ => ⟨S4x1x1, .f32⟩
  | .hbm, ⟨106, _⟩ => ⟨S4x1x82944, .f32⟩
  | .hbm, ⟨107, _⟩ => ⟨S4x1x82944, .f32⟩
  | .hbm, ⟨108, _⟩ => ⟨S4x1x82944, .f32⟩
  | .hbm, ⟨109, _⟩ => ⟨S_, .f32⟩
  | .hbm, ⟨110, _⟩ => ⟨S4x1x82944, .f32⟩
  | .hbm, ⟨111, _⟩ => ⟨S4x1x82944, .f32⟩
  | .hbm, ⟨112, _⟩ => ⟨S4x1x82944, .f32⟩
  | .hbm, ⟨113, _⟩ => ⟨S4x160x82944, .f32⟩
  | .hbm, ⟨114, _⟩ => ⟨S4x16x160x72x72, .f32⟩
  | .local _ .vmem, ⟨0, _⟩ => ⟨S1x160x9216, .f32⟩
  | .local _ .vmem, ⟨1, _⟩ => ⟨S1x160x9216, .f32⟩
  | .local _ .vmem, ⟨2, _⟩ => ⟨S1x160x1, .f32⟩
  | .local _ .vmem, ⟨3, _⟩ => ⟨S1x160x1, .f32⟩
  | .local _ .vmem, ⟨4, _⟩ => ⟨S1x1x9216, .f32⟩
  | .local _ .vmem, ⟨5, _⟩ => ⟨S1x1x9216, .f32⟩
  | .local _ .vmem, ⟨6, _⟩ => ⟨S1x160x9216, .f32⟩
  | .local _ .vmem, ⟨7, _⟩ => ⟨S1x160x9216, .f32⟩
  | .local _ .vmem, ⟨8, _⟩ => ⟨S1x1x9216, .f32⟩
  | .local _ .vmem, ⟨9, _⟩ => ⟨S1x1x9216, .f32⟩
  | .local _ .vmem, ⟨10, _⟩ => ⟨S1x160x1, .f32⟩
  | .local _ .vmem, ⟨11, _⟩ => ⟨S1x160x1, .f32⟩
  | .local _ .vmem, ⟨12, _⟩ => ⟨S1x160x9216, .f32⟩
  | .local _ .vmem, ⟨13, _⟩ => ⟨S1x160x9216, .f32⟩
  | .local _ .vmem, ⟨14, _⟩ => ⟨S1x160x1, .f32⟩
  | .local _ .vmem, ⟨15, _⟩ => ⟨S1x160x1, .f32⟩
  | .local _ .vmem, ⟨16, _⟩ => ⟨S1x1x9216, .f32⟩
  | .local _ .vmem, ⟨17, _⟩ => ⟨S1x1x9216, .f32⟩
  | .local _ .vmem, ⟨18, _⟩ => ⟨S1x160x9216, .f32⟩
  | .local _ .vmem, ⟨19, _⟩ => ⟨S1x160x9216, .f32⟩
  | .local _ .vmem, ⟨20, _⟩ => ⟨S1x1x9216, .f32⟩
  | .local _ .vmem, ⟨21, _⟩ => ⟨S1x1x9216, .f32⟩
  | .local _ .vmem, ⟨22, _⟩ => ⟨S1x160x1, .f32⟩
  | .local _ .vmem, ⟨23, _⟩ => ⟨S1x160x1, .f32⟩
  | .local _ .vmem, ⟨24, _⟩ => ⟨S1x160x9216, .f32⟩
  | .local _ .vmem, ⟨25, _⟩ => ⟨S1x160x9216, .f32⟩
  | .local _ .vmem, ⟨26, _⟩ => ⟨S1x160x1, .f32⟩
  | .local _ .vmem, ⟨27, _⟩ => ⟨S1x160x1, .f32⟩
  | .local _ .vmem, ⟨28, _⟩ => ⟨S1x1x9216, .f32⟩
  | .local _ .vmem, ⟨29, _⟩ => ⟨S1x1x9216, .f32⟩
  | .local _ .vmem, ⟨30, _⟩ => ⟨S1x160x9216, .f32⟩
  | .local _ .vmem, ⟨31, _⟩ => ⟨S1x160x9216, .f32⟩
  | .local _ .vmem, ⟨32, _⟩ => ⟨S1x1x9216, .f32⟩
  | .local _ .vmem, ⟨33, _⟩ => ⟨S1x1x9216, .f32⟩
  | .local _ .vmem, ⟨34, _⟩ => ⟨S1x160x1, .f32⟩
  | .local _ .vmem, ⟨35, _⟩ => ⟨S1x160x1, .f32⟩
  | .local _ .vmem, ⟨36, _⟩ => ⟨S1x160x9216, .f32⟩
  | .local _ .vmem, ⟨37, _⟩ => ⟨S1x160x9216, .f32⟩
  | .local _ .vmem, ⟨38, _⟩ => ⟨S1x160x1, .f32⟩
  | .local _ .vmem, ⟨39, _⟩ => ⟨S1x160x1, .f32⟩
  | .local _ .vmem, ⟨40, _⟩ => ⟨S1x1x9216, .f32⟩
  | .local _ .vmem, ⟨41, _⟩ => ⟨S1x1x9216, .f32⟩
  | .local _ .vmem, ⟨42, _⟩ => ⟨S1x160x9216, .f32⟩
  | .local _ .vmem, ⟨43, _⟩ => ⟨S1x160x9216, .f32⟩
  | .local _ .vmem, ⟨44, _⟩ => ⟨S1x1x9216, .f32⟩
  | .local _ .vmem, ⟨45, _⟩ => ⟨S1x1x9216, .f32⟩
  | .local _ .vmem, ⟨46, _⟩ => ⟨S1x160x1, .f32⟩
  | .local _ .vmem, ⟨47, _⟩ => ⟨S1x160x1, .f32⟩
  | .local _ .vmem, ⟨48, _⟩ => ⟨S1x160x9216, .f32⟩
  | .local _ .vmem, ⟨49, _⟩ => ⟨S1x160x9216, .f32⟩
  | .local _ .vmem, ⟨50, _⟩ => ⟨S1x160x1, .f32⟩
  | .local _ .vmem, ⟨51, _⟩ => ⟨S1x160x1, .f32⟩
  | .local _ .vmem, ⟨52, _⟩ => ⟨S1x1x9216, .f32⟩
  | .local _ .vmem, ⟨53, _⟩ => ⟨S1x1x9216, .f32⟩
  | .local _ .vmem, ⟨54, _⟩ => ⟨S1x160x1, .f32⟩
  | .local _ .vmem, ⟨55, _⟩ => ⟨S1x160x1, .f32⟩
  | .local _ .vmem, ⟨56, _⟩ => ⟨S1x1x9216, .f32⟩
  | .local _ .vmem, ⟨57, _⟩ => ⟨S1x1x9216, .f32⟩
  | .local _ .vmem, ⟨58, _⟩ => ⟨S1x160x9216, .f32⟩
  | .local _ .vmem, ⟨59, _⟩ => ⟨S1x160x9216, .f32⟩
  | _, _ => ⟨S4x16x160x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_8 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_11 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_12 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_13 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_14 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_15 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_16 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_17 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x160x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 9], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x160x9216 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x9216 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x160x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 9], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x160x9216 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x160x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x9216 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 9], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x160x9216 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x9216 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x160x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 9], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x160x9216 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x160x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x9216 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 9], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x160x9216 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x9216 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x160x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 9], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x160x9216 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x160x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1x9216 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 9], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x160x9216 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x1x9216 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x160x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![4, 9], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage8_0 : Fin 2 → Memref sig .tc .vmem S1x160x9216 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x160x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1x1x9216 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 9], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage9_0 : Fin 2 → Memref sig .tc .vmem S1x160x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1x1x9216 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1x160x9216 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

class Facts₀ : Prop where
  shapeCasts_S4x16x160x72x72_S4x160x82944 : S4x16x160x72x72.ShapeCasts S4x160x82944
  bcast_S_S4x1x82944 : S_.BroadcastsInDim S4x1x82944 (![] : Fin 0 → Fin S4x1x82944.rank)
  inb_S1x160x9216_S1x160x9216_0_0_0 : ∀ a, (![0, 0, 0] : Fin 3 → Nat) a + S1x160x9216.size a ≤ S1x160x9216.size a
  h_S1x160x9216 : 0 < S1x160x9216.numel
  shapeCasts_S1x160x9216_S160x9216 : S1x160x9216.ShapeCasts S160x9216
  inb_S1x160x1_S1x160x1_0_0_0 : ∀ a, (![0, 0, 0] : Fin 3 → Nat) a + S1x160x1.size a ≤ S1x160x1.size a
  h_S1x160x1 : 0 < S1x160x1.numel
  shapeCasts_S1x160x1_S160x1 : S1x160x1.ShapeCasts S160x1
  broadcasts_S160x1_S160x9216 : S160x1.Broadcasts S160x9216
  reduces_S160x9216_S9216 : S160x9216.Reduces [0] S9216
  shapeCasts_S9216_S1x9216 : S9216.ShapeCasts S1x9216
  inb_S1x1x9216_S1x1x9216_0_0_0 : ∀ a, (![0, 0, 0] : Fin 3 → Nat) a + S1x1x9216.size a ≤ S1x1x9216.size a
  h_S1x1x9216 : 0 < S1x1x9216.numel
  shapeCasts_S1x1x9216_S1x9216 : S1x1x9216.ShapeCasts S1x9216
  shapeCasts_S1x9216_S1x1x9216 : S1x9216.ShapeCasts S1x1x9216
  reducesTo_S4x160x1_S4x1_d1 : S4x160x1.ReducesTo [1] S4x1
  h_S_ : 0 < S_.numel
  bcast_S4x1_S4x1x1_0_2 : S4x1.BroadcastsInDim S4x1x1 (![0, 2] : Fin 2 → Fin S4x1x1.rank)
  bcast_S4x1x1_S4x1x82944_0_1_2 : S4x1x1.BroadcastsInDim S4x1x82944 (![0, 1, 2] : Fin 3 → Fin S4x1x82944.rank)
  broadcasts_S1x9216_S160x9216 : S1x9216.Broadcasts S160x9216
  reduces_S160x9216_S160 : S160x9216.Reduces [1] S160
  shapeCasts_S160_S160x1 : S160.ShapeCasts S160x1
  shapeCasts_S160x1_S1x160x1 : S160x1.ShapeCasts S1x160x1
  reducesTo_S4x1x82944_S4x1_d2 : S4x1x82944.ReducesTo [2] S4x1
  bcast_S4x1_S4x1x1_0_1 : S4x1.BroadcastsInDim S4x1x1 (![0, 1] : Fin 2 → Fin S4x1x1.rank)
  bcast_S4x1x1_S4x160x1_0_1_2 : S4x1x1.BroadcastsInDim S4x160x1 (![0, 1, 2] : Fin 3 → Fin S4x160x1.rank)
  bcast_S_S4x160x1 : S_.BroadcastsInDim S4x160x1 (![] : Fin 0 → Fin S4x160x1.rank)
  shapeCasts_S160x9216_S1x160x9216 : S160x9216.ShapeCasts S1x160x9216
  shapeCasts_S4x160x82944_S4x16x160x72x72 : S4x160x82944.ShapeCasts S4x16x160x72x72
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x9216.size a ≤ S4x160x82944.size a
  hwx0_0 : ∀ i : grid0.Coords, EltTy.bits .f32 = 32 ∨ (Rect.block (s := S4x160x82944) S1x160x9216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160x1.size a ≤ S4x160x1.size a
  hwx0_1 : ∀ i : grid0.Coords, EltTy.bits .f32 = 32 ∨ (Rect.block (s := S4x160x1) S1x160x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x9216.size a ≤ S4x1x82944.size a
  hwx0_2 : ∀ i : grid0.Coords, EltTy.bits .f32 = 32 ∨ (Rect.block (s := S4x1x82944) S1x1x9216.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x160x9216.size a ≤ S4x160x82944.size a
  hwx1_0 : ∀ i : grid1.Coords, EltTy.bits .f32 = 32 ∨ (Rect.block (s := S4x160x82944) S1x160x9216.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x9216.size a ≤ S4x1x82944.size a
  hwx1_1 : ∀ i : grid1.Coords, EltTy.bits .f32 = 32 ∨ (Rect.block (s := S4x1x82944) S1x1x9216.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x160x1.size a ≤ S4x160x1.size a
  hwx1_2 : ∀ i : grid1.Coords, EltTy.bits .f32 = 32 ∨ (Rect.block (s := S4x160x1) S1x160x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x160x9216.size a ≤ S4x160x82944.size a
  hwx2_0 : ∀ i : grid2.Coords, EltTy.bits .f32 = 32 ∨ (Rect.block (s := S4x160x82944) S1x160x9216.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x160x1.size a ≤ S4x160x1.size a
  hwx2_1 : ∀ i : grid2.Coords, EltTy.bits .f32 = 32 ∨ (Rect.block (s := S4x160x1) S1x160x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x9216.size a ≤ S4x1x82944.size a
  hwx2_2 : ∀ i : grid2.Coords, EltTy.bits .f32 = 32 ∨ (Rect.block (s := S4x1x82944) S1x1x9216.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x160x9216.size a ≤ S4x160x82944.size a
  hwx3_0 : ∀ i : grid3.Coords, EltTy.bits .f32 = 32 ∨ (Rect.block (s := S4x160x82944) S1x160x9216.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x9216.size a ≤ S4x1x82944.size a
  hwx3_1 : ∀ i : grid3.Coords, EltTy.bits .f32 = 32 ∨ (Rect.block (s := S4x1x82944) S1x1x9216.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x160x1.size a ≤ S4x160x1.size a
  hwx3_2 : ∀ i : grid3.Coords, EltTy.bits .f32 = 32 ∨ (Rect.block (s := S4x160x1) S1x160x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x160x9216.size a ≤ S4x160x82944.size a
  hwx4_0 : ∀ i : grid4.Coords, EltTy.bits .f32 = 32 ∨ (Rect.block (s := S4x160x82944) S1x160x9216.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x160x1.size a ≤ S4x160x1.size a
  hwx4_1 : ∀ i : grid4.Coords, EltTy.bits .f32 = 32 ∨ (Rect.block (s := S4x160x1) S1x160x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x9216.size a ≤ S4x1x82944.size a
  hwx4_2 : ∀ i : grid4.Coords, EltTy.bits .f32 = 32 ∨ (Rect.block (s := S4x1x82944) S1x1x9216.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x160x9216.size a ≤ S4x160x82944.size a
  hwx5_0 : ∀ i : grid5.Coords, EltTy.bits .f32 = 32 ∨ (Rect.block (s := S4x160x82944) S1x160x9216.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x9216.size a ≤ S4x1x82944.size a
  hwx5_1 : ∀ i : grid5.Coords, EltTy.bits .f32 = 32 ∨ (Rect.block (s := S4x1x82944) S1x1x9216.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x160x1.size a ≤ S4x160x1.size a
  hwx5_2 : ∀ i : grid5.Coords, EltTy.bits .f32 = 32 ∨ (Rect.block (s := S4x160x1) S1x160x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x160x9216.size a ≤ S4x160x82944.size a
  hwx6_0 : ∀ i : grid6.Coords, EltTy.bits .f32 = 32 ∨ (Rect.block (s := S4x160x82944) S1x160x9216.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x160x1.size a ≤ S4x160x1.size a
  hwx6_1 : ∀ i : grid6.Coords, EltTy.bits .f32 = 32 ∨ (Rect.block (s := S4x160x1) S1x160x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1x9216.size a ≤ S4x1x82944.size a
  hwx6_2 : ∀ i : grid6.Coords, EltTy.bits .f32 = 32 ∨ (Rect.block (s := S4x1x82944) S1x1x9216.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x160x9216.size a ≤ S4x160x82944.size a
  hwx7_0 : ∀ i : grid7.Coords, EltTy.bits .f32 = 32 ∨ (Rect.block (s := S4x160x82944) S1x160x9216.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x9216.size a ≤ S4x1x82944.size a
  hwx7_1 : ∀ i : grid7.Coords, EltTy.bits .f32 = 32 ∨ (Rect.block (s := S4x1x82944) S1x1x9216.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x160x1.size a ≤ S4x160x1.size a
  hwx7_2 : ∀ i : grid7.Coords, EltTy.bits .f32 = 32 ∨ (Rect.block (s := S4x160x1) S1x160x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x160x9216.size a ≤ S4x160x82944.size a
  hwx8_0 : ∀ i : grid8.Coords, EltTy.bits .f32 = 32 ∨ (Rect.block (s := S4x160x82944) S1x160x9216.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x160x1.size a ≤ S4x160x1.size a
  hwx8_1 : ∀ i : grid8.Coords, EltTy.bits .f32 = 32 ∨ (Rect.block (s := S4x160x1) S1x160x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1x9216.size a ≤ S4x1x82944.size a
  hwx8_2 : ∀ i : grid8.Coords, EltTy.bits .f32 = 32 ∨ (Rect.block (s := S4x1x82944) S1x1x9216.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x160x1.size a ≤ S4x160x1.size a
  hwx9_0 : ∀ i : grid9.Coords, EltTy.bits .f32 = 32 ∨ (Rect.block (s := S4x160x1) S1x160x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x1x9216.size a ≤ S4x1x82944.size a
  hwx9_1 : ∀ i : grid9.Coords, EltTy.bits .f32 = 32 ∨ (Rect.block (s := S4x1x82944) S1x1x9216.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x160x9216.size a ≤ S4x160x82944.size a
  hwx9_2 : ∀ i : grid9.Coords, EltTy.bits .f32 = 32 ∨ (Rect.block (s := S4x160x82944) S1x160x9216.size (cc9_transform_2 i) (hinb9_2 i)).WholeWords (EltTy.packing .f32)

variable [Facts₀]

abbrev win0_0 : Pipeline.Window sig grid0 :=
  Pipeline.Window.ofSpec (Memref.whole main_v0) S1x160x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x160x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x9216.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x160x9216.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x9216.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x160x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1x160x9216.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x160x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1x9216.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S1x160x9216.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x1x9216.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x160x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S1x160x9216.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x160x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x1x9216.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S1x160x9216.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S1x1x9216.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x160x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S1x160x9216.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S1x160x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v62) S1x1x9216.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v0) S1x160x9216.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S1x1x9216.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S1x160x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v0) S1x160x9216.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v81) S1x160x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v82) S1x1x9216.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v81) S1x160x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v91) S1x1x9216.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v92) S1x160x9216.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S4x16x160x72x72 : Shape := ⟨5, ![4, 16, 160, 72, 72]⟩
abbrev S4x160x1 : Shape := ⟨3, ![4, 160, 1]⟩
abbrev S4x160x82944 : Shape := ⟨3, ![4, 160, 82944]⟩
abbrev S4x82944x1 : Shape := ⟨3, ![4, 82944, 1]⟩
abbrev S_ : Shape := ⟨0, ![]⟩
abbrev S4x82944 : Shape := ⟨2, ![4, 82944]⟩
abbrev S4x1x1 : Shape := ⟨3, ![4, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S4x16x160x72x72, .f32⟩
  | .hbm, ⟨1, _⟩ => ⟨S4x160x1, .f32⟩
  | .hbm, ⟨2, _⟩ => ⟨S4x160x82944, .f32⟩
  | .hbm, ⟨3, _⟩ => ⟨S4x82944x1, .f32⟩
  | .hbm, ⟨4, _⟩ => ⟨S_, .f32⟩
  | .hbm, ⟨5, _⟩ => ⟨S4x82944x1, .f32⟩
  | .hbm, ⟨6, _⟩ => ⟨S4x82944x1, .f32⟩
  | .hbm, ⟨7, _⟩ => ⟨S_, .f32⟩
  | .hbm, ⟨8, _⟩ => ⟨S4x82944, .f32⟩
  | .hbm, ⟨9, _⟩ => ⟨S_, .f32⟩
  | .hbm, ⟨10, _⟩ => ⟨S4x82944, .f32⟩
  | .hbm, ⟨11, _⟩ => ⟨S4x82944, .f32⟩
  | .hbm, ⟨12, _⟩ => ⟨S4x82944x1, .f32⟩
  | .hbm, ⟨13, _⟩ => ⟨S4x82944x1, .f32⟩
  | .hbm, ⟨14, _⟩ => ⟨S4x82944x1, .f32⟩
  | .hbm, ⟨15, _⟩ => ⟨S_, .f32⟩
  | .hbm, ⟨16, _⟩ => ⟨S4x82944, .f32⟩
  | .hbm, ⟨17, _⟩ => ⟨S4x82944x1, .f32⟩
  | .hbm, ⟨18, _⟩ => ⟨S4x82944x1, .f32⟩
  | .hbm, ⟨19, _⟩ => ⟨S4x82944x1, .f32⟩
  | .hbm, ⟨20, _⟩ => ⟨S4x1x1, .f32⟩
  | .hbm, ⟨21, _⟩ => ⟨S4x82944x1, .f32⟩
  | .hbm, ⟨22, _⟩ => ⟨S4x82944x1, .f32⟩
  | .hbm, ⟨23, _⟩ => ⟨S_, .f32⟩
  | .hbm, ⟨24, _⟩ => ⟨S4x82944x1, .f32⟩
  | .hbm, ⟨25, _⟩ => ⟨S4x82944x1, .f32⟩
  | .hbm, ⟨26, _⟩ => ⟨S4x82944x1, .f32⟩
  | .hbm, ⟨27, _⟩ => ⟨S4x160x1, .f32⟩
  | .hbm, ⟨28, _⟩ => ⟨S4x1x1, .f32⟩
  | .hbm, ⟨29, _⟩ => ⟨S4x160x1, .f32⟩
  | .hbm, ⟨30, _⟩ => ⟨S4x160x1, .f32⟩
  | .hbm, ⟨31, _⟩ => ⟨S_, .f32⟩
  | .hbm, ⟨32, _⟩ => ⟨S4x160x1, .f32⟩
  | .hbm, ⟨33, _⟩ => ⟨S4x160x1, .f32⟩
  | .hbm, ⟨34, _⟩ => ⟨S4x160x1, .f32⟩
  | .hbm, ⟨35, _⟩ => ⟨S4x82944x1, .f32⟩
  | .hbm, ⟨36, _⟩ => ⟨S4x1x1, .f32⟩
  | .hbm, ⟨37, _⟩ => ⟨S4x82944x1, .f32⟩
  | .hbm, ⟨38, _⟩ => ⟨S4x82944x1, .f32⟩
  | .hbm, ⟨39, _⟩ => ⟨S_, .f32⟩
  | .hbm, ⟨40, _⟩ => ⟨S4x82944x1, .f32⟩
  | .hbm, ⟨41, _⟩ => ⟨S4x82944x1, .f32⟩
  | .hbm, ⟨42, _⟩ => ⟨S4x82944x1, .f32⟩
  | .hbm, ⟨43, _⟩ => ⟨S4x160x1, .f32⟩
  | .hbm, ⟨44, _⟩ => ⟨S4x1x1, .f32⟩
  | .hbm, ⟨45, _⟩ => ⟨S4x160x1, .f32⟩
  | .hbm, ⟨46, _⟩ => ⟨S4x160x1, .f32⟩
  | .hbm, ⟨47, _⟩ => ⟨S_, .f32⟩
  | .hbm, ⟨48, _⟩ => ⟨S4x160x1, .f32⟩
  | .hbm, ⟨49, _⟩ => ⟨S4x160x1, .f32⟩
  | .hbm, ⟨50, _⟩ => ⟨S4x160x1, .f32⟩
  | .hbm, ⟨51, _⟩ => ⟨S4x82944x1, .f32⟩
  | .hbm, ⟨52, _⟩ => ⟨S4x1x1, .f32⟩
  | .hbm, ⟨53, _⟩ => ⟨S4x82944x1, .f32⟩
  | .hbm, ⟨54, _⟩ => ⟨S4x82944x1, .f32⟩
  | .hbm, ⟨55, _⟩ => ⟨S_, .f32⟩
  | .hbm, ⟨56, _⟩ => ⟨S4x82944x1, .f32⟩
  | .hbm, ⟨57, _⟩ => ⟨S4x82944x1, .f32⟩
  | .hbm, ⟨58, _⟩ => ⟨S4x82944x1, .f32⟩
  | .hbm, ⟨59, _⟩ => ⟨S4x160x1, .f32⟩
  | .hbm, ⟨60, _⟩ => ⟨S4x1x1, .f32⟩
  | .hbm, ⟨61, _⟩ => ⟨S4x160x1, .f32⟩
  | .hbm, ⟨62, _⟩ => ⟨S4x160x1, .f32⟩
  | .hbm, ⟨63, _⟩ => ⟨S_, .f32⟩
  | .hbm, ⟨64, _⟩ => ⟨S4x160x1, .f32⟩
  | .hbm, ⟨65, _⟩ => ⟨S4x160x1, .f32⟩
  | .hbm, ⟨66, _⟩ => ⟨S4x160x1, .f32⟩
  | .hbm, ⟨67, _⟩ => ⟨S4x82944x1, .f32⟩
  | .hbm, ⟨68, _⟩ => ⟨S4x1x1, .f32⟩
  | .hbm, ⟨69, _⟩ => ⟨S4x82944x1, .f32⟩
  | .hbm, ⟨70, _⟩ => ⟨S4x82944x1, .f32⟩
  | .hbm, ⟨71, _⟩ => ⟨S_, .f32⟩
  | .hbm, ⟨72, _⟩ => ⟨S4x82944x1, .f32⟩
  | .hbm, ⟨73, _⟩ => ⟨S4x82944x1, .f32⟩
  | .hbm, ⟨74, _⟩ => ⟨S4x82944x1, .f32⟩
  | .hbm, ⟨75, _⟩ => ⟨S4x160x1, .f32⟩
  | .hbm, ⟨76, _⟩ => ⟨S4x1x1, .f32⟩
  | .hbm, ⟨77, _⟩ => ⟨S4x160x1, .f32⟩
  | .hbm, ⟨78, _⟩ => ⟨S4x160x1, .f32⟩
  | .hbm, ⟨79, _⟩ => ⟨S_, .f32⟩
  | .hbm, ⟨80, _⟩ => ⟨S4x160x1, .f32⟩
  | .hbm, ⟨81, _⟩ => ⟨S4x160x1, .f32⟩
  | .hbm, ⟨82, _⟩ => ⟨S4x160x1, .f32⟩
  | .hbm, ⟨83, _⟩ => ⟨S4x82944x1, .f32⟩
  | .hbm, ⟨84, _⟩ => ⟨S4x1x1, .f32⟩
  | .hbm, ⟨85, _⟩ => ⟨S4x82944x1, .f32⟩
  | .hbm, ⟨86, _⟩ => ⟨S4x82944x1, .f32⟩
  | .hbm, ⟨87, _⟩ => ⟨S_, .f32⟩
  | .hbm, ⟨88, _⟩ => ⟨S4x82944x1, .f32⟩
  | .hbm, ⟨89, _⟩ => ⟨S4x82944x1, .f32⟩
  | .hbm, ⟨90, _⟩ => ⟨S4x82944x1, .f32⟩
  | .hbm, ⟨91, _⟩ => ⟨S4x160x82944, .f32⟩
  | .hbm, ⟨92, _⟩ => ⟨S4x16x160x72x72, .f32⟩
  | _, _ => ⟨S4x16x160x72x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_8 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_9 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_10 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_11 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]

class Facts₀ : Prop where
  shapeCasts_S4x16x160x72x72_S4x160x82944 : S4x16x160x72x72.ShapeCasts S4x160x82944
  bcast_S_S4x82944x1 : S_.BroadcastsInDim S4x82944x1 (![] : Fin 0 → Fin S4x82944x1.rank)
  reducesTo_S4x82944x1_S4x82944_d2 : S4x82944x1.ReducesTo [2] S4x82944
  h_S_ : 0 < S_.numel
  bcast_S_S4x82944 : S_.BroadcastsInDim S4x82944 (![] : Fin 0 → Fin S4x82944.rank)
  bcast_S4x82944_S4x82944x1_0_1 : S4x82944.BroadcastsInDim S4x82944x1 (![0, 1] : Fin 2 → Fin S4x82944x1.rank)
  bcast_S_S4x160x1 : S_.BroadcastsInDim S4x160x1 (![] : Fin 0 → Fin S4x160x1.rank)
  shapeCasts_S4x160x82944_S4x16x160x72x72 : S4x160x82944.ShapeCasts S4x16x160x72x72
  dot_S4x160x82944_S4x160x1_S4x82944x1_1_1_2_2_0_0_wf : DotDims.WF S4x160x82944 S4x160x1 S4x82944x1 [1] [1] [2] [2] [0] [0]
  dot_S4x160x1_S4x160x1_S4x1x1_1_1_2_2_0_0_wf : DotDims.WF S4x160x1 S4x160x1 S4x1x1 [1] [1] [2] [2] [0] [0]
  dot_S4x82944x1_S4x1x1_S4x82944x1_2_1_1_2_0_0_wf : DotDims.WF S4x82944x1 S4x1x1 S4x82944x1 [2] [1] [1] [2] [0] [0]
  dot_S4x160x82944_S4x82944x1_S4x160x1_2_1_1_2_0_0_wf : DotDims.WF S4x160x82944 S4x82944x1 S4x160x1 [2] [1] [1] [2] [0] [0]
  dot_S4x82944x1_S4x82944x1_S4x1x1_1_1_2_2_0_0_wf : DotDims.WF S4x82944x1 S4x82944x1 S4x1x1 [1] [1] [2] [2] [0] [0]
  dot_S4x160x1_S4x1x1_S4x160x1_2_1_1_2_0_0_wf : DotDims.WF S4x160x1 S4x1x1 S4x160x1 [2] [1] [1] [2] [0] [0]
  dot_S4x160x1_S4x82944x1_S4x160x82944_2_2_1_1_0_0_wf : DotDims.WF S4x160x1 S4x82944x1 S4x160x82944 [2] [2] [1] [1] [0] [0]

variable [Facts₀]

def dot_S4x160x82944_S4x160x1_S4x82944x1_1_1_2_2_0_0 : DotDims S4x160x82944 S4x160x1 S4x82944x1 where
  lhsContracting := [1]
  rhsContracting := [1]
  lhsNonContracting := [2]
  rhsNonContracting := [2]
  lhsBatch := [0]
  rhsBatch := [0]
  wf := dot_S4x160x82944_S4x160x1_S4x82944x1_1_1_2_2_0_0_wf
def dot_S4x160x1_S4x160x1_S4x1x1_1_1_2_2_0_0 : DotDims S4x160x1 S4x160x1 S4x1x1 where
  lhsContracting := [1]
  rhsContracting := [1]
  lhsNonContracting := [2]
  rhsNonContracting := [2]
  lhsBatch := [0]
  rhsBatch := [0]
  wf := dot_S4x160x1_S4x160x1_S4x1x1_1_1_2_2_0_0_wf
def dot_S4x82944x1_S4x1x1_S4x82944x1_2_1_1_2_0_0 : DotDims S4x82944x1 S4x1x1 S4x82944x1 where
  lhsContracting := [2]
  rhsContracting := [1]
  lhsNonContracting := [1]
  rhsNonContracting := [2]
  lhsBatch := [0]
  rhsBatch := [0]
  wf := dot_S4x82944x1_S4x1x1_S4x82944x1_2_1_1_2_0_0_wf
def dot_S4x160x82944_S4x82944x1_S4x160x1_2_1_1_2_0_0 : DotDims S4x160x82944 S4x82944x1 S4x160x1 where
  lhsContracting := [2]
  rhsContracting := [1]
  lhsNonContracting := [1]
  rhsNonContracting := [2]
  lhsBatch := [0]
  rhsBatch := [0]
  wf := dot_S4x160x82944_S4x82944x1_S4x160x1_2_1_1_2_0_0_wf
def dot_S4x82944x1_S4x82944x1_S4x1x1_1_1_2_2_0_0 : DotDims S4x82944x1 S4x82944x1 S4x1x1 where
  lhsContracting := [1]
  rhsContracting := [1]
  lhsNonContracting := [2]
  rhsNonContracting := [2]
  lhsBatch := [0]
  rhsBatch := [0]
  wf := dot_S4x82944x1_S4x82944x1_S4x1x1_1_1_2_2_0_0_wf
def dot_S4x160x1_S4x1x1_S4x160x1_2_1_1_2_0_0 : DotDims S4x160x1 S4x1x1 S4x160x1 where
  lhsContracting := [2]
  rhsContracting := [1]
  lhsNonContracting := [1]
  rhsNonContracting := [2]
  lhsBatch := [0]
  rhsBatch := [0]
  wf := dot_S4x160x1_S4x1x1_S4x160x1_2_1_1_2_0_0_wf
def dot_S4x160x1_S4x82944x1_S4x160x82944_2_2_1_1_0_0 : DotDims S4x160x1 S4x82944x1 S4x160x82944 where
  lhsContracting := [2]
  rhsContracting := [2]
  lhsNonContracting := [1]
  rhsNonContracting := [1]
  lhsBatch := [0]
  rhsBatch := [0]
  wf := dot_S4x160x1_S4x82944x1_S4x160x82944_2_2_1_1_0_0_wf

class Facts : Prop extends Facts₀ where

variable [Facts]
-- ==== Proof.Spec.lean ====
/-
  The mathematics both programs compute, stated once over the extended reals.

  The data: a tensor `x` read as `x b d n` (4 batches, 160 rows, 82944 columns), a row vector `w b d` per batch
  (the bases) and a column vector `c b n` per batch (the coefficients).  One round of the multiplicative update is

      c' b n = c b n · (∑_d x b d n · w b d) / (c b n · (∑_d w b d · w b d) + ε)
      w' b d = w b d · (∑_n x b d n · c' b n) / (w b d · (∑_n c' b n · c' b n) + ε)

  Four rounds from `c = 1`, one more update of `c` against the last `w`, and the result is the rank-one product
  `w b d · c b n`.  Both programs are shown to compute `result` below; nothing here mentions either program.
  The vectors are laid out as [4,160,82944], [4,160,1] and [4,1,82944].
-/
import Idealize.ShloMosaic.PureOps.Ideal
import Idealize.ShloMosaic.Lib.ValueIdx

noncomputable section

namespace Cert.Nmf

open Idealize.ShloMosaic Idealize.ShloMosaic.ValueIdx

/-- The data tensor's shape, the bases' and the coefficients'. -/
abbrev SX : Shape := ⟨3, ![4, 160, 82944]⟩
abbrev SW : Shape := ⟨3, ![4, 160, 1]⟩
abbrev SC : Shape := ⟨3, ![4, 1, 82944]⟩

/-- The regulariser both programs add to a denominator: the f32 nearest to 1e-6, as its exact value. -/
def eps : EReal := Ideal.ofBits .f32 0x358637BD#32

/-- `∑_d x b d n · w b d`: the data contracted with the bases over the rows. -/
def numC (x : FVec Ideal SX .f32) (w : FVec Ideal SW .f32) : FVec Ideal SC .f32 :=
  fun i => ∑ d : Fin 160, x (ix3 (i 0 : Fin 4) d (i 2 : Fin 82944)) * w (ix3 (i 0 : Fin 4) d (0 : Fin 1))

/-- `∑_n x b d n · c b n`: the data contracted with the coefficients over the columns. -/
def numB (x : FVec Ideal SX .f32) (c : FVec Ideal SC .f32) : FVec Ideal SW .f32 :=
  fun i => ∑ n : Fin 82944, x (ix3 (i 0 : Fin 4) (i 1 : Fin 160) n) * c (ix3 (i 0 : Fin 4) (0 : Fin 1) n)

/-- `∑_d w b d · w b d`. -/
def sqW (w : FVec Ideal SW .f32) (b : Fin 4) : EReal := ∑ d : Fin 160, w (ix3 b d (0 : Fin 1)) * w (ix3 b d (0 : Fin 1))

/-- `∑_n c b n · c b n`. -/
def sqC (c : FVec Ideal SC .f32) (b : Fin 4) : EReal := ∑ n : Fin 82944, c (ix3 b (0 : Fin 1) n) * c (ix3 b (0 : Fin 1) n)

/-- The coefficients' update from the contraction `nc` and the bases `w`. -/
def updC (c nc : FVec Ideal SC .f32) (w : FVec Ideal SW .f32) : FVec Ideal SC .f32 :=
  fun i => Ideal.div (c i * nc i) (c i * sqW w (i 0 : Fin 4) + eps)

/-- The bases' update from the contraction `nb` and the coefficients `c`. -/
def updB (w nb : FVec Ideal SW .f32) (c : FVec Ideal SC .f32) : FVec Ideal SW .f32 :=
  fun i => Ideal.div (w i * nb i) (w i * sqC c (i 0 : Fin 4) + eps)

/-- The rank-one product `w b d · c b n`. -/
def outer (w : FVec Ideal SW .f32) (c : FVec Ideal SC .f32) : FVec Ideal SX .f32 :=
  fun i => w (ix3 (i 0 : Fin 4) (i 1 : Fin 160) (0 : Fin 1)) * c (ix3 (i 0 : Fin 4) (0 : Fin 1) (i 2 : Fin 82944))

/-- The coefficients every run starts from. -/
def ones : FVec Ideal SC .f32 := fun _ => 1

/-- The coefficients after an update against the bases `w`. -/
def nextC (x : FVec Ideal SX .f32) (w : FVec Ideal SW .f32) (c : FVec Ideal SC .f32) : FVec Ideal SC .f32 :=
  updC c (numC x w) w

/-- The bases after an update against the coefficients `c`. -/
def nextW (x : FVec Ideal SX .f32) (w : FVec Ideal SW .f32) (c : FVec Ideal SC .f32) : FVec Ideal SW .f32 :=
  updB w (numB x c) c

/-- The coefficients and bases round by round, written out: `c₁ … c₅`, `w₁ … w₄`. -/
def c1 (x : FVec Ideal SX .f32) (w0 : FVec Ideal SW .f32) : FVec Ideal SC .f32 := nextC x w0 ones
def w1 (x : FVec Ideal SX .f32) (w0 : FVec Ideal SW .f32) : FVec Ideal SW .f32 := nextW x w0 (c1 x w0)
def c2 (x : FVec Ideal SX .f32) (w0 : FVec Ideal SW .f32) : FVec Ideal SC .f32 := nextC x (w1 x w0) (c1 x w0)
def w2 (x : FVec Ideal SX .f32) (w0 : FVec Ideal SW .f32) : FVec Ideal SW .f32 := nextW x (w1 x w0) (c2 x w0)
def c3 (x : FVec Ideal SX .f32) (w0 : FVec Ideal SW .f32) : FVec Ideal SC .f32 := nextC x (w2 x w0) (c2 x w0)
def w3 (x : FVec Ideal SX .f32) (w0 : FVec Ideal SW .f32) : FVec Ideal SW .f32 := nextW x (w2 x w0) (c3 x w0)
def c4 (x : FVec Ideal SX .f32) (w0 : FVec Ideal SW .f32) : FVec Ideal SC .f32 := nextC x (w3 x w0) (c3 x w0)
def w4 (x : FVec Ideal SX .f32) (w0 : FVec Ideal SW .f32) : FVec Ideal SW .f32 := nextW x (w3 x w0) (c4 x w0)
def c5 (x : FVec Ideal SX .f32) (w0 : FVec Ideal SW .f32) : FVec Ideal SC .f32 := nextC x (w4 x w0) (c4 x w0)

/-- What both programs leave, before the final change of shape: `w₄ b d · c₅ b n`. -/
def result (x : FVec Ideal SX .f32) (w0 : FVec Ideal SW .f32) : FVec Ideal SX .f32 := outer (w4 x w0) (c5 x w0)

/-- The argument's and the result's shape: the data as both programs receive it, before it is read as [4,160,82944]. -/
abbrev S5 : Shape := ⟨5, ![4, 16, 160, 72, 72]⟩

/-- The whole function of the two arguments: the data read row-major as [4,160,82944], `result`, and the result read
    row-major back as [4,16,160,72,72]. -/
def final (x5 : FVec Ideal S5 .f32) (w0 : FVec Ideal SW .f32) (h1 : S5.ShapeCasts SX) (h2 : SX.ShapeCasts S5) :
    FVec Ideal S5 .f32 :=
  shapeCast S5 (result (shapeCast SX x5 h1) w0) h2

/-! ## The coefficients as a column

One of the two programs keeps the coefficients as [4,82944,1] instead of [4,1,82944]: the same numbers, the two
short axes exchanged. -/

abbrev SCr : Shape := ⟨3, ![4, 82944, 1]⟩

/-- A row of coefficients written as a column. -/
def toCol (c : FVec Ideal SC .f32) : FVec Ideal SCr .f32 := fun i => c (ix3 (i 0 : Fin 4) (0 : Fin 1) (i 1 : Fin 82944))

/-- A column of coefficients written as a row. -/
def toRow (c : FVec Ideal SCr .f32) : FVec Ideal SC .f32 := fun i => c (ix3 (i 0 : Fin 4) (i 2 : Fin 82944) (0 : Fin 1))

theorem toRow_toCol (c : FVec Ideal SC .f32) : toRow (toCol c) = c := by
  funext i
  show c (ix3 _ _ _) = c i
  refine congrArg c (funext fun a => ?_)
  match a with
  | ⟨0, _⟩ => rfl
  | ⟨1, _⟩ => exact Fin.ext (by have : (i 1).val < 1 := (i 1).isLt; show (0 : Nat) = (i 1).val; omega)
  | ⟨2, _⟩ => rfl

theorem toCol_toRow (c : FVec Ideal SCr .f32) : toCol (toRow c) = c := by
  funext i
  show c (ix3 _ _ _) = c i
  refine congrArg c (funext fun a => ?_)
  match a with
  | ⟨0, _⟩ => rfl
  | ⟨1, _⟩ => rfl
  | ⟨2, _⟩ => exact Fin.ext (by have : (i 2).val < 1 := (i 2).isLt; show (0 : Nat) = (i 2).val; omega)

end Cert.Nmf

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Finite.lean ====
import proofs.«150630_j3693671875223_1_alg».proof.Proof.Gen.Pre_finite_inputs
import proofs.«150630_j3693671875223_1_alg».proof.Proof.LibRealSums
import Idealize.ShloMosaic.Lib.ValueIdx
import Idealize.ShloMosaic.Lib.ReduceAll
import Idealize.ShloMosaic.PureOps.Ideal.Laws

noncomputable section

open Idealize.ShloMosaic

namespace Cert.Nmf.Finite
open Idealize.ShloMosaic.RealSums

/-- The f32 word of +inf is the top of the extended reals. -/
theorem inf_word : Ideal.ofBits .f32 0x7F800000#32 = (⊤ : EReal) := by
  simp [Ideal.ofBits, Ideal.ieee]

/-- An extended real whose absolute value is below +inf is a real number. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact IsReal.coe r
  | top => simp [Ideal.cmp] at h

/-- A shape of rank zero has one index. -/
instance : Subsingleton Cert.Pre_finite_inputs.S_.Idx := ⟨fun a b => funext fun d => d.elim0⟩

/-- The precondition, read: where it is all ones, every entry of both arguments is a real number. -/
theorem isReal_of_pre (x : FVec Ideal Cert.Pre_finite_inputs.S4x16x160x72x72 .f32) (w : FVec Ideal Cert.Pre_finite_inputs.S4x160x1 .f32)
    (h : Cert.Pre_finite_inputs.fn (F := Ideal) x w = fun _ => 1#1) : (∀ i, IsReal (x i)) ∧ (∀ i, IsReal (w i)) := by
  have h0 := congrFun h ValueIdx.ix0
  dsimp only [Cert.Pre_finite_inputs.fn] at h0
  obtain ⟨hx, hw⟩ := IntOp.andi_eq_one.1 h0
  exact ⟨fun i => isReal_of_abs_lt (x i) (Host.reduce_andi_all _ _ _ _ _ hx i),
    fun i => isReal_of_abs_lt (w i) (Host.reduce_andi_all _ _ _ _ _ hw i)⟩

end Cert.Nmf.Finite

end
-- ==== Proof.SpecEqs.lean ====
/-
  The rounds of the specification, each unfolded once: the coefficients and bases after a round as one update of the
  round before.
-/
import proofs.«150630_j3693671875223_1_alg».proof.Proof.Spec

noncomputable section

namespace Cert.Nmf

open Idealize.ShloMosaic

variable (x : FVec Ideal SX .f32) (w0 : FVec Ideal SW .f32)

theorem c1_eq : c1 x w0 = updC ones (numC x w0) w0 := rfl
theorem w1_eq : w1 x w0 = updB w0 (numB x (c1 x w0)) (c1 x w0) := rfl
theorem c2_eq : c2 x w0 = updC (c1 x w0) (numC x (w1 x w0)) (w1 x w0) := rfl
theorem w2_eq : w2 x w0 = updB (w1 x w0) (numB x (c2 x w0)) (c2 x w0) := rfl
theorem c3_eq : c3 x w0 = updC (c2 x w0) (numC x (w2 x w0)) (w2 x w0) := rfl
theorem w3_eq : w3 x w0 = updB (w2 x w0) (numB x (c3 x w0)) (c3 x w0) := rfl
theorem c4_eq : c4 x w0 = updC (c3 x w0) (numC x (w3 x w0)) (w3 x w0) := rfl
theorem w4_eq : w4 x w0 = updB (w3 x w0) (numB x (c4 x w0)) (c4 x w0) := rfl
theorem c5_eq : c5 x w0 = updC (c4 x w0) (numC x (w4 x w0)) (w4 x w0) := rfl
theorem result_eq : result x w0 = outer (w4 x w0) (updC (c4 x w0) (numC x (w4 x w0)) (w4 x w0)) := rfl

end Cert.Nmf

end
-- ==== Proof.KHost.lean ====
import proofs.«150630_j3693671875223_1_alg».proof.Proof.Gen.KernelIdeal
import proofs.«150630_j3693671875223_1_alg».proof.Proof.Spec
import Idealize.ShloMosaic.Lib.Pipeline.Value
import Idealize.ShloMosaic.Lib.ValueIdx
import Idealize.ShloMosaic.PureOps.Ideal.Laws

noncomputable section

open Idealize.ShloMosaic

namespace Cert.KernelIdeal.HostVal
open Cert.KernelIdeal Cert.KernelIdeal.Gen Cert.Nmf
open Idealize.ShloMosaic.ValueIdx

/-- The sum of squares of the bases over the rows, as the host's reduction reads at a result index. -/
theorem redW_apply (w : FVec Ideal S4x160x1 .f32) (b : Fin 4) (u : Fin 1) :
    (Host.reduceAdd (mulf w w) (constant (F := Ideal) S_ .f32 0x00000000#32) reducesTo_S4x160x1_S4x1_d1 h_S_ :
        FVec Ideal S4x1 .f32) (ix2 b u) = sqW w b := by
  show Ideal.hostReduceAdd reducesTo_S4x160x1_S4x1_d1 (mulf w w) (Ideal.ofBits .f32 0x00000000#32) (ix2 b u) = _
  rw [Ideal.hostReduceAdd_single reducesTo_S4x160x1_S4x1_d1 (by decide : S4x160x1.Reduces [1] S4x1),
    Ideal.ofBits_zero_f32, zero_add]
  unfold sqW
  refine Finset.sum_congr rfl fun k _ => ?_
  have e : (by decide : S4x160x1.Reduces [1] S4x1).lift (ix2 b u) k = ix3 b k (0 : Fin 1) := by
    funext a
    match a with
    | ⟨0, _⟩ => rfl
    | ⟨1, _⟩ => rfl
    | ⟨2, _⟩ => exact Fin.ext (by have := u.isLt; show u.val = 0; omega)
  rw [e]; rfl

/-- The sum of squares of the coefficients over the columns, as the host's reduction reads at a result index. -/
theorem redC_apply (c : FVec Ideal S4x1x82944 .f32) (b : Fin 4) (u : Fin 1) :
    (Host.reduceAdd (mulf c c) (constant (F := Ideal) S_ .f32 0x00000000#32) reducesTo_S4x1x82944_S4x1_d2 h_S_ :
        FVec Ideal S4x1 .f32) (ix2 b u) = sqC c b := by
  show Ideal.hostReduceAdd reducesTo_S4x1x82944_S4x1_d2 (mulf c c) (Ideal.ofBits .f32 0x00000000#32) (ix2 b u) = _
  rw [Ideal.hostReduceAdd_single reducesTo_S4x1x82944_S4x1_d2 (by decide : S4x1x82944.Reduces [2] S4x1),
    Ideal.ofBits_zero_f32, zero_add]
  unfold sqC
  refine Finset.sum_congr rfl fun k _ => ?_
  have e : (by decide : S4x1x82944.Reduces [2] S4x1).lift (ix2 b u) k = ix3 b (0 : Fin 1) k := by
    funext a
    match a with
    | ⟨0, _⟩ => rfl
    | ⟨1, _⟩ => exact Fin.ext (by have := u.isLt; show u.val = 0; omega)
    | ⟨2, _⟩ => rfl
  rw [e]; rfl

/-- A per-batch number spread back over the coefficients' shape is that number at every column. -/
theorem spreadC_apply (r : FVec Ideal S4x1 .f32) (b : Fin 4) (u : Fin 1) (n : Fin 82944) :
    broadcastInDim S4x1x82944 ![0, 1, 2] bcast_S4x1x1_S4x1x82944_0_1_2
      (broadcastInDim S4x1x1 ![0, 2] bcast_S4x1_S4x1x1_0_2 r) (ix3 b u n) = r (ix2 b (0 : Fin 1)) := by
  rw [broadcastInDim_apply _ _ _ _ (ix3 b (0 : Fin 1) (0 : Fin 1)) (by
        intro a; match a with | ⟨0, _⟩ => rfl | ⟨1, _⟩ => rfl | ⟨2, _⟩ => rfl),
      broadcastInDim_apply _ _ _ _ (ix2 b (0 : Fin 1)) (by
        intro a; match a with | ⟨0, _⟩ => rfl | ⟨1, _⟩ => rfl)]

/-- A per-batch number spread back over the bases' shape is that number at every row. -/
theorem spreadB_apply (r : FVec Ideal S4x1 .f32) (b : Fin 4) (d : Fin 160) (u : Fin 1) :
    broadcastInDim S4x160x1 ![0, 1, 2] bcast_S4x1x1_S4x160x1_0_1_2
      (broadcastInDim S4x1x1 ![0, 1] bcast_S4x1_S4x1x1_0_1 r) (ix3 b d u) = r (ix2 b (0 : Fin 1)) := by
  rw [broadcastInDim_apply _ _ _ _ (ix3 b (0 : Fin 1) (0 : Fin 1)) (by
        intro a; match a with | ⟨0, _⟩ => rfl | ⟨1, _⟩ => rfl | ⟨2, _⟩ => rfl),
      broadcastInDim_apply _ _ _ _ (ix2 b (0 : Fin 1)) (by
        intro a; match a with | ⟨0, _⟩ => rfl | ⟨1, _⟩ => rfl)]

/-- The host operations between two kernel regions that update the coefficients, as one term of the three arrays they read. -/
def termC (c nc : FVec Ideal S4x1x82944 .f32) (w : FVec Ideal S4x160x1 .f32) : FVec Ideal S4x1x82944 .f32 :=
  Host.divf (mulf c nc) (addf (mulf c (broadcastInDim S4x1x82944 ![0, 1, 2] bcast_S4x1x1_S4x1x82944_0_1_2 (broadcastInDim S4x1x1 ![0, 2] bcast_S4x1_S4x1x1_0_2 (Host.reduceAdd (mulf w w) (constant (F := Ideal) S_ .f32 0x00000000#32) reducesTo_S4x160x1_S4x1_d1 h_S_)))) (broadcastInDim S4x1x82944 ![] bcast_S_S4x1x82944 (constant (F := Ideal) S_ .f32 0x358637BD#32)))

theorem termC_eq (c nc : FVec Ideal S4x1x82944 .f32) (w : FVec Ideal S4x160x1 .f32) : termC c nc w = updC c nc w := by
  funext i
  obtain ⟨b, u, n, rfl⟩ : ∃ (b : Fin 4) (u : Fin 1) (n : Fin 82944), i = ix3 b u n := ⟨i 0, i 1, i 2, eq_ix3 i⟩
  show Ideal.div (c (ix3 b u n) * nc (ix3 b u n))
      (c (ix3 b u n) * broadcastInDim S4x1x82944 ![0, 1, 2] bcast_S4x1x1_S4x1x82944_0_1_2
          (broadcastInDim S4x1x1 ![0, 2] bcast_S4x1_S4x1x1_0_2
            (Host.reduceAdd (mulf w w) (constant (F := Ideal) S_ .f32 0x00000000#32) reducesTo_S4x160x1_S4x1_d1 h_S_)) (ix3 b u n)
        + eps)
    = Ideal.div (c (ix3 b u n) * nc (ix3 b u n)) (c (ix3 b u n) * sqW w b + eps)
  rw [spreadC_apply, redW_apply]

/-- The host operations between two kernel regions that update the bases, as one term of the three arrays they read. -/
def termB (w nb : FVec Ideal S4x160x1 .f32) (c : FVec Ideal S4x1x82944 .f32) : FVec Ideal S4x160x1 .f32 :=
  Host.divf (mulf w nb) (addf (mulf w (broadcastInDim S4x160x1 ![0, 1, 2] bcast_S4x1x1_S4x160x1_0_1_2 (broadcastInDim S4x1x1 ![0, 1] bcast_S4x1_S4x1x1_0_1 (Host.reduceAdd (mulf c c) (constant (F := Ideal) S_ .f32 0x00000000#32) reducesTo_S4x1x82944_S4x1_d2 h_S_)))) (broadcastInDim S4x160x1 ![] bcast_S_S4x160x1 (constant (F := Ideal) S_ .f32 0x358637BD#32)))

theorem termB_eq (w nb : FVec Ideal S4x160x1 .f32) (c : FVec Ideal S4x1x82944 .f32) : termB w nb c = updB w nb c := by
  funext i
  obtain ⟨b, d, u, rfl⟩ : ∃ (b : Fin 4) (d : Fin 160) (u : Fin 1), i = ix3 b d u := ⟨i 0, i 1, i 2, eq_ix3 i⟩
  show Ideal.div (w (ix3 b d u) * nb (ix3 b d u))
      (w (ix3 b d u) * broadcastInDim S4x160x1 ![0, 1, 2] bcast_S4x1x1_S4x160x1_0_1_2
          (broadcastInDim S4x1x1 ![0, 1] bcast_S4x1_S4x1x1_0_1
            (Host.reduceAdd (mulf c c) (constant (F := Ideal) S_ .f32 0x00000000#32) reducesTo_S4x1x82944_S4x1_d2 h_S_)) (ix3 b d u)
        + eps)
    = Ideal.div (w (ix3 b d u) * nb (ix3 b d u)) (w (ix3 b d u) * sqC c b + eps)
  rw [spreadB_apply, redC_apply]

theorem ones_eq : (broadcastInDim S4x1x82944 ![] bcast_S_S4x1x82944 (constant (F := Ideal) S_ .f32 0x3F800000#32) : FVec Ideal S4x1x82944 .f32) = ones := by
  funext i
  show Ideal.ofBits .f32 0x3F800000#32 = 1
  exact Idealize.ShloMosaic.IdealRules.sign_bit.ideal_onePat .f32

end Cert.KernelIdeal.HostVal

end
-- ==== Proof.KRegD0.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegD0
open Cert.KernelIdeal Cert.KernelIdeal.Gen Cert.Nmf

open Idealize.ShloMosaic.ValueIdx

/-! # The coefficients' contraction, as the region leaves it

The region sweeps a grid of (batch, column tile) points. At each point the body holds one batch's data for a tile of
9216 columns, all 160 rows, and that batch's bases, and writes for each column of the tile the sum over the rows of
data times bases. The tiles of the 4 batches and 9 column tiles fill the [4,1,82944] array exactly once, so after the
last point the array holds that contraction at every entry. -/

/-- The lane sum over the rows, read at a column: the sum over the 160 rows of the summand at (row, column). -/
theorem sumRows_apply (src : FVec Ideal S160x9216 .f32) (h : S160x9216.Reduces [0] S9216) (hφ : FKind.Formats .f32)
    (hacc : (0x00000000#32 : BitVec 32) = 0x00000000#32) (j : Fin 9216) :
    multiReduction .add [0] S9216 src 0x00000000#32 h hφ hacc (ix1 j) = ∑ d : Fin 160, src (ix2 d j) := by
  refine (Ideal.multiReduction_add_single src 0x00000000#32 h hφ hacc (ix1 j)).trans ?_
  refine Finset.sum_congr rfl fun d _ => congrArg src ?_
  funext a
  match a with
  | ⟨0, _⟩ => rfl
  | ⟨1, _⟩ => rfl

/-- The bases' column [160,1] spread over the 9216 columns reads, at (row, column), the column's entry at the row. -/
theorem spreadCol_apply (x : FVec Ideal S160x1 .f32) (h : S160x1.Broadcasts S160x9216) (d : Fin 160) (j : Fin 9216) :
    broadcastTo S160x9216 x h (ix2 d j) = x (ix2 d (0 : Fin 1)) := by
  refine broadcastTo_apply x h _ _ fun a => ?_
  match a with
  | ⟨0, _⟩ => rfl
  | ⟨1, _⟩ => rfl

/-- The body's arithmetic at a column j of its block: the data block's column contracted with the bases over the rows. -/
theorem pay_apply (x0 : Vec Ideal S1x160x9216 .f32) (x1 : Vec Ideal S1x160x1 .f32) (u v : Fin 1) (j : Fin 9216) :
    k0_pay1 x0 x1 (ix3 u v j) = ∑ d : Fin 160, x0 (ix3 (0 : Fin 1) d j) * x1 (ix3 (0 : Fin 1) d (0 : Fin 1)) := by
  unfold k0_pay1
  refine (shapeCast_ab_1ab_apply _ _ u v j).trans ?_
  refine (shapeCast_a_1a_apply _ _ v j).trans ?_
  refine (sumRows_apply _ _ _ _ j).trans ?_
  refine Finset.sum_congr rfl fun d _ => ?_
  rw [mulf_apply, spreadCol_apply, shapeCast_1ab_ab_apply, shapeCast_1ab_ab_apply]

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the data's block moves with the output's along the batch and the columns and spans all
    rows; the bases' block moves with the batch only; the output's block has one row. -/
theorem idx_facts : ∀ t : Fin cfg0.N, win0_0.index t (0 : Fin 3) = win0_2.index t (0 : Fin 3)
    ∧ win0_0.index t (1 : Fin 3) = 0
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (1 : Fin 3) = 0 :=
  (by decide +kernel : ∀ t : Fin grid0.N, _)

/-- Every (batch, column tile) pair is some point's output block. -/
theorem idx_onto : ∀ (q0 : Fin 4) (q2 : Fin 9), ∃ t : Fin cfg0.N, win0_2.index t = ![q0.val, 0, q2.val] :=
  (by decide +kernel : ∀ (q0 : Fin 4) (q2 : Fin 9), ∃ t : Fin grid0.N, win0_2.index t = ![q0.val, 0, q2.val])

/-- What point t writes back is its block of the contraction of the data with the bases. -/
theorem flushed_eq (c : Dev nD) (t : Fin cfg0.N) :
    (dat0 (F := Ideal) V c).flushed 2 t
      = ((cfg0.win 2).blk t).view.read (Elt Ideal) (numC (V c main_v0) (V c main_arg1)) := by
  show (cfg0.win 2).cut (grid0.coords t) ((dat0 V c).after 2 t) = _
  rw [after0_2]
  unfold out0_2
  rw [View.canon_unit_zero hz]
  simp only [View.ld_unit_zero (S := S1x160x9216) hz, View.ld_unit_zero (S := S1x160x1) hz]
  obtain ⟨e0, e1, e2, e3, e4, e5, e6⟩ := idx_facts t
  refine funext fun (j : S1x1x9216.Idx) => ?_
  obtain ⟨u, v, n, rfl⟩ : ∃ (u v : Fin 1) (n : Fin 9216), j = ix3 u v n := ⟨j 0, j 1, j 2, eq_ix3 j⟩
  show k0_pay1 (iblk0 V c 0 t) (iblk0 V c 1 t) (ix3 u v n)
      = numC (V c main_v0) (V c main_arg1) (((cfg0.win 2).blk t).view.emb (ix3 u v n))
  refine (pay_apply (iblk0 V c 0 t) (iblk0 V c 1 t) u v n).trans ?_
  refine Finset.sum_congr rfl fun d _ => ?_
  have hu : u.val = 0 := by omega
  have hv : v.val = 0 := by omega
  refine congrArg₂ (· * ·) ?_ ?_
  · show V c main_v0 (((cfg0.win 0).blk t).view.emb (ix3 (0 : Fin 1) d n)) = V c main_v0 _
    refine congrArg (V c main_v0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 160 + 1 * d.val = d.val; omega
    | ⟨2, _⟩ => show win0_0.index t (2 : Fin 3) * 9216 + 1 * n.val = win0_2.index t (2 : Fin 3) * 9216 + 1 * n.val; omega
  · show V c main_arg1 (((cfg0.win 1).blk t).view.emb (ix3 (0 : Fin 1) d (0 : Fin 1))) = V c main_arg1 _
    refine congrArg (V c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 160 + 1 * d.val = d.val; omega
    | ⟨2, _⟩ => show win0_1.index t (2 : Fin 3) * 1 + 1 * 0 = 0; omega

/-- An index of the coefficients' array is in point t's block iff each coordinate is in the block's range on its axis. -/
theorem mem_blk (t : Fin cfg0.N) (i : S4x1x82944.Idx) :
    i ∈ ((cfg0.win 2).blk t).view.set ↔ ∀ a : Fin 3, win0_2.index t a * S1x1x9216.size a ≤ (i a).val
      ∧ (i a).val < win0_2.index t a * S1x1x9216.size a + S1x1x9216.size a := by
  show i ∈ ((View.whole main_v2).slice (win0_2.rect t)).set ↔ _
  rw [View.set_slice_whole, Rect.mem_set_unit]
  exact Iff.rfl

/-- The blocks tile the array: entry (b, 0, n) lies in the block of the point whose batch is b and whose column tile
    is the one holding n. -/
theorem cover (i : S4x1x82944.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 82944 := (i 2).isLt
  obtain ⟨t, ht⟩ := idx_onto ⟨(i 0).val, hi0⟩ ⟨(i 2).val / 9216, by omega⟩
  have q0 : win0_2.index t (0 : Fin 3) = (i 0).val := congrFun ht 0
  have q1 : win0_2.index t (1 : Fin 3) = 0 := congrFun ht 1
  have q2 : win0_2.index t (2 : Fin 3) = (i 2).val / 9216 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 9216 ≤ (i 2).val ∧ (i 2).val < win0_2.index t (2 : Fin 3) * 9216 + 9216; omega

/-- The coefficients' contraction array after the region: every entry the sum over the rows of data times bases. -/
theorem arr (c : Dev nD) : (dat0 (F := Ideal) V c).arrAt 2 cfg0.N = numC (V c main_v0) (V c main_arg1) :=
  (dat0 V c).arrAt_eq_of_cover 2 (numC (V c main_v0) (V c main_arg1)) (fun t _ => flushed_eq V c t) cover

end Cert.KernelIdeal.RegD0

end
-- ==== Proof.KRegD2.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegD2
open Cert.KernelIdeal Cert.KernelIdeal.Gen Cert.Nmf

open Idealize.ShloMosaic.ValueIdx

/-! # The coefficients' contraction, as the region leaves it

The region sweeps a grid of (batch, column tile) points. At each point the body holds one batch's data for a tile of
9216 columns, all 160 rows, and that batch's bases, and writes for each column of the tile the sum over the rows of
data times bases. The tiles of the 4 batches and 9 column tiles fill the [4,1,82944] array exactly once, so after the
last point the array holds that contraction at every entry. -/

/-- The lane sum over the rows, read at a column: the sum over the 160 rows of the summand at (row, column). -/
theorem sumRows_apply (src : FVec Ideal S160x9216 .f32) (h : S160x9216.Reduces [0] S9216) (hφ : FKind.Formats .f32)
    (hacc : (0x00000000#32 : BitVec 32) = 0x00000000#32) (j : Fin 9216) :
    multiReduction .add [0] S9216 src 0x00000000#32 h hφ hacc (ix1 j) = ∑ d : Fin 160, src (ix2 d j) := by
  refine (Ideal.multiReduction_add_single src 0x00000000#32 h hφ hacc (ix1 j)).trans ?_
  refine Finset.sum_congr rfl fun d _ => congrArg src ?_
  funext a
  match a with
  | ⟨0, _⟩ => rfl
  | ⟨1, _⟩ => rfl

/-- The bases' column [160,1] spread over the 9216 columns reads, at (row, column), the column's entry at the row. -/
theorem spreadCol_apply (x : FVec Ideal S160x1 .f32) (h : S160x1.Broadcasts S160x9216) (d : Fin 160) (j : Fin 9216) :
    broadcastTo S160x9216 x h (ix2 d j) = x (ix2 d (0 : Fin 1)) := by
  refine broadcastTo_apply x h _ _ fun a => ?_
  match a with
  | ⟨0, _⟩ => rfl
  | ⟨1, _⟩ => rfl

/-- The body's arithmetic at a column j of its block: the data block's column contracted with the bases over the rows. -/
theorem pay_apply (x0 : Vec Ideal S1x160x9216 .f32) (x1 : Vec Ideal S1x160x1 .f32) (u v : Fin 1) (j : Fin 9216) :
    k2_pay1 x0 x1 (ix3 u v j) = ∑ d : Fin 160, x0 (ix3 (0 : Fin 1) d j) * x1 (ix3 (0 : Fin 1) d (0 : Fin 1)) := by
  unfold k2_pay1
  refine (shapeCast_ab_1ab_apply _ _ u v j).trans ?_
  refine (shapeCast_a_1a_apply _ _ v j).trans ?_
  refine (sumRows_apply _ _ _ _ j).trans ?_
  refine Finset.sum_congr rfl fun d _ => ?_
  rw [mulf_apply, spreadCol_apply, shapeCast_1ab_ab_apply, shapeCast_1ab_ab_apply]

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the data's block moves with the output's along the batch and the columns and spans all
    rows; the bases' block moves with the batch only; the output's block has one row. -/
theorem idx_facts : ∀ t : Fin cfg2.N, win2_0.index t (0 : Fin 3) = win2_2.index t (0 : Fin 3)
    ∧ win2_0.index t (1 : Fin 3) = 0
    ∧ win2_0.index t (2 : Fin 3) = win2_2.index t (2 : Fin 3)
    ∧ win2_1.index t (0 : Fin 3) = win2_2.index t (0 : Fin 3)
    ∧ win2_1.index t (1 : Fin 3) = 0
    ∧ win2_1.index t (2 : Fin 3) = 0
    ∧ win2_2.index t (1 : Fin 3) = 0 :=
  (by decide +kernel : ∀ t : Fin grid2.N, _)

/-- Every (batch, column tile) pair is some point's output block. -/
theorem idx_onto : ∀ (q0 : Fin 4) (q2 : Fin 9), ∃ t : Fin cfg2.N, win2_2.index t = ![q0.val, 0, q2.val] :=
  (by decide +kernel : ∀ (q0 : Fin 4) (q2 : Fin 9), ∃ t : Fin grid2.N, win2_2.index t = ![q0.val, 0, q2.val])

/-- What point t writes back is its block of the contraction of the data with the bases. -/
theorem flushed_eq (c : Dev nD) (t : Fin cfg2.N) :
    (dat2 (F := Ideal) V c).flushed 2 t
      = ((cfg2.win 2).blk t).view.read (Elt Ideal) (numC (V c main_v0) (V c main_v21)) := by
  show (cfg2.win 2).cut (grid2.coords t) ((dat2 V c).after 2 t) = _
  rw [after2_2]
  unfold out2_2
  rw [View.canon_unit_zero hz]
  simp only [View.ld_unit_zero (S := S1x160x9216) hz, View.ld_unit_zero (S := S1x160x1) hz]
  obtain ⟨e0, e1, e2, e3, e4, e5, e6⟩ := idx_facts t
  refine funext fun (j : S1x1x9216.Idx) => ?_
  obtain ⟨u, v, n, rfl⟩ : ∃ (u v : Fin 1) (n : Fin 9216), j = ix3 u v n := ⟨j 0, j 1, j 2, eq_ix3 j⟩
  show k2_pay1 (iblk2 V c 0 t) (iblk2 V c 1 t) (ix3 u v n)
      = numC (V c main_v0) (V c main_v21) (((cfg2.win 2).blk t).view.emb (ix3 u v n))
  refine (pay_apply (iblk2 V c 0 t) (iblk2 V c 1 t) u v n).trans ?_
  refine Finset.sum_congr rfl fun d _ => ?_
  have hu : u.val = 0 := by omega
  have hv : v.val = 0 := by omega
  refine congrArg₂ (· * ·) ?_ ?_
  · show V c main_v0 (((cfg2.win 0).blk t).view.emb (ix3 (0 : Fin 1) d n)) = V c main_v0 _
    refine congrArg (V c main_v0) (funext fun a => Fin.ext ?_)
    match a with
    | ⟨0, _⟩ => show win2_0.index t (0 : Fin 3) * 1 + 1 * 0 = win2_2.index t (0 : Fin 3) * 1 + 1 * u.val; omega
    | ⟨1, _⟩ => show win2_0.index t (1 : Fin 3) * 160 + 1 * d.val = d.val; omega
    | ⟨2, _⟩ => show win2_0.index t (2 : Fin 3) * 9216 + 1 * n.val = win2_2.index t (2 : Fin 3) * 9216 + 1 * n.val; omega
  · show V c main_v21 (((cfg2.win 1).blk t).view.emb (ix3 (0 : Fin 1) d (0 : Fin 1))) = V c main_v21 _
    refine congrArg (V c main_v21) (funext fun a => Fin.ext ?_)
    match a with
    | ⟨0, _⟩ => show win2_1.index t (0 : Fin 3) * 1 + 1 * 0 = win2_2.index t (0 : Fin 3) * 1 + 1 * u.val; omega
    | ⟨1, _⟩ => show win2_1.index t (1 : Fin 3) * 160 + 1 * d.val = d.val; omega
    | ⟨2, _⟩ => show win2_1.index t (2 : Fin 3) * 1 + 1 * 0 = 0; omega

/-- An index of the coefficients' array is in point t's block iff each coordinate is in the block's range on its axis. -/
theorem mem_blk (t : Fin cfg2.N) (i : S4x1x82944.Idx) :
    i ∈ ((cfg2.win 2).blk t).view.set ↔ ∀ a : Fin 3, win2_2.index t a * S1x1x9216.size a ≤ (i a).val
      ∧ (i a).val < win2_2.index t a * S1x1x9216.size a + S1x1x9216.size a := by
  show i ∈ ((View.whole main_v2).slice (win2_2.rect t)).set ↔ _
  rw [View.set_slice_whole, Rect.mem_set_unit]
  exact Iff.rfl

/-- The blocks tile the array: entry (b, 0, n) lies in the block of the point whose batch is b and whose column tile
    is the one holding n. -/
theorem cover (i : S4x1x82944.Idx) :
    ∃ t : Fin cfg2.N, (cfg2.win 2).flush t = true ∧ i ∈ ((cfg2.win 2).blk t).view.set := by
  have hi0 : (i 0).val < 4 := (i 0).isLt
  have hi1 : (i 1).val < 1 := (i 1).isLt
  have hi2 : (i 2).val < 82944 := (i 2).isLt
  obtain ⟨t, ht⟩ := idx_onto ⟨(i 0).val, hi0⟩ ⟨(i 2).val / 9216, by omega⟩
  have q0 : win2_2.index t (0 : Fin 3) = (i 0).val := congrFun ht 0
  have q1 : win2_2.index t (1 : Fin 3) = 0 := congrFun ht 1
  have q2 : win2_2.index t (2 : Fin 3) = (i 2).val / 9216 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1 ≤ (i 1).val ∧ (i 1).val < win2_2.index t (1 : Fin 3) * 1 + 1; omega
  | ⟨2, _⟩ => show win2_2.index t (2 : Fin 3) * 9216 ≤ (i 2).val ∧ (i 2).val < win2_2.index t (2 : Fin 3) * 9216 + 9216; omega

/-- The coefficients' contraction array after the region: every entry the sum over the rows of data times bases. -/
theorem arr (c : Dev nD) : (dat2 (F := Ideal) V c).arrAt 2 cfg2.N = numC (V c main_v0) (V c main_v21) :=
  (dat2 V c).arrAt_eq_of_cover 2 (numC (V c main_v0) (V c main_v21)) (fun t _ => flushed_eq V c t) cover

end Cert.KernelIdeal.RegD2

end
-- ==== Proof.KRegD4.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegD4
open Cert.KernelIdeal Cert.KernelIdeal.Gen Cert.Nmf

open Idealize.ShloMosaic.ValueIdx

/-! # The coefficients' contraction, as the region leaves it

The region sweeps a grid of (batch, column tile) points. At each point the body holds one batch's data for a tile of
9216 columns, all 160 rows, and that batch's bases, and writes for each column of the tile the sum over the rows of
data times bases. The tiles of the 4 batches and 9 column tiles fill the [4,1,82944] array exactly once, so after the
last point the array holds that contraction at every entry. -/

/-- The lane sum over the rows, read at a column: the sum over the 160 rows of the summand at (row, column). -/
theorem sumRows_apply (src : FVec Ideal S160x9216 .f32) (h : S160x9216.Reduces [0] S9216) (hφ : FKind.Formats .f32)
    (hacc : (0x00000000#32 : BitVec 32) = 0x00000000#32) (j : Fin 9216) :
    multiReduction .add [0] S9216 src 0x00000000#32 h hφ hacc (ix1 j) = ∑ d : Fin 160, src (ix2 d j) := by
  refine (Ideal.multiReduction_add_single src 0x00000000#32 h hφ hacc (ix1 j)).trans ?_
  refine Finset.sum_congr rfl fun d _ => congrArg src ?_
  funext a
  match a with
  | ⟨0, _⟩ => rfl
  | ⟨1, _⟩ => rfl

/-- The bases' column [160,1] spread over the 9216 columns reads, at (row, column), the column's entry at the row. -/
theorem spreadCol_apply (x : FVec Ideal S160x1 .f32) (h : S160x1.Broadcasts S160x9216) (d : Fin 160) (j : Fin 9216) :
    broadcastTo S160x9216 x h (ix2 d j) = x (ix2 d (0 : Fin 1)) := by
  refine broadcastTo_apply x h _ _ fun a => ?_
  match a with
  | ⟨0, _⟩ => rfl
  | ⟨1, _⟩ => rfl

/-- The body's arithmetic at a column j of its block: the data block's column contracted with the bases over the rows. -/
theorem pay_apply (x0 : Vec Ideal S1x160x9216 .f32) (x1 : Vec Ideal S1x160x1 .f32) (u v : Fin 1) (j : Fin 9216) :
    k4_pay1 x0 x1 (ix3 u v j) = ∑ d : Fin 160, x0 (ix3 (0 : Fin 1) d j) * x1 (ix3 (0 : Fin 1) d (0 : Fin 1)) := by
  unfold k4_pay1
  refine (shapeCast_ab_1ab_apply _ _ u v j).trans ?_
  refine (shapeCast_a_1a_apply _ _ v j).trans ?_
  refine (sumRows_apply _ _ _ _ j).trans ?_
  refine Finset.sum_congr rfl fun d _ => ?_
  rw [mulf_apply, spreadCol_apply, shapeCast_1ab_ab_apply, shapeCast_1ab_ab_apply]

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the data's block moves with the output's along the batch and the columns and spans all
    rows; the bases' block moves with the batch only; the output's block has one row. -/
theorem idx_facts : ∀ t : Fin cfg4.N, win4_0.index t (0 : Fin 3) = win4_2.index t (0 : Fin 3)
    ∧ win4_0.index t (1 : Fin 3) = 0
    ∧ win4_0.index t (2 : Fin 3) = win4_2.index t (2 : Fin 3)
    ∧ win4_1.index t (0 : Fin 3) = win4_2.index t (0 : Fin 3)
    ∧ win4_1.index t (1 : Fin 3) = 0
    ∧ win4_1.index t (2 : Fin 3) = 0
    ∧ win4_2.index t (1 : Fin 3) = 0 :=
  (by decide +kernel : ∀ t : Fin grid4.N, _)

/-- Every (batch, column tile) pair is some point's output block. -/
theorem idx_onto : ∀ (q0 : Fin 4) (q2 : Fin 9), ∃ t : Fin cfg4.N, win4_2.index t = ![q0.val, 0, q2.val] :=
  (by decide +kernel : ∀ (q0 : Fin 4) (q2 : Fin 9), ∃ t : Fin grid4.N, win4_2.index t = ![q0.val, 0, q2.val])

/-- What point t writes back is its block of the contraction of the data with the bases. -/
theorem flushed_eq (c : Dev nD) (t : Fin cfg4.N) :
    (dat4 (F := Ideal) V c).flushed 2 t
      = ((cfg4.win 2).blk t).view.read (Elt Ideal) (numC (V c main_v0) (V c main_v41)) := by
  show (cfg4.win 2).cut (grid4.coords t) ((dat4 V c).after 2 t) = _
  rw [after4_2]
  unfold out4_2
  rw [View.canon_unit_zero hz]
  simp only [View.ld_unit_zero (S := S1x160x9216) hz, View.ld_unit_zero (S := S1x160x1) hz]
  obtain ⟨e0, e1, e2, e3, e4, e5, e6⟩ := idx_facts t
  refine funext fun (j : S1x1x9216.Idx) => ?_
  obtain ⟨u, v, n, rfl⟩ : ∃ (u v : Fin 1) (n : Fin 9216), j = ix3 u v n := ⟨j 0, j 1, j 2, eq_ix3 j⟩
  show k4_pay1 (iblk4 V c 0 t) (iblk4 V c 1 t) (ix3 u v n)
      = numC (V c main_v0) (V c main_v41) (((cfg4.win 2).blk t).view.emb (ix3 u v n))
  refine (pay_apply (iblk4 V c 0 t) (iblk4 V c 1 t) u v n).trans ?_
  refine Finset.sum_congr rfl fun d _ => ?_
  have hu : u.val = 0 := by omega
  have hv : v.val = 0 := by omega
  refine congrArg₂ (· * ·) ?_ ?_
  · show V c main_v0 (((cfg4.win 0).blk t).view.emb (ix3 (0 : Fin 1) d n)) = V c main_v0 _
    refine congrArg (V c main_v0) (funext fun a => Fin.ext ?_)
    match a with
    | ⟨0, _⟩ => show win4_0.index t (0 : Fin 3) * 1 + 1 * 0 = win4_2.index t (0 : Fin 3) * 1 + 1 * u.val; omega
    | ⟨1, _⟩ => show win4_0.index t (1 : Fin 3) * 160 + 1 * d.val = d.val; omega
    | ⟨2, _⟩ => show win4_0.index t (2 : Fin 3) * 9216 + 1 * n.val = win4_2.index t (2 : Fin 3) * 9216 + 1 * n.val; omega
  · show V c main_v41 (((cfg4.win 1).blk t).view.emb (ix3 (0 : Fin 1) d (0 : Fin 1))) = V c main_v41 _
    refine congrArg (V c main_v41) (funext fun a => Fin.ext ?_)
    match a with
    | ⟨0, _⟩ => show win4_1.index t (0 : Fin 3) * 1 + 1 * 0 = win4_2.index t (0 : Fin 3) * 1 + 1 * u.val; omega
    | ⟨1, _⟩ => show win4_1.index t (1 : Fin 3) * 160 + 1 * d.val = d.val; omega
    | ⟨2, _⟩ => show win4_1.index t (2 : Fin 3) * 1 + 1 * 0 = 0; omega

/-- An index of the coefficients' array is in point t's block iff each coordinate is in the block's range on its axis. -/
theorem mem_blk (t : Fin cfg4.N) (i : S4x1x82944.Idx) :
    i ∈ ((cfg4.win 2).blk t).view.set ↔ ∀ a : Fin 3, win4_2.index t a * S1x1x9216.size a ≤ (i a).val
      ∧ (i a).val < win4_2.index t a * S1x1x9216.size a + S1x1x9216.size a := by
  show i ∈ ((View.whole main_v2).slice (win4_2.rect t)).set ↔ _
  rw [View.set_slice_whole, Rect.mem_set_unit]
  exact Iff.rfl

/-- The blocks tile the array: entry (b, 0, n) lies in the block of the point whose batch is b and whose column tile
    is the one holding n. -/
theorem cover (i : S4x1x82944.Idx) :
    ∃ t : Fin cfg4.N, (cfg4.win 2).flush t = true ∧ i ∈ ((cfg4.win 2).blk t).view.set := by
  have hi0 : (i 0).val < 4 := (i 0).isLt
  have hi1 : (i 1).val < 1 := (i 1).isLt
  have hi2 : (i 2).val < 82944 := (i 2).isLt
  obtain ⟨t, ht⟩ := idx_onto ⟨(i 0).val, hi0⟩ ⟨(i 2).val / 9216, by omega⟩
  have q0 : win4_2.index t (0 : Fin 3) = (i 0).val := congrFun ht 0
  have q1 : win4_2.index t (1 : Fin 3) = 0 := congrFun ht 1
  have q2 : win4_2.index t (2 : Fin 3) = (i 2).val / 9216 := congrFun ht 2
  refine ⟨t, flush4_2 t, ?_⟩
  rw [mem_blk]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 1 ≤ (i 1).val ∧ (i 1).val < win4_2.index t (1 : Fin 3) * 1 + 1; omega
  | ⟨2, _⟩ => show win4_2.index t (2 : Fin 3) * 9216 ≤ (i 2).val ∧ (i 2).val < win4_2.index t (2 : Fin 3) * 9216 + 9216; omega

/-- The coefficients' contraction array after the region: every entry the sum over the rows of data times bases. -/
theorem arr (c : Dev nD) : (dat4 (F := Ideal) V c).arrAt 2 cfg4.N = numC (V c main_v0) (V c main_v41) :=
  (dat4 V c).arrAt_eq_of_cover 2 (numC (V c main_v0) (V c main_v41)) (fun t _ => flushed_eq V c t) cover

end Cert.KernelIdeal.RegD4

end
-- ==== Proof.KRegD6.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegD6
open Cert.KernelIdeal Cert.KernelIdeal.Gen Cert.Nmf

open Idealize.ShloMosaic.ValueIdx

/-! # The coefficients' contraction, as the region leaves it

The region sweeps a grid of (batch, column tile) points. At each point the body holds one batch's data for a tile of
9216 columns, all 160 rows, and that batch's bases, and writes for each column of the tile the sum over the rows of
data times bases. The tiles of the 4 batches and 9 column tiles fill the [4,1,82944] array exactly once, so after the
last point the array holds that contraction at every entry. -/

/-- The lane sum over the rows, read at a column: the sum over the 160 rows of the summand at (row, column). -/
theorem sumRows_apply (src : FVec Ideal S160x9216 .f32) (h : S160x9216.Reduces [0] S9216) (hφ : FKind.Formats .f32)
    (hacc : (0x00000000#32 : BitVec 32) = 0x00000000#32) (j : Fin 9216) :
    multiReduction .add [0] S9216 src 0x00000000#32 h hφ hacc (ix1 j) = ∑ d : Fin 160, src (ix2 d j) := by
  refine (Ideal.multiReduction_add_single src 0x00000000#32 h hφ hacc (ix1 j)).trans ?_
  refine Finset.sum_congr rfl fun d _ => congrArg src ?_
  funext a
  match a with
  | ⟨0, _⟩ => rfl
  | ⟨1, _⟩ => rfl

/-- The bases' column [160,1] spread over the 9216 columns reads, at (row, column), the column's entry at the row. -/
theorem spreadCol_apply (x : FVec Ideal S160x1 .f32) (h : S160x1.Broadcasts S160x9216) (d : Fin 160) (j : Fin 9216) :
    broadcastTo S160x9216 x h (ix2 d j) = x (ix2 d (0 : Fin 1)) := by
  refine broadcastTo_apply x h _ _ fun a => ?_
  match a with
  | ⟨0, _⟩ => rfl
  | ⟨1, _⟩ => rfl

/-- The body's arithmetic at a column j of its block: the data block's column contracted with the bases over the rows. -/
theorem pay_apply (x0 : Vec Ideal S1x160x9216 .f32) (x1 : Vec Ideal S1x160x1 .f32) (u v : Fin 1) (j : Fin 9216) :
    k6_pay1 x0 x1 (ix3 u v j) = ∑ d : Fin 160, x0 (ix3 (0 : Fin 1) d j) * x1 (ix3 (0 : Fin 1) d (0 : Fin 1)) := by
  unfold k6_pay1
  refine (shapeCast_ab_1ab_apply _ _ u v j).trans ?_
  refine (shapeCast_a_1a_apply _ _ v j).trans ?_
  refine (sumRows_apply _ _ _ _ j).trans ?_
  refine Finset.sum_congr rfl fun d _ => ?_
  rw [mulf_apply, spreadCol_apply, shapeCast_1ab_ab_apply, shapeCast_1ab_ab_apply]

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the data's block moves with the output's along the batch and the columns and spans all
    rows; the bases' block moves with the batch only; the output's block has one row. -/
theorem idx_facts : ∀ t : Fin cfg6.N, win6_0.index t (0 : Fin 3) = win6_2.index t (0 : Fin 3)
    ∧ win6_0.index t (1 : Fin 3) = 0
    ∧ win6_0.index t (2 : Fin 3) = win6_2.index t (2 : Fin 3)
    ∧ win6_1.index t (0 : Fin 3) = win6_2.index t (0 : Fin 3)
    ∧ win6_1.index t (1 : Fin 3) = 0
    ∧ win6_1.index t (2 : Fin 3) = 0
    ∧ win6_2.index t (1 : Fin 3) = 0 :=
  (by decide +kernel : ∀ t : Fin grid6.N, _)

/-- Every (batch, column tile) pair is some point's output block. -/
theorem idx_onto : ∀ (q0 : Fin 4) (q2 : Fin 9), ∃ t : Fin cfg6.N, win6_2.index t = ![q0.val, 0, q2.val] :=
  (by decide +kernel : ∀ (q0 : Fin 4) (q2 : Fin 9), ∃ t : Fin grid6.N, win6_2.index t = ![q0.val, 0, q2.val])

/-- What point t writes back is its block of the contraction of the data with the bases. -/
theorem flushed_eq (c : Dev nD) (t : Fin cfg6.N) :
    (dat6 (F := Ideal) V c).flushed 2 t
      = ((cfg6.win 2).blk t).view.read (Elt Ideal) (numC (V c main_v0) (V c main_v61)) := by
  show (cfg6.win 2).cut (grid6.coords t) ((dat6 V c).after 2 t) = _
  rw [after6_2]
  unfold out6_2
  rw [View.canon_unit_zero hz]
  simp only [View.ld_unit_zero (S := S1x160x9216) hz, View.ld_unit_zero (S := S1x160x1) hz]
  obtain ⟨e0, e1, e2, e3, e4, e5, e6⟩ := idx_facts t
  refine funext fun (j : S1x1x9216.Idx) => ?_
  obtain ⟨u, v, n, rfl⟩ : ∃ (u v : Fin 1) (n : Fin 9216), j = ix3 u v n := ⟨j 0, j 1, j 2, eq_ix3 j⟩
  show k6_pay1 (iblk6 V c 0 t) (iblk6 V c 1 t) (ix3 u v n)
      = numC (V c main_v0) (V c main_v61) (((cfg6.win 2).blk t).view.emb (ix3 u v n))
  refine (pay_apply (iblk6 V c 0 t) (iblk6 V c 1 t) u v n).trans ?_
  refine Finset.sum_congr rfl fun d _ => ?_
  have hu : u.val = 0 := by omega
  have hv : v.val = 0 := by omega
  refine congrArg₂ (· * ·) ?_ ?_
  · show V c main_v0 (((cfg6.win 0).blk t).view.emb (ix3 (0 : Fin 1) d n)) = V c main_v0 _
    refine congrArg (V c main_v0) (funext fun a => Fin.ext ?_)
    match a with
    | ⟨0, _⟩ => show win6_0.index t (0 : Fin 3) * 1 + 1 * 0 = win6_2.index t (0 : Fin 3) * 1 + 1 * u.val; omega
    | ⟨1, _⟩ => show win6_0.index t (1 : Fin 3) * 160 + 1 * d.val = d.val; omega
    | ⟨2, _⟩ => show win6_0.index t (2 : Fin 3) * 9216 + 1 * n.val = win6_2.index t (2 : Fin 3) * 9216 + 1 * n.val; omega
  · show V c main_v61 (((cfg6.win 1).blk t).view.emb (ix3 (0 : Fin 1) d (0 : Fin 1))) = V c main_v61 _
    refine congrArg (V c main_v61) (funext fun a => Fin.ext ?_)
    match a with
    | ⟨0, _⟩ => show win6_1.index t (0 : Fin 3) * 1 + 1 * 0 = win6_2.index t (0 : Fin 3) * 1 + 1 * u.val; omega
    | ⟨1, _⟩ => show win6_1.index t (1 : Fin 3) * 160 + 1 * d.val = d.val; omega
    | ⟨2, _⟩ => show win6_1.index t (2 : Fin 3) * 1 + 1 * 0 = 0; omega

/-- An index of the coefficients' array is in point t's block iff each coordinate is in the block's range on its axis. -/
theorem mem_blk (t : Fin cfg6.N) (i : S4x1x82944.Idx) :
    i ∈ ((cfg6.win 2).blk t).view.set ↔ ∀ a : Fin 3, win6_2.index t a * S1x1x9216.size a ≤ (i a).val
      ∧ (i a).val < win6_2.index t a * S1x1x9216.size a + S1x1x9216.size a := by
  show i ∈ ((View.whole main_v2).slice (win6_2.rect t)).set ↔ _
  rw [View.set_slice_whole, Rect.mem_set_unit]
  exact Iff.rfl

/-- The blocks tile the array: entry (b, 0, n) lies in the block of the point whose batch is b and whose column tile
    is the one holding n. -/
theorem cover (i : S4x1x82944.Idx) :
    ∃ t : Fin cfg6.N, (cfg6.win 2).flush t = true ∧ i ∈ ((cfg6.win 2).blk t).view.set := by
  have hi0 : (i 0).val < 4 := (i 0).isLt
  have hi1 : (i 1).val < 1 := (i 1).isLt
  have hi2 : (i 2).val < 82944 := (i 2).isLt
  obtain ⟨t, ht⟩ := idx_onto ⟨(i 0).val, hi0⟩ ⟨(i 2).val / 9216, by omega⟩
  have q0 : win6_2.index t (0 : Fin 3) = (i 0).val := congrFun ht 0
  have q1 : win6_2.index t (1 : Fin 3) = 0 := congrFun ht 1
  have q2 : win6_2.index t (2 : Fin 3) = (i 2).val / 9216 := congrFun ht 2
  refine ⟨t, flush6_2 t, ?_⟩
  rw [mem_blk]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 1 ≤ (i 1).val ∧ (i 1).val < win6_2.index t (1 : Fin 3) * 1 + 1; omega
  | ⟨2, _⟩ => show win6_2.index t (2 : Fin 3) * 9216 ≤ (i 2).val ∧ (i 2).val < win6_2.index t (2 : Fin 3) * 9216 + 9216; omega

/-- The coefficients' contraction array after the region: every entry the sum over the rows of data times bases. -/
theorem arr (c : Dev nD) : (dat6 (F := Ideal) V c).arrAt 2 cfg6.N = numC (V c main_v0) (V c main_v61) :=
  (dat6 V c).arrAt_eq_of_cover 2 (numC (V c main_v0) (V c main_v61)) (fun t _ => flushed_eq V c t) cover

end Cert.KernelIdeal.RegD6

end
-- ==== Proof.KRegD8.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegD8
open Cert.KernelIdeal Cert.KernelIdeal.Gen Cert.Nmf

open Idealize.ShloMosaic.ValueIdx

/-! # The coefficients' contraction, as the region leaves it

The region sweeps a grid of (batch, column tile) points. At each point the body holds one batch's data for a tile of
9216 columns, all 160 rows, and that batch's bases, and writes for each column of the tile the sum over the rows of
data times bases. The tiles of the 4 batches and 9 column tiles fill the [4,1,82944] array exactly once, so after the
last point the array holds that contraction at every entry. -/

/-- The lane sum over the rows, read at a column: the sum over the 160 rows of the summand at (row, column). -/
theorem sumRows_apply (src : FVec Ideal S160x9216 .f32) (h : S160x9216.Reduces [0] S9216) (hφ : FKind.Formats .f32)
    (hacc : (0x00000000#32 : BitVec 32) = 0x00000000#32) (j : Fin 9216) :
    multiReduction .add [0] S9216 src 0x00000000#32 h hφ hacc (ix1 j) = ∑ d : Fin 160, src (ix2 d j) := by
  refine (Ideal.multiReduction_add_single src 0x00000000#32 h hφ hacc (ix1 j)).trans ?_
  refine Finset.sum_congr rfl fun d _ => congrArg src ?_
  funext a
  match a with
  | ⟨0, _⟩ => rfl
  | ⟨1, _⟩ => rfl

/-- The bases' column [160,1] spread over the 9216 columns reads, at (row, column), the column's entry at the row. -/
theorem spreadCol_apply (x : FVec Ideal S160x1 .f32) (h : S160x1.Broadcasts S160x9216) (d : Fin 160) (j : Fin 9216) :
    broadcastTo S160x9216 x h (ix2 d j) = x (ix2 d (0 : Fin 1)) := by
  refine broadcastTo_apply x h _ _ fun a => ?_
  match a with
  | ⟨0, _⟩ => rfl
  | ⟨1, _⟩ => rfl

/-- The body's arithmetic at a column j of its block: the data block's column contracted with the bases over the rows. -/
theorem pay_apply (x0 : Vec Ideal S1x160x9216 .f32) (x1 : Vec Ideal S1x160x1 .f32) (u v : Fin 1) (j : Fin 9216) :
    k8_pay1 x0 x1 (ix3 u v j) = ∑ d : Fin 160, x0 (ix3 (0 : Fin 1) d j) * x1 (ix3 (0 : Fin 1) d (0 : Fin 1)) := by
  unfold k8_pay1
  refine (shapeCast_ab_1ab_apply _ _ u v j).trans ?_
  refine (shapeCast_a_1a_apply _ _ v j).trans ?_
  refine (sumRows_apply _ _ _ _ j).trans ?_
  refine Finset.sum_congr rfl fun d _ => ?_
  rw [mulf_apply, spreadCol_apply, shapeCast_1ab_ab_apply, shapeCast_1ab_ab_apply]

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the data's block moves with the output's along the batch and the columns and spans all
    rows; the bases' block moves with the batch only; the output's block has one row. -/
theorem idx_facts : ∀ t : Fin cfg8.N, win8_0.index t (0 : Fin 3) = win8_2.index t (0 : Fin 3)
    ∧ win8_0.index t (1 : Fin 3) = 0
    ∧ win8_0.index t (2 : Fin 3) = win8_2.index t (2 : Fin 3)
    ∧ win8_1.index t (0 : Fin 3) = win8_2.index t (0 : Fin 3)
    ∧ win8_1.index t (1 : Fin 3) = 0
    ∧ win8_1.index t (2 : Fin 3) = 0
    ∧ win8_2.index t (1 : Fin 3) = 0 :=
  (by decide +kernel : ∀ t : Fin grid8.N, _)

/-- Every (batch, column tile) pair is some point's output block. -/
theorem idx_onto : ∀ (q0 : Fin 4) (q2 : Fin 9), ∃ t : Fin cfg8.N, win8_2.index t = ![q0.val, 0, q2.val] :=
  (by decide +kernel : ∀ (q0 : Fin 4) (q2 : Fin 9), ∃ t : Fin grid8.N, win8_2.index t = ![q0.val, 0, q2.val])

/-- What point t writes back is its block of the contraction of the data with the bases. -/
theorem flushed_eq (c : Dev nD) (t : Fin cfg8.N) :
    (dat8 (F := Ideal) V c).flushed 2 t
      = ((cfg8.win 2).blk t).view.read (Elt Ideal) (numC (V c main_v0) (V c main_v81)) := by
  show (cfg8.win 2).cut (grid8.coords t) ((dat8 V c).after 2 t) = _
  rw [after8_2]
  unfold out8_2
  rw [View.canon_unit_zero hz]
  simp only [View.ld_unit_zero (S := S1x160x9216) hz, View.ld_unit_zero (S := S1x160x1) hz]
  obtain ⟨e0, e1, e2, e3, e4, e5, e6⟩ := idx_facts t
  refine funext fun (j : S1x1x9216.Idx) => ?_
  obtain ⟨u, v, n, rfl⟩ : ∃ (u v : Fin 1) (n : Fin 9216), j = ix3 u v n := ⟨j 0, j 1, j 2, eq_ix3 j⟩
  show k8_pay1 (iblk8 V c 0 t) (iblk8 V c 1 t) (ix3 u v n)
      = numC (V c main_v0) (V c main_v81) (((cfg8.win 2).blk t).view.emb (ix3 u v n))
  refine (pay_apply (iblk8 V c 0 t) (iblk8 V c 1 t) u v n).trans ?_
  refine Finset.sum_congr rfl fun d _ => ?_
  have hu : u.val = 0 := by omega
  have hv : v.val = 0 := by omega
  refine congrArg₂ (· * ·) ?_ ?_
  · show V c main_v0 (((cfg8.win 0).blk t).view.emb (ix3 (0 : Fin 1) d n)) = V c main_v0 _
    refine congrArg (V c main_v0) (funext fun a => Fin.ext ?_)
    match a with
    | ⟨0, _⟩ => show win8_0.index t (0 : Fin 3) * 1 + 1 * 0 = win8_2.index t (0 : Fin 3) * 1 + 1 * u.val; omega
    | ⟨1, _⟩ => show win8_0.index t (1 : Fin 3) * 160 + 1 * d.val = d.val; omega
    | ⟨2, _⟩ => show win8_0.index t (2 : Fin 3) * 9216 + 1 * n.val = win8_2.index t (2 : Fin 3) * 9216 + 1 * n.val; omega
  · show V c main_v81 (((cfg8.win 1).blk t).view.emb (ix3 (0 : Fin 1) d (0 : Fin 1))) = V c main_v81 _
    refine congrArg (V c main_v81) (funext fun a => Fin.ext ?_)
    match a with
    | ⟨0, _⟩ => show win8_1.index t (0 : Fin 3) * 1 + 1 * 0 = win8_2.index t (0 : Fin 3) * 1 + 1 * u.val; omega
    | ⟨1, _⟩ => show win8_1.index t (1 : Fin 3) * 160 + 1 * d.val = d.val; omega
    | ⟨2, _⟩ => show win8_1.index t (2 : Fin 3) * 1 + 1 * 0 = 0; omega

/-- An index of the coefficients' array is in point t's block iff each coordinate is in the block's range on its axis. -/
theorem mem_blk (t : Fin cfg8.N) (i : S4x1x82944.Idx) :
    i ∈ ((cfg8.win 2).blk t).view.set ↔ ∀ a : Fin 3, win8_2.index t a * S1x1x9216.size a ≤ (i a).val
      ∧ (i a).val < win8_2.index t a * S1x1x9216.size a + S1x1x9216.size a := by
  show i ∈ ((View.whole main_v2).slice (win8_2.rect t)).set ↔ _
  rw [View.set_slice_whole, Rect.mem_set_unit]
  exact Iff.rfl

/-- The blocks tile the array: entry (b, 0, n) lies in the block of the point whose batch is b and whose column tile
    is the one holding n. -/
theorem cover (i : S4x1x82944.Idx) :
    ∃ t : Fin cfg8.N, (cfg8.win 2).flush t = true ∧ i ∈ ((cfg8.win 2).blk t).view.set := by
  have hi0 : (i 0).val < 4 := (i 0).isLt
  have hi1 : (i 1).val < 1 := (i 1).isLt
  have hi2 : (i 2).val < 82944 := (i 2).isLt
  obtain ⟨t, ht⟩ := idx_onto ⟨(i 0).val, hi0⟩ ⟨(i 2).val / 9216, by omega⟩
  have q0 : win8_2.index t (0 : Fin 3) = (i 0).val := congrFun ht 0
  have q1 : win8_2.index t (1 : Fin 3) = 0 := congrFun ht 1
  have q2 : win8_2.index t (2 : Fin 3) = (i 2).val / 9216 := congrFun ht 2
  refine ⟨t, flush8_2 t, ?_⟩
  rw [mem_blk]
  intro a
  match a with
  | ⟨0, _⟩ => show win8_2.index t (0 : Fin 3) * 1 ≤ (i 0).val ∧ (i 0).val < win8_2.index t (0 : Fin 3) * 1 + 1; omega
  | ⟨1, _⟩ => show win8_2.index t (1 : Fin 3) * 1 ≤ (i 1).val ∧ (i 1).val < win8_2.index t (1 : Fin 3) * 1 + 1; omega
  | ⟨2, _⟩ => show win8_2.index t (2 : Fin 3) * 9216 ≤ (i 2).val ∧ (i 2).val < win8_2.index t (2 : Fin 3) * 9216 + 9216; omega

/-- The coefficients' contraction array after the region: every entry the sum over the rows of data times bases. -/
theorem arr (c : Dev nD) : (dat8 (F := Ideal) V c).arrAt 2 cfg8.N = numC (V c main_v0) (V c main_v81) :=
  (dat8 V c).arrAt_eq_of_cover 2 (numC (V c main_v0) (V c main_v81)) (fun t _ => flushed_eq V c t) cover

end Cert.KernelIdeal.RegD8

end
-- ==== Proof.KRegN1.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegN1
open Cert.KernelIdeal Cert.KernelIdeal.Gen Cert.Nmf

open Idealize.ShloMosaic.ValueIdx

variable (V : (c : Dev nD) → (b : Ref sig .tc) → Buf (Elt Ideal) ((c : Thread nD τ).loc b))

/-- Nine (or any number of) consecutive tiles of `J` terms are one run of `J·k` terms. -/
theorem sum_tiles {β : Type*} [AddCommMonoid β] (J : ℕ) (f : ℕ → β) :
    ∀ k : ℕ, ∑ s ∈ Finset.range k, ∑ j ∈ Finset.range J, f (J * s + j) = ∑ n ∈ Finset.range (J * k), f n
  | 0 => by simp
  | k + 1 => by
    rw [Finset.sum_range_succ, sum_tiles J f k, Nat.mul_succ, Finset.sum_range_add]

section Pieces
variable {F : FTy → Type} [FloatOps F]

/-- The three zero offsets, as the constant function. -/
theorem hzero : (![0, 0, 0] : Fin 3 → Nat) = fun _ => 0 := funext fun a => by fin_cases a <;> rfl

/-- A point that does not reset leaves, over the running contents `xo`, the update of `xo` by the point's blocks. -/
theorem out_B (c : Dev nD) (i : grid1.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : ¬cond1_0 i) (x0 : Vec F S1x160x9216 .f32) (x1 : Vec F S1x1x9216 .f32) (xo : Vec F S1x160x1 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hzero]
  simp only [View.readAt_eq_ld, h2.read_unread, h3.read_unread, h4.read_unread,
    View.ld_unit_zero (S := S1x160x9216) hzero, View.ld_unit_zero (S := S1x1x9216) hzero, View.ld_unit_zero (S := S1x160x1) hzero]

/-- A point that resets leaves the update of the zero block by the point's blocks. -/
theorem out_A (c : Dev nD) (i : grid1.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : cond1_0 i) (x0 : Vec F S1x160x9216 .f32) (x1 : Vec F S1x1x9216 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x160x1) hzero, View.readCov_unit_zero (S := S1x160x1) _ hzero]
  simp only [View.readAt_eq_ld, h2.read_unread, h3.read_unread,
    View.ld_unit_zero (S := S1x160x9216) hzero, View.ld_unit_zero (S := S1x1x9216) hzero]
end Pieces

section Payload

/-- The reduced axis put back: the index of row `d`, column `j`. -/
theorem lift_row (d : Fin 160) (j : Fin 9216) :
    reduces_S160x9216_S160.lift (ix1 d) j = (ix2 d j : S160x9216.Idx) := by
  funext a
  match a with
  | ⟨0, _⟩ => exact Fin.ext rfl
  | ⟨1, _⟩ => exact Fin.ext rfl

/-- A row's sum over the lanes, written at the block's own coordinates. -/
theorem laneSum_apply (v8 : FVec Ideal S160x9216 .f32) (hacc : (0x00000000#32 : BitVec 32) = 0x00000000#32) (d : Fin 160) :
    multiReduction (F := Ideal) .add [1] S160 v8 0x00000000#32 reduces_S160x9216_S160 (.inl rfl) hacc (ix1 d)
      = ∑ j : Fin 9216, v8 (ix2 d j) := by
  refine (Ideal.multiReduction_add_single v8 0x00000000#32 reduces_S160x9216_S160 (.inl rfl) hacc (ix1 d)).trans ?_
  exact Finset.sum_congr rfl fun j _ => congrArg v8 (lift_row d j)

/-- The update read at row `d`: the running value there plus the row's products summed over the block's columns. -/
theorem update_apply (v3 : Vec Ideal S1x160x9216 .f32) (v5 : Vec Ideal S1x1x9216 .f32) (v11 : Vec Ideal S1x160x1 .f32) (d : Fin 160) :
    k1_pay2 (F := Ideal) v3 v5 v11 (ix3 (0 : Fin 1) d (0 : Fin 1))
      = v11 (ix3 (0 : Fin 1) d (0 : Fin 1)) + ∑ j : Fin 9216, v3 (ix3 (0 : Fin 1) d j) * v5 (ix3 (0 : Fin 1) (0 : Fin 1) j) := by
  unfold k1_pay2
  dsimp only
  refine (shapeCast_ab_1ab_apply _ shapeCasts_S160x1_S1x160x1 (0 : Fin 1) d (0 : Fin 1)).trans ?_
  refine (addf_apply _ _ _).trans ?_
  refine congrArg₂ (· + ·) ?_ ?_
  · exact shapeCast_1ab_ab_apply v11 shapeCasts_S1x160x1_S160x1 d (0 : Fin 1)
  · refine (shapeCast_apply _ shapeCasts_S160_S160x1 (ix2 d (0 : Fin 1)) (ix1 d) ?_).trans ?_
    · rw [Shape.rowMajor_val_two, Shape.rowMajor_val_one]
      show d.val = d.val * 1 + 0
      omega
    refine (laneSum_apply _ rfl d).trans ?_
    refine Finset.sum_congr rfl fun j _ => ?_
    refine (mulf_apply _ _ _).trans ?_
    refine congrArg₂ (· * ·) ?_ ?_
    · exact shapeCast_1ab_ab_apply v3 shapeCasts_S1x160x9216_S160x9216 d j
    · refine (broadcastTo_1b_ab_apply _ broadcasts_S1x9216_S160x9216 d j).trans ?_
      exact shapeCast_1ab_ab_apply v5 shapeCasts_S1x1x9216_S1x9216 (0 : Fin 1) j

/-- The zero block is zero everywhere. -/
theorem zeroBlock_apply (y : S1x160x1.Idx) : k1_pay1 (F := Ideal) y = (0 : EReal) := by
  unfold k1_pay1
  exact Ideal.ofBits_zero_f32

end Payload

section Blocks

/-- The windows' block indices at point `t`: batch `t / 9`, column tile `t % 9` for the two inputs, the output's block fixed along a run. -/
theorem idx_facts : ∀ t : Fin cfg1.N,
    win1_0.index t (0 : Fin 3) = t.val / 9 ∧ win1_0.index t (1 : Fin 3) = 0 ∧ win1_0.index t (2 : Fin 3) = t.val % 9
    ∧ win1_1.index t (0 : Fin 3) = t.val / 9 ∧ win1_1.index t (1 : Fin 3) = 0 ∧ win1_1.index t (2 : Fin 3) = t.val % 9
    ∧ win1_2.index t (0 : Fin 3) = t.val / 9 ∧ win1_2.index t (1 : Fin 3) = 0 ∧ win1_2.index t (2 : Fin 3) = 0 :=
  (by decide +kernel : ∀ t : Fin grid1.N, _)

/-- The data block at point `t`: batch `t / 9`, all rows, columns `9216·(t % 9) …`. -/
theorem xblk_apply (c : Dev nD) (t : Fin cfg1.N) (b : Fin 4) (hb : b.val = t.val / 9) (d : Fin 160) (j : Fin 9216)
    (n : Fin 82944) (hn : n.val = 9216 * (t.val % 9) + j.val) :
    (iblk1 V c 0 t : Vec Ideal S1x160x9216 .f32) (ix3 (0 : Fin 1) d j) = (V c main_v0 : Vec Ideal S4x160x82944 .f32) (ix3 b d n) := by
  obtain ⟨e0, e1, e2, -⟩ := idx_facts t
  unfold iblk1
  rw [View.read_apply]
  show V c main_v0 _ = V c main_v0 _
  congr 1
  funext a
  apply Fin.ext
  match a with
  | ⟨0, _⟩ => show win1_0.index t (0 : Fin 3) * 1 + 1 * 0 = b.val; omega
  | ⟨1, _⟩ => show win1_0.index t (1 : Fin 3) * 160 + 1 * d.val = d.val; omega
  | ⟨2, _⟩ => show win1_0.index t (2 : Fin 3) * 9216 + 1 * j.val = n.val; omega

/-- The coefficient block at point `t`: batch `t / 9`, columns `9216·(t % 9) …`. -/
theorem cblk_apply (c : Dev nD) (t : Fin cfg1.N) (b : Fin 4) (hb : b.val = t.val / 9) (j : Fin 9216)
    (n : Fin 82944) (hn : n.val = 9216 * (t.val % 9) + j.val) :
    (iblk1 V c 1 t : Vec Ideal S1x1x9216 .f32) (ix3 (0 : Fin 1) (0 : Fin 1) j) = (V c main_v11 : Vec Ideal S4x1x82944 .f32) (ix3 b (0 : Fin 1) n) := by
  obtain ⟨-, -, -, e0, e1, e2, -⟩ := idx_facts t
  unfold iblk1
  rw [View.read_apply]
  show V c main_v11 _ = V c main_v11 _
  congr 1
  funext a
  apply Fin.ext
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 9216 + 1 * j.val = n.val; omega

end Blocks

section Fold

/-- One product of the contraction over the columns, at a natural column number (zero past the last column). -/
def term (x : FVec Ideal SX .f32) (cc : FVec Ideal SC .f32) (b : Fin 4) (d : Fin 160) (n : ℕ) : EReal :=
  if h : n < 82944 then x (ix3 b d ⟨n, h⟩) * cc (ix3 b (0 : Fin 1) ⟨n, h⟩) else 0

/-- The contraction over the columns is the sum of the products over the first 82944 naturals. -/
theorem numB_apply (x : FVec Ideal SX .f32) (cc : FVec Ideal SC .f32) (b : Fin 4) (d : Fin 160) :
    numB x cc (ix3 b d (0 : Fin 1)) = ∑ n ∈ Finset.range 82944, term x cc b d n := by
  rw [Finset.sum_range]
  show ∑ n : Fin 82944, x (ix3 b d n) * cc (ix3 b (0 : Fin 1) n) = _
  refine Finset.sum_congr rfl fun n _ => ?_
  unfold term
  rw [dif_pos n.isLt]

/-- The data block at point `t`, at its literal type. -/
abbrev xblk (c : Dev nD) (t : Fin cfg1.N) : Vec Ideal S1x160x9216 .f32 := iblk1 V c 0 t
/-- The coefficient block at point `t`, at its literal type. -/
abbrev cblk (c : Dev nD) (t : Fin cfg1.N) : Vec Ideal S1x1x9216 .f32 := iblk1 V c 1 t

/-- What point `n` adds to row `y` of the output block: the products over the point's 9216 columns, summed. -/
def addend (c : Dev nD) (n : ℕ) (y : S1x160x1.Idx) : EReal :=
  if h : n < cfg1.N then
    ∑ j : Fin 9216, xblk V c ⟨n, h⟩ (ix3 (0 : Fin 1) (y 1 : Fin 160) j) * cblk V c ⟨n, h⟩ (ix3 (0 : Fin 1) (0 : Fin 1) j)
  else 0

/-- What a resetting point leaves. -/
abbrev resetAt (c : Dev nD) (n : ℕ) (h : n < cfg1.N) : Vec Ideal S1x160x1 .f32 :=
  k1_pay2 (F := Ideal) (iblk1 V c 0 ⟨n, h⟩) (iblk1 V c 1 ⟨n, h⟩) (k1_pay1 (F := Ideal))

/-- What an accumulating point leaves over `acc`. -/
abbrev stepAt (c : Dev nD) (n : ℕ) (h : n < cfg1.N) (acc : Vec Ideal S1x160x1 .f32) : Vec Ideal S1x160x1 .f32 :=
  k1_pay2 (F := Ideal) (iblk1 V c 0 ⟨n, h⟩) (iblk1 V c 1 ⟨n, h⟩) acc

theorem outsAt_reset (c : Dev nD) (n : ℕ) (h : n < cfg1.N) (h0 : n % 9 = 0) : outsAt1 V c n h = resetAt V c n h :=
  (outsAt1_A V c ⟨n, h⟩ h0).trans
    (out_A c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
      ((hcond1_0 ⟨n, h⟩).mpr h0) (iblk1 V c 0 ⟨n, h⟩) (iblk1 V c 1 ⟨n, h⟩))

theorem outsAt_step (c : Dev nD) (n : ℕ) (h : n + 1 < cfg1.N) (h0 : ¬(n + 1) % 9 = 0) :
    outsAt1 V c (n + 1) h = stepAt V c (n + 1) h (outsAt1 V c n (Nat.lt_of_succ_lt h)) :=
  (outsAt1_B V c ⟨n + 1, h⟩ h0).trans
    (out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
      (fun hh => h0 ((hcond1_0 ⟨n + 1, h⟩).mp hh)) (iblk1 V c 0 ⟨n + 1, h⟩) (iblk1 V c 1 ⟨n + 1, h⟩) (outsAt1 V c n (Nat.lt_of_succ_lt h)))

/-- An accumulating point adds its addend at every row. -/
theorem step_apply (c : Dev nD) (n : ℕ) (h : n < cfg1.N) (acc : Vec Ideal S1x160x1 .f32) (y : S1x160x1.Idx) :
    stepAt V c n h acc y = (acc y : EReal) + addend V c n y := by
  obtain ⟨u, d, v, rfl⟩ : ∃ (u : Fin 1) (d : Fin 160) (v : Fin 1), y = ix3 u d v := ⟨y 0, y 1, y 2, eq_ix3 y⟩
  obtain rfl : u = 0 := Subsingleton.elim _ _
  obtain rfl : v = 0 := Subsingleton.elim _ _
  unfold addend
  rw [dif_pos h]
  exact update_apply (iblk1 V c 0 ⟨n, h⟩) (iblk1 V c 1 ⟨n, h⟩) acc d

/-- A resetting point leaves zero plus its addend. -/
theorem reset_apply (c : Dev nD) (n : ℕ) (h : n < cfg1.N) (y : S1x160x1.Idx) :
    resetAt V c n h y = (0 : EReal) + addend V c n y :=
  (step_apply V c n h (k1_pay1 (F := Ideal)) y).trans (congrArg (· + addend V c n y) (zeroBlock_apply y))

/-- After point `t` the output block holds the sum of the addends of its run's points up to `t`. -/
theorem outsAt_fold (c : Dev nD) (t : ℕ) (ht : t < cfg1.N) (y : S1x160x1.Idx) :
    (outsAt1 V c t ht y : EReal) = 0 + ∑ s ∈ Finset.range (t % 9 + 1), addend V c (9 * (t / 9) + s) y := by
  have h' : 9 * (t / 9) + t % 9 < cfg1.N := by rw [Nat.div_add_mod]; exact ht
  rw [Pipeline.eq_accAt_of_mod (outsAt1 V c) 9 (resetAt V c) (stepAt V c) (fun n h h0 => outsAt_reset V c n h h0)
    (fun n h h0 => outsAt_step V c n h h0) (by norm_num) t ht h']
  exact Pipeline.accAt_add_apply (β := EReal) (resetAt V c) (stepAt V c) (fun _ => 0) (addend V c) (9 * (t / 9)) 8
    (fun h i => reset_apply V c _ h i) (fun n h acc i _ _ => step_apply V c n h acc i) (t % 9) (by omega) h' y

end Fold

section Array

/-- The addend of point `9·b + s` is tile `s` of batch `b`'s products. -/
theorem addend_eq (c : Dev nD) (b : Fin 4) (s : ℕ) (hs : s < 9) (d : Fin 160) (u v : Fin 1) :
    addend V c (9 * b.val + s) (ix3 u d v)
      = ∑ j ∈ Finset.range 9216, term (V c main_v0) (V c main_v11) b d (9216 * s + j) := by
  have hN : cfg1.N = 36 := N_1
  have hb : b.val < 4 := b.isLt
  have h : 9 * b.val + s < cfg1.N := by rw [hN]; omega
  unfold addend
  rw [dif_pos h, Finset.sum_range]
  refine Finset.sum_congr rfl fun j _ => ?_
  have hj : j.val < 9216 := j.isLt
  have hlt : 9216 * s + j.val < 82944 := by omega
  unfold term
  rw [dif_pos hlt]
  exact congrArg₂ (· * ·)
    (xblk_apply V c ⟨9 * b.val + s, h⟩ b (by dsimp only; omega) d j ⟨9216 * s + j.val, hlt⟩ (by dsimp only; omega))
    (cblk_apply V c ⟨9 * b.val + s, h⟩ b (by dsimp only; omega) j ⟨9216 * s + j.val, hlt⟩ (by dsimp only; omega))

/-- After the last point of batch `b`'s run the output block holds the whole contraction over the columns. -/
theorem outsAt_last (c : Dev nD) (t : Fin cfg1.N) (h8 : t.val % 9 = 8) (b : Fin 4) (hb : b.val = t.val / 9) (d : Fin 160)
    (u v : Fin 1) :
    (outsAt1 V c t.val t.isLt (ix3 u d v) : EReal) = numB (V c main_v0) (V c main_v11) (ix3 b d (0 : Fin 1)) := by
  rw [outsAt_fold V c t.val t.isLt, h8, zero_add, numB_apply, ← hb]
  exact (Finset.sum_congr rfl fun s hs => addend_eq V c b s (Finset.mem_range.mp hs) d u v).trans
    (sum_tiles 9216 (term (V c main_v0) (V c main_v11) b d) 9)

/-- What a flushing point writes back is its block of the contraction. -/
theorem flushed_eq (c : Dev nD) (t : Fin cfg1.N) (hf : (cfg1.win 2).flush t = true) :
    (dat1 V c).flushed 2 t = ((cfg1.win 2).blk t).view.read (Elt Ideal) (numB (V c main_v0) (V c main_v11)) := by
  have h8 : t.val % 9 = 8 := (flush1_2 t).mp hf
  have hN : t.val < 36 := lt_of_lt_of_eq t.isLt N_1
  obtain ⟨-, -, -, -, -, -, e0, e1, e2⟩ := idx_facts t
  show (cfg1.win 2).cut (grid1.coords t) ((dat1 V c).after 2 t) = _
  rw [after1_2]
  funext y
  obtain ⟨u, d, v, rfl⟩ : ∃ (u : Fin 1) (d : Fin 160) (v : Fin 1), y = ix3 u d v := ⟨y 0, y 1, y 2, eq_ix3 y⟩
  rw [View.read_apply]
  refine (outsAt_last V c t h8 ⟨t.val / 9, by omega⟩ rfl d u v).trans ?_
  refine Eq.trans ?_ (cast_eq _ _).symm
  refine congrArg (numB (V c main_v0) (V c main_v11)) (funext fun a => Fin.ext ?_)
  have hu : u.val < 1 := u.isLt
  have hv : v.val < 1 := v.isLt
  match a with
  | ⟨0, _⟩ => show t.val / 9 = win1_2.index t (0 : Fin 3) * 1 + 1 * u.val; omega
  | ⟨1, _⟩ => show d.val = win1_2.index t (1 : Fin 3) * 160 + 1 * d.val; omega
  | ⟨2, _⟩ => show 0 = win1_2.index t (2 : Fin 3) * 1 + 1 * v.val; omega

/-- Every entry of the output array is in the block the last point of its batch's run writes back. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : ℕ) < 4 := (i 0).isLt
  have h1 : (i 1 : ℕ) < 160 := (i 1).isLt
  have h2 : (i 2 : ℕ) < 1 := (i 2).isLt
  have hN : cfg1.N = 36 := N_1
  have ht : 9 * (i 0 : ℕ) + 8 < cfg1.N := by rw [hN]; omega
  refine ⟨⟨9 * (i 0 : ℕ) + 8, ht⟩, (flush1_2 _).mpr (by dsimp only; omega), ?_⟩
  obtain ⟨-, -, -, -, -, -, e0, e1, e2⟩ := idx_facts ⟨9 * (i 0 : ℕ) + 8, ht⟩
  dsimp only at e0
  show i ∈ ((View.whole main_v12).slice (win1_2.rect ⟨9 * (i 0 : ℕ) + 8, ht⟩)).set
  rw [View.set_slice_whole, Rect.mem_set_unit]
  intro a
  match a with
  | ⟨0, _⟩ =>
    show win1_2.index ⟨9 * (i 0 : ℕ) + 8, ht⟩ (0 : Fin 3) * 1 ≤ (i 0 : ℕ) ∧ (i 0 : ℕ) < win1_2.index ⟨9 * (i 0 : ℕ) + 8, ht⟩ (0 : Fin 3) * 1 + 1
    omega
  | ⟨1, _⟩ =>
    show win1_2.index ⟨9 * (i 0 : ℕ) + 8, ht⟩ (1 : Fin 3) * 160 ≤ (i 1 : ℕ) ∧ (i 1 : ℕ) < win1_2.index ⟨9 * (i 0 : ℕ) + 8, ht⟩ (1 : Fin 3) * 160 + 160
    omega
  | ⟨2, _⟩ =>
    show win1_2.index ⟨9 * (i 0 : ℕ) + 8, ht⟩ (2 : Fin 3) * 1 ≤ (i 2 : ℕ) ∧ (i 2 : ℕ) < win1_2.index ⟨9 * (i 0 : ℕ) + 8, ht⟩ (2 : Fin 3) * 1 + 1
    omega

end Array

theorem arr (c : Dev nD) : (dat1 (F := Ideal) V c).arrAt 2 cfg1.N = numB (V c main_v0) (V c main_v11) :=
  (dat1 V c).arrAt_eq_of_cover 2 (numB (V c main_v0) (V c main_v11)) (flushed_eq V c) (cover c)

end Cert.KernelIdeal.RegN1

end
-- ==== Proof.KRegN3.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegN3
open Cert.KernelIdeal Cert.KernelIdeal.Gen Cert.Nmf

open Idealize.ShloMosaic.ValueIdx

variable (V : (c : Dev nD) → (b : Ref sig .tc) → Buf (Elt Ideal) ((c : Thread nD τ).loc b))

/-- Nine (or any number of) consecutive tiles of `J` terms are one run of `J·k` terms. -/
theorem sum_tiles {β : Type*} [AddCommMonoid β] (J : ℕ) (f : ℕ → β) :
    ∀ k : ℕ, ∑ s ∈ Finset.range k, ∑ j ∈ Finset.range J, f (J * s + j) = ∑ n ∈ Finset.range (J * k), f n
  | 0 => by simp
  | k + 1 => by
    rw [Finset.sum_range_succ, sum_tiles J f k, Nat.mul_succ, Finset.sum_range_add]

section Pieces
variable {F : FTy → Type} [FloatOps F]

/-- The three zero offsets, as the constant function. -/
theorem hzero : (![0, 0, 0] : Fin 3 → Nat) = fun _ => 0 := funext fun a => by fin_cases a <;> rfl

/-- A point that does not reset leaves, over the running contents `xo`, the update of `xo` by the point's blocks. -/
theorem out_B (c : Dev nD) (i : grid3.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : ¬cond3_0 i) (x0 : Vec F S1x160x9216 .f32) (x1 : Vec F S1x1x9216 .f32) (xo : Vec F S1x160x1 .f32) :
    out3_B_2 c i a2 h2 a3 h3 a4 h4 hc x0 x1 xo = k3_pay2 x0 x1 xo := by
  unfold out3_B_2
  rw [View.read_writes_eq_canon _ _ _ (cover3_B_2 c i a2 h2 a3 h3 a4 h4 hc x0 x1 xo)]
  unfold kernelRun3_B
  dsimp only
  sl_unfold_words
  rw [View.canon_unit_zero hzero]
  simp only [View.readAt_eq_ld, h2.read_unread, h3.read_unread, h4.read_unread,
    View.ld_unit_zero (S := S1x160x9216) hzero, View.ld_unit_zero (S := S1x1x9216) hzero, View.ld_unit_zero (S := S1x160x1) hzero]

/-- A point that resets leaves the update of the zero block by the point's blocks. -/
theorem out_A (c : Dev nD) (i : grid3.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : cond3_0 i) (x0 : Vec F S1x160x9216 .f32) (x1 : Vec F S1x1x9216 .f32) :
    out3_A_2 c i a2 h2 a3 h3 a4 h4 hc x0 x1 = k3_pay2 x0 x1 k3_pay1 := by
  unfold out3_A_2
  rw [View.read_writes_eq_canon _ _ _ (cover3_A_2 c i a2 h2 a3 h3 a4 h4 hc x0 x1)]
  unfold kernelRun3_A
  dsimp only
  sl_unfold_words
  rw [View.canon_cons_unit_zero (S := S1x160x1) hzero, View.readCov_unit_zero (S := S1x160x1) _ hzero]
  simp only [View.readAt_eq_ld, h2.read_unread, h3.read_unread,
    View.ld_unit_zero (S := S1x160x9216) hzero, View.ld_unit_zero (S := S1x1x9216) hzero]
end Pieces

section Payload

/-- The reduced axis put back: the index of row `d`, column `j`. -/
theorem lift_row (d : Fin 160) (j : Fin 9216) :
    reduces_S160x9216_S160.lift (ix1 d) j = (ix2 d j : S160x9216.Idx) := by
  funext a
  match a with
  | ⟨0, _⟩ => exact Fin.ext rfl
  | ⟨1, _⟩ => exact Fin.ext rfl

/-- A row's sum over the lanes, written at the block's own coordinates. -/
theorem laneSum_apply (v8 : FVec Ideal S160x9216 .f32) (hacc : (0x00000000#32 : BitVec 32) = 0x00000000#32) (d : Fin 160) :
    multiReduction (F := Ideal) .add [1] S160 v8 0x00000000#32 reduces_S160x9216_S160 (.inl rfl) hacc (ix1 d)
      = ∑ j : Fin 9216, v8 (ix2 d j) := by
  refine (Ideal.multiReduction_add_single v8 0x00000000#32 reduces_S160x9216_S160 (.inl rfl) hacc (ix1 d)).trans ?_
  exact Finset.sum_congr rfl fun j _ => congrArg v8 (lift_row d j)

/-- The update read at row `d`: the running value there plus the row's products summed over the block's columns. -/
theorem update_apply (v3 : Vec Ideal S1x160x9216 .f32) (v5 : Vec Ideal S1x1x9216 .f32) (v11 : Vec Ideal S1x160x1 .f32) (d : Fin 160) :
    k3_pay2 (F := Ideal) v3 v5 v11 (ix3 (0 : Fin 1) d (0 : Fin 1))
      = v11 (ix3 (0 : Fin 1) d (0 : Fin 1)) + ∑ j : Fin 9216, v3 (ix3 (0 : Fin 1) d j) * v5 (ix3 (0 : Fin 1) (0 : Fin 1) j) := by
  unfold k3_pay2
  dsimp only
  refine (shapeCast_ab_1ab_apply _ shapeCasts_S160x1_S1x160x1 (0 : Fin 1) d (0 : Fin 1)).trans ?_
  refine (addf_apply _ _ _).trans ?_
  refine congrArg₂ (· + ·) ?_ ?_
  · exact shapeCast_1ab_ab_apply v11 shapeCasts_S1x160x1_S160x1 d (0 : Fin 1)
  · refine (shapeCast_apply _ shapeCasts_S160_S160x1 (ix2 d (0 : Fin 1)) (ix1 d) ?_).trans ?_
    · rw [Shape.rowMajor_val_two, Shape.rowMajor_val_one]
      show d.val = d.val * 1 + 0
      omega
    refine (laneSum_apply _ rfl d).trans ?_
    refine Finset.sum_congr rfl fun j _ => ?_
    refine (mulf_apply _ _ _).trans ?_
    refine congrArg₂ (· * ·) ?_ ?_
    · exact shapeCast_1ab_ab_apply v3 shapeCasts_S1x160x9216_S160x9216 d j
    · refine (broadcastTo_1b_ab_apply _ broadcasts_S1x9216_S160x9216 d j).trans ?_
      exact shapeCast_1ab_ab_apply v5 shapeCasts_S1x1x9216_S1x9216 (0 : Fin 1) j

/-- The zero block is zero everywhere. -/
theorem zeroBlock_apply (y : S1x160x1.Idx) : k3_pay1 (F := Ideal) y = (0 : EReal) := by
  unfold k3_pay1
  exact Ideal.ofBits_zero_f32

end Payload

section Blocks

/-- The windows' block indices at point `t`: batch `t / 9`, column tile `t % 9` for the two inputs, the output's block fixed along a run. -/
theorem idx_facts : ∀ t : Fin cfg3.N,
    win3_0.index t (0 : Fin 3) = t.val / 9 ∧ win3_0.index t (1 : Fin 3) = 0 ∧ win3_0.index t (2 : Fin 3) = t.val % 9
    ∧ win3_1.index t (0 : Fin 3) = t.val / 9 ∧ win3_1.index t (1 : Fin 3) = 0 ∧ win3_1.index t (2 : Fin 3) = t.val % 9
    ∧ win3_2.index t (0 : Fin 3) = t.val / 9 ∧ win3_2.index t (1 : Fin 3) = 0 ∧ win3_2.index t (2 : Fin 3) = 0 :=
  (by decide +kernel : ∀ t : Fin grid3.N, _)

/-- The data block at point `t`: batch `t / 9`, all rows, columns `9216·(t % 9) …`. -/
theorem xblk_apply (c : Dev nD) (t : Fin cfg3.N) (b : Fin 4) (hb : b.val = t.val / 9) (d : Fin 160) (j : Fin 9216)
    (n : Fin 82944) (hn : n.val = 9216 * (t.val % 9) + j.val) :
    (iblk3 V c 0 t : Vec Ideal S1x160x9216 .f32) (ix3 (0 : Fin 1) d j) = (V c main_v0 : Vec Ideal S4x160x82944 .f32) (ix3 b d n) := by
  obtain ⟨e0, e1, e2, -⟩ := idx_facts t
  unfold iblk3
  rw [View.read_apply]
  show V c main_v0 _ = V c main_v0 _
  congr 1
  funext a
  apply Fin.ext
  match a with
  | ⟨0, _⟩ => show win3_0.index t (0 : Fin 3) * 1 + 1 * 0 = b.val; omega
  | ⟨1, _⟩ => show win3_0.index t (1 : Fin 3) * 160 + 1 * d.val = d.val; omega
  | ⟨2, _⟩ => show win3_0.index t (2 : Fin 3) * 9216 + 1 * j.val = n.val; omega

/-- The coefficient block at point `t`: batch `t / 9`, columns `9216·(t % 9) …`. -/
theorem cblk_apply (c : Dev nD) (t : Fin cfg3.N) (b : Fin 4) (hb : b.val = t.val / 9) (j : Fin 9216)
    (n : Fin 82944) (hn : n.val = 9216 * (t.val % 9) + j.val) :
    (iblk3 V c 1 t : Vec Ideal S1x1x9216 .f32) (ix3 (0 : Fin 1) (0 : Fin 1) j) = (V c main_v31 : Vec Ideal S4x1x82944 .f32) (ix3 b (0 : Fin 1) n) := by
  obtain ⟨-, -, -, e0, e1, e2, -⟩ := idx_facts t
  unfold iblk3
  rw [View.read_apply]
  show V c main_v31 _ = V c main_v31 _
  congr 1
  funext a
  apply Fin.ext
  match a with
  | ⟨0, _⟩ => show win3_1.index t (0 : Fin 3) * 1 + 1 * 0 = b.val; omega
  | ⟨1, _⟩ => show win3_1.index t (1 : Fin 3) * 1 + 1 * 0 = 0; omega
  | ⟨2, _⟩ => show win3_1.index t (2 : Fin 3) * 9216 + 1 * j.val = n.val; omega

end Blocks

section Fold

/-- One product of the contraction over the columns, at a natural column number (zero past the last column). -/
def term (x : FVec Ideal SX .f32) (cc : FVec Ideal SC .f32) (b : Fin 4) (d : Fin 160) (n : ℕ) : EReal :=
  if h : n < 82944 then x (ix3 b d ⟨n, h⟩) * cc (ix3 b (0 : Fin 1) ⟨n, h⟩) else 0

/-- The contraction over the columns is the sum of the products over the first 82944 naturals. -/
theorem numB_apply (x : FVec Ideal SX .f32) (cc : FVec Ideal SC .f32) (b : Fin 4) (d : Fin 160) :
    numB x cc (ix3 b d (0 : Fin 1)) = ∑ n ∈ Finset.range 82944, term x cc b d n := by
  rw [Finset.sum_range]
  show ∑ n : Fin 82944, x (ix3 b d n) * cc (ix3 b (0 : Fin 1) n) = _
  refine Finset.sum_congr rfl fun n _ => ?_
  unfold term
  rw [dif_pos n.isLt]

/-- The data block at point `t`, at its literal type. -/
abbrev xblk (c : Dev nD) (t : Fin cfg3.N) : Vec Ideal S1x160x9216 .f32 := iblk3 V c 0 t
/-- The coefficient block at point `t`, at its literal type. -/
abbrev cblk (c : Dev nD) (t : Fin cfg3.N) : Vec Ideal S1x1x9216 .f32 := iblk3 V c 1 t

/-- What point `n` adds to row `y` of the output block: the products over the point's 9216 columns, summed. -/
def addend (c : Dev nD) (n : ℕ) (y : S1x160x1.Idx) : EReal :=
  if h : n < cfg3.N then
    ∑ j : Fin 9216, xblk V c ⟨n, h⟩ (ix3 (0 : Fin 1) (y 1 : Fin 160) j) * cblk V c ⟨n, h⟩ (ix3 (0 : Fin 1) (0 : Fin 1) j)
  else 0

/-- What a resetting point leaves. -/
abbrev resetAt (c : Dev nD) (n : ℕ) (h : n < cfg3.N) : Vec Ideal S1x160x1 .f32 :=
  k3_pay2 (F := Ideal) (iblk3 V c 0 ⟨n, h⟩) (iblk3 V c 1 ⟨n, h⟩) (k3_pay1 (F := Ideal))

/-- What an accumulating point leaves over `acc`. -/
abbrev stepAt (c : Dev nD) (n : ℕ) (h : n < cfg3.N) (acc : Vec Ideal S1x160x1 .f32) : Vec Ideal S1x160x1 .f32 :=
  k3_pay2 (F := Ideal) (iblk3 V c 0 ⟨n, h⟩) (iblk3 V c 1 ⟨n, h⟩) acc

theorem outsAt_reset (c : Dev nD) (n : ℕ) (h : n < cfg3.N) (h0 : n % 9 = 0) : outsAt3 V c n h = resetAt V c n h :=
  (outsAt3_A V c ⟨n, h⟩ h0).trans
    (out_A c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩)
      ((hcond3_0 ⟨n, h⟩).mpr h0) (iblk3 V c 0 ⟨n, h⟩) (iblk3 V c 1 ⟨n, h⟩))

theorem outsAt_step (c : Dev nD) (n : ℕ) (h : n + 1 < cfg3.N) (h0 : ¬(n + 1) % 9 = 0) :
    outsAt3 V c (n + 1) h = stepAt V c (n + 1) h (outsAt3 V c n (Nat.lt_of_succ_lt h)) :=
  (outsAt3_B V c ⟨n + 1, h⟩ h0).trans
    (out_B c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩)
      (fun hh => h0 ((hcond3_0 ⟨n + 1, h⟩).mp hh)) (iblk3 V c 0 ⟨n + 1, h⟩) (iblk3 V c 1 ⟨n + 1, h⟩) (outsAt3 V c n (Nat.lt_of_succ_lt h)))

/-- An accumulating point adds its addend at every row. -/
theorem step_apply (c : Dev nD) (n : ℕ) (h : n < cfg3.N) (acc : Vec Ideal S1x160x1 .f32) (y : S1x160x1.Idx) :
    stepAt V c n h acc y = (acc y : EReal) + addend V c n y := by
  obtain ⟨u, d, v, rfl⟩ : ∃ (u : Fin 1) (d : Fin 160) (v : Fin 1), y = ix3 u d v := ⟨y 0, y 1, y 2, eq_ix3 y⟩
  obtain rfl : u = 0 := Subsingleton.elim _ _
  obtain rfl : v = 0 := Subsingleton.elim _ _
  unfold addend
  rw [dif_pos h]
  exact update_apply (iblk3 V c 0 ⟨n, h⟩) (iblk3 V c 1 ⟨n, h⟩) acc d

/-- A resetting point leaves zero plus its addend. -/
theorem reset_apply (c : Dev nD) (n : ℕ) (h : n < cfg3.N) (y : S1x160x1.Idx) :
    resetAt V c n h y = (0 : EReal) + addend V c n y :=
  (step_apply V c n h (k3_pay1 (F := Ideal)) y).trans (congrArg (· + addend V c n y) (zeroBlock_apply y))

/-- After point `t` the output block holds the sum of the addends of its run's points up to `t`. -/
theorem outsAt_fold (c : Dev nD) (t : ℕ) (ht : t < cfg3.N) (y : S1x160x1.Idx) :
    (outsAt3 V c t ht y : EReal) = 0 + ∑ s ∈ Finset.range (t % 9 + 1), addend V c (9 * (t / 9) + s) y := by
  have h' : 9 * (t / 9) + t % 9 < cfg3.N := by rw [Nat.div_add_mod]; exact ht
  rw [Pipeline.eq_accAt_of_mod (outsAt3 V c) 9 (resetAt V c) (stepAt V c) (fun n h h0 => outsAt_reset V c n h h0)
    (fun n h h0 => outsAt_step V c n h h0) (by norm_num) t ht h']
  exact Pipeline.accAt_add_apply (β := EReal) (resetAt V c) (stepAt V c) (fun _ => 0) (addend V c) (9 * (t / 9)) 8
    (fun h i => reset_apply V c _ h i) (fun n h acc i _ _ => step_apply V c n h acc i) (t % 9) (by omega) h' y

end Fold

section Array

/-- The addend of point `9·b + s` is tile `s` of batch `b`'s products. -/
theorem addend_eq (c : Dev nD) (b : Fin 4) (s : ℕ) (hs : s < 9) (d : Fin 160) (u v : Fin 1) :
    addend V c (9 * b.val + s) (ix3 u d v)
      = ∑ j ∈ Finset.range 9216, term (V c main_v0) (V c main_v31) b d (9216 * s + j) := by
  have hN : cfg3.N = 36 := N_3
  have hb : b.val < 4 := b.isLt
  have h : 9 * b.val + s < cfg3.N := by rw [hN]; omega
  unfold addend
  rw [dif_pos h, Finset.sum_range]
  refine Finset.sum_congr rfl fun j _ => ?_
  have hj : j.val < 9216 := j.isLt
  have hlt : 9216 * s + j.val < 82944 := by omega
  unfold term
  rw [dif_pos hlt]
  exact congrArg₂ (· * ·)
    (xblk_apply V c ⟨9 * b.val + s, h⟩ b (by dsimp only; omega) d j ⟨9216 * s + j.val, hlt⟩ (by dsimp only; omega))
    (cblk_apply V c ⟨9 * b.val + s, h⟩ b (by dsimp only; omega) j ⟨9216 * s + j.val, hlt⟩ (by dsimp only; omega))

/-- After the last point of batch `b`'s run the output block holds the whole contraction over the columns. -/
theorem outsAt_last (c : Dev nD) (t : Fin cfg3.N) (h8 : t.val % 9 = 8) (b : Fin 4) (hb : b.val = t.val / 9) (d : Fin 160)
    (u v : Fin 1) :
    (outsAt3 V c t.val t.isLt (ix3 u d v) : EReal) = numB (V c main_v0) (V c main_v31) (ix3 b d (0 : Fin 1)) := by
  rw [outsAt_fold V c t.val t.isLt, h8, zero_add, numB_apply, ← hb]
  exact (Finset.sum_congr rfl fun s hs => addend_eq V c b s (Finset.mem_range.mp hs) d u v).trans
    (sum_tiles 9216 (term (V c main_v0) (V c main_v31) b d) 9)

/-- What a flushing point writes back is its block of the contraction. -/
theorem flushed_eq (c : Dev nD) (t : Fin cfg3.N) (hf : (cfg3.win 2).flush t = true) :
    (dat3 V c).flushed 2 t = ((cfg3.win 2).blk t).view.read (Elt Ideal) (numB (V c main_v0) (V c main_v31)) := by
  have h8 : t.val % 9 = 8 := (flush3_2 t).mp hf
  have hN : t.val < 36 := lt_of_lt_of_eq t.isLt N_3
  obtain ⟨-, -, -, -, -, -, e0, e1, e2⟩ := idx_facts t
  show (cfg3.win 2).cut (grid3.coords t) ((dat3 V c).after 2 t) = _
  rw [after3_2]
  funext y
  obtain ⟨u, d, v, rfl⟩ : ∃ (u : Fin 1) (d : Fin 160) (v : Fin 1), y = ix3 u d v := ⟨y 0, y 1, y 2, eq_ix3 y⟩
  rw [View.read_apply]
  refine (outsAt_last V c t h8 ⟨t.val / 9, by omega⟩ rfl d u v).trans ?_
  refine Eq.trans ?_ (cast_eq _ _).symm
  refine congrArg (numB (V c main_v0) (V c main_v31)) (funext fun a => Fin.ext ?_)
  have hu : u.val < 1 := u.isLt
  have hv : v.val < 1 := v.isLt
  match a with
  | ⟨0, _⟩ => show t.val / 9 = win3_2.index t (0 : Fin 3) * 1 + 1 * u.val; omega
  | ⟨1, _⟩ => show d.val = win3_2.index t (1 : Fin 3) * 160 + 1 * d.val; omega
  | ⟨2, _⟩ => show 0 = win3_2.index t (2 : Fin 3) * 1 + 1 * v.val; omega

/-- Every entry of the output array is in the block the last point of its batch's run writes back. -/
theorem cover (c : Dev nD) (i : ((cfg3.win 2).arr.view.loc (c.tc : Thread nD τ)).2.ty.Idx) :
    ∃ t : Fin cfg3.N, (cfg3.win 2).flush t = true ∧ i ∈ ((cfg3.win 2).blk t).view.set := by
  have h0 : (i 0 : ℕ) < 4 := (i 0).isLt
  have h1 : (i 1 : ℕ) < 160 := (i 1).isLt
  have h2 : (i 2 : ℕ) < 1 := (i 2).isLt
  have hN : cfg3.N = 36 := N_3
  have ht : 9 * (i 0 : ℕ) + 8 < cfg3.N := by rw [hN]; omega
  refine ⟨⟨9 * (i 0 : ℕ) + 8, ht⟩, (flush3_2 _).mpr (by dsimp only; omega), ?_⟩
  obtain ⟨-, -, -, -, -, -, e0, e1, e2⟩ := idx_facts ⟨9 * (i 0 : ℕ) + 8, ht⟩
  dsimp only at e0
  show i ∈ ((View.whole main_v32).slice (win3_2.rect ⟨9 * (i 0 : ℕ) + 8, ht⟩)).set
  rw [View.set_slice_whole, Rect.mem_set_unit]
  intro a
  match a with
  | ⟨0, _⟩ =>
    show win3_2.index ⟨9 * (i 0 : ℕ) + 8, ht⟩ (0 : Fin 3) * 1 ≤ (i 0 : ℕ) ∧ (i 0 : ℕ) < win3_2.index ⟨9 * (i 0 : ℕ) + 8, ht⟩ (0 : Fin 3) * 1 + 1
    omega
  | ⟨1, _⟩ =>
    show win3_2.index ⟨9 * (i 0 : ℕ) + 8, ht⟩ (1 : Fin 3) * 160 ≤ (i 1 : ℕ) ∧ (i 1 : ℕ) < win3_2.index ⟨9 * (i 0 : ℕ) + 8, ht⟩ (1 : Fin 3) * 160 + 160
    omega
  | ⟨2, _⟩ =>
    show win3_2.index ⟨9 * (i 0 : ℕ) + 8, ht⟩ (2 : Fin 3) * 1 ≤ (i 2 : ℕ) ∧ (i 2 : ℕ) < win3_2.index ⟨9 * (i 0 : ℕ) + 8, ht⟩ (2 : Fin 3) * 1 + 1
    omega

end Array

theorem arr (c : Dev nD) : (dat3 (F := Ideal) V c).arrAt 2 cfg3.N = numB (V c main_v0) (V c main_v31) :=
  (dat3 V c).arrAt_eq_of_cover 2 (numB (V c main_v0) (V c main_v31)) (flushed_eq V c) (cover c)

end Cert.KernelIdeal.RegN3

end
-- ==== Proof.KRegN5.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegN5
open Cert.KernelIdeal Cert.KernelIdeal.Gen Cert.Nmf

open Idealize.ShloMosaic.ValueIdx

variable (V : (c : Dev nD) → (b : Ref sig .tc) → Buf (Elt Ideal) ((c : Thread nD τ).loc b))

/-- Nine (or any number of) consecutive tiles of `J` terms are one run of `J·k` terms. -/
theorem sum_tiles {β : Type*} [AddCommMonoid β] (J : ℕ) (f : ℕ → β) :
    ∀ k : ℕ, ∑ s ∈ Finset.range k, ∑ j ∈ Finset.range J, f (J * s + j) = ∑ n ∈ Finset.range (J * k), f n
  | 0 => by simp
  | k + 1 => by
    rw [Finset.sum_range_succ, sum_tiles J f k, Nat.mul_succ, Finset.sum_range_add]

section Pieces
variable {F : FTy → Type} [FloatOps F]

/-- The three zero offsets, as the constant function. -/
theorem hzero : (![0, 0, 0] : Fin 3 → Nat) = fun _ => 0 := funext fun a => by fin_cases a <;> rfl

/-- A point that does not reset leaves, over the running contents `xo`, the update of `xo` by the point's blocks. -/
theorem out_B (c : Dev nD) (i : grid5.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : ¬cond5_0 i) (x0 : Vec F S1x160x9216 .f32) (x1 : Vec F S1x1x9216 .f32) (xo : Vec F S1x160x1 .f32) :
    out5_B_2 c i a2 h2 a3 h3 a4 h4 hc x0 x1 xo = k5_pay2 x0 x1 xo := by
  unfold out5_B_2
  rw [View.read_writes_eq_canon _ _ _ (cover5_B_2 c i a2 h2 a3 h3 a4 h4 hc x0 x1 xo)]
  unfold kernelRun5_B
  dsimp only
  sl_unfold_words
  rw [View.canon_unit_zero hzero]
  simp only [View.readAt_eq_ld, h2.read_unread, h3.read_unread, h4.read_unread,
    View.ld_unit_zero (S := S1x160x9216) hzero, View.ld_unit_zero (S := S1x1x9216) hzero, View.ld_unit_zero (S := S1x160x1) hzero]

/-- A point that resets leaves the update of the zero block by the point's blocks. -/
theorem out_A (c : Dev nD) (i : grid5.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : cond5_0 i) (x0 : Vec F S1x160x9216 .f32) (x1 : Vec F S1x1x9216 .f32) :
    out5_A_2 c i a2 h2 a3 h3 a4 h4 hc x0 x1 = k5_pay2 x0 x1 k5_pay1 := by
  unfold out5_A_2
  rw [View.read_writes_eq_canon _ _ _ (cover5_A_2 c i a2 h2 a3 h3 a4 h4 hc x0 x1)]
  unfold kernelRun5_A
  dsimp only
  sl_unfold_words
  rw [View.canon_cons_unit_zero (S := S1x160x1) hzero, View.readCov_unit_zero (S := S1x160x1) _ hzero]
  simp only [View.readAt_eq_ld, h2.read_unread, h3.read_unread,
    View.ld_unit_zero (S := S1x160x9216) hzero, View.ld_unit_zero (S := S1x1x9216) hzero]
end Pieces

section Payload

/-- The reduced axis put back: the index of row `d`, column `j`. -/
theorem lift_row (d : Fin 160) (j : Fin 9216) :
    reduces_S160x9216_S160.lift (ix1 d) j = (ix2 d j : S160x9216.Idx) := by
  funext a
  match a with
  | ⟨0, _⟩ => exact Fin.ext rfl
  | ⟨1, _⟩ => exact Fin.ext rfl

/-- A row's sum over the lanes, written at the block's own coordinates. -/
theorem laneSum_apply (v8 : FVec Ideal S160x9216 .f32) (hacc : (0x00000000#32 : BitVec 32) = 0x00000000#32) (d : Fin 160) :
    multiReduction (F := Ideal) .add [1] S160 v8 0x00000000#32 reduces_S160x9216_S160 (.inl rfl) hacc (ix1 d)
      = ∑ j : Fin 9216, v8 (ix2 d j) := by
  refine (Ideal.multiReduction_add_single v8 0x00000000#32 reduces_S160x9216_S160 (.inl rfl) hacc (ix1 d)).trans ?_
  exact Finset.sum_congr rfl fun j _ => congrArg v8 (lift_row d j)

/-- The update read at row `d`: the running value there plus the row's products summed over the block's columns. -/
theorem update_apply (v3 : Vec Ideal S1x160x9216 .f32) (v5 : Vec Ideal S1x1x9216 .f32) (v11 : Vec Ideal S1x160x1 .f32) (d : Fin 160) :
    k5_pay2 (F := Ideal) v3 v5 v11 (ix3 (0 : Fin 1) d (0 : Fin 1))
      = v11 (ix3 (0 : Fin 1) d (0 : Fin 1)) + ∑ j : Fin 9216, v3 (ix3 (0 : Fin 1) d j) * v5 (ix3 (0 : Fin 1) (0 : Fin 1) j) := by
  unfold k5_pay2
  dsimp only
  refine (shapeCast_ab_1ab_apply _ shapeCasts_S160x1_S1x160x1 (0 : Fin 1) d (0 : Fin 1)).trans ?_
  refine (addf_apply _ _ _).trans ?_
  refine congrArg₂ (· + ·) ?_ ?_
  · exact shapeCast_1ab_ab_apply v11 shapeCasts_S1x160x1_S160x1 d (0 : Fin 1)
  · refine (shapeCast_apply _ shapeCasts_S160_S160x1 (ix2 d (0 : Fin 1)) (ix1 d) ?_).trans ?_
    · rw [Shape.rowMajor_val_two, Shape.rowMajor_val_one]
      show d.val = d.val * 1 + 0
      omega
    refine (laneSum_apply _ rfl d).trans ?_
    refine Finset.sum_congr rfl fun j _ => ?_
    refine (mulf_apply _ _ _).trans ?_
    refine congrArg₂ (· * ·) ?_ ?_
    · exact shapeCast_1ab_ab_apply v3 shapeCasts_S1x160x9216_S160x9216 d j
    · refine (broadcastTo_1b_ab_apply _ broadcasts_S1x9216_S160x9216 d j).trans ?_
      exact shapeCast_1ab_ab_apply v5 shapeCasts_S1x1x9216_S1x9216 (0 : Fin 1) j

/-- The zero block is zero everywhere. -/
theorem zeroBlock_apply (y : S1x160x1.Idx) : k5_pay1 (F := Ideal) y = (0 : EReal) := by
  unfold k5_pay1
  exact Ideal.ofBits_zero_f32

end Payload

section Blocks

/-- The windows' block indices at point `t`: batch `t / 9`, column tile `t % 9` for the two inputs, the output's block fixed along a run. -/
theorem idx_facts : ∀ t : Fin cfg5.N,
    win5_0.index t (0 : Fin 3) = t.val / 9 ∧ win5_0.index t (1 : Fin 3) = 0 ∧ win5_0.index t (2 : Fin 3) = t.val % 9
    ∧ win5_1.index t (0 : Fin 3) = t.val / 9 ∧ win5_1.index t (1 : Fin 3) = 0 ∧ win5_1.index t (2 : Fin 3) = t.val % 9
    ∧ win5_2.index t (0 : Fin 3) = t.val / 9 ∧ win5_2.index t (1 : Fin 3) = 0 ∧ win5_2.index t (2 : Fin 3) = 0 :=
  (by decide +kernel : ∀ t : Fin grid5.N, _)

/-- The data block at point `t`: batch `t / 9`, all rows, columns `9216·(t % 9) …`. -/
theorem xblk_apply (c : Dev nD) (t : Fin cfg5.N) (b : Fin 4) (hb : b.val = t.val / 9) (d : Fin 160) (j : Fin 9216)
    (n : Fin 82944) (hn : n.val = 9216 * (t.val % 9) + j.val) :
    (iblk5 V c 0 t : Vec Ideal S1x160x9216 .f32) (ix3 (0 : Fin 1) d j) = (V c main_v0 : Vec Ideal S4x160x82944 .f32) (ix3 b d n) := by
  obtain ⟨e0, e1, e2, -⟩ := idx_facts t
  unfold iblk5
  rw [View.read_apply]
  show V c main_v0 _ = V c main_v0 _
  congr 1
  funext a
  apply Fin.ext
  match a with
  | ⟨0, _⟩ => show win5_0.index t (0 : Fin 3) * 1 + 1 * 0 = b.val; omega
  | ⟨1, _⟩ => show win5_0.index t (1 : Fin 3) * 160 + 1 * d.val = d.val; omega
  | ⟨2, _⟩ => show win5_0.index t (2 : Fin 3) * 9216 + 1 * j.val = n.val; omega

/-- The coefficient block at point `t`: batch `t / 9`, columns `9216·(t % 9) …`. -/
theorem cblk_apply (c : Dev nD) (t : Fin cfg5.N) (b : Fin 4) (hb : b.val = t.val / 9) (j : Fin 9216)
    (n : Fin 82944) (hn : n.val = 9216 * (t.val % 9) + j.val) :
    (iblk5 V c 1 t : Vec Ideal S1x1x9216 .f32) (ix3 (0 : Fin 1) (0 : Fin 1) j) = (V c main_v51 : Vec Ideal S4x1x82944 .f32) (ix3 b (0 : Fin 1) n) := by
  obtain ⟨-, -, -, e0, e1, e2, -⟩ := idx_facts t
  unfold iblk5
  rw [View.read_apply]
  show V c main_v51 _ = V c main_v51 _
  congr 1
  funext a
  apply Fin.ext
  match a with
  | ⟨0, _⟩ => show win5_1.index t (0 : Fin 3) * 1 + 1 * 0 = b.val; omega
  | ⟨1, _⟩ => show win5_1.index t (1 : Fin 3) * 1 + 1 * 0 = 0; omega
  | ⟨2, _⟩ => show win5_1.index t (2 : Fin 3) * 9216 + 1 * j.val = n.val; omega

end Blocks

section Fold

/-- One product of the contraction over the columns, at a natural column number (zero past the last column). -/
def term (x : FVec Ideal SX .f32) (cc : FVec Ideal SC .f32) (b : Fin 4) (d : Fin 160) (n : ℕ) : EReal :=
  if h : n < 82944 then x (ix3 b d ⟨n, h⟩) * cc (ix3 b (0 : Fin 1) ⟨n, h⟩) else 0

/-- The contraction over the columns is the sum of the products over the first 82944 naturals. -/
theorem numB_apply (x : FVec Ideal SX .f32) (cc : FVec Ideal SC .f32) (b : Fin 4) (d : Fin 160) :
    numB x cc (ix3 b d (0 : Fin 1)) = ∑ n ∈ Finset.range 82944, term x cc b d n := by
  rw [Finset.sum_range]
  show ∑ n : Fin 82944, x (ix3 b d n) * cc (ix3 b (0 : Fin 1) n) = _
  refine Finset.sum_congr rfl fun n _ => ?_
  unfold term
  rw [dif_pos n.isLt]

/-- The data block at point `t`, at its literal type. -/
abbrev xblk (c : Dev nD) (t : Fin cfg5.N) : Vec Ideal S1x160x9216 .f32 := iblk5 V c 0 t
/-- The coefficient block at point `t`, at its literal type. -/
abbrev cblk (c : Dev nD) (t : Fin cfg5.N) : Vec Ideal S1x1x9216 .f32 := iblk5 V c 1 t

/-- What point `n` adds to row `y` of the output block: the products over the point's 9216 columns, summed. -/
def addend (c : Dev nD) (n : ℕ) (y : S1x160x1.Idx) : EReal :=
  if h : n < cfg5.N then
    ∑ j : Fin 9216, xblk V c ⟨n, h⟩ (ix3 (0 : Fin 1) (y 1 : Fin 160) j) * cblk V c ⟨n, h⟩ (ix3 (0 : Fin 1) (0 : Fin 1) j)
  else 0

/-- What a resetting point leaves. -/
abbrev resetAt (c : Dev nD) (n : ℕ) (h : n < cfg5.N) : Vec Ideal S1x160x1 .f32 :=
  k5_pay2 (F := Ideal) (iblk5 V c 0 ⟨n, h⟩) (iblk5 V c 1 ⟨n, h⟩) (k5_pay1 (F := Ideal))

/-- What an accumulating point leaves over `acc`. -/
abbrev stepAt (c : Dev nD) (n : ℕ) (h : n < cfg5.N) (acc : Vec Ideal S1x160x1 .f32) : Vec Ideal S1x160x1 .f32 :=
  k5_pay2 (F := Ideal) (iblk5 V c 0 ⟨n, h⟩) (iblk5 V c 1 ⟨n, h⟩) acc

theorem outsAt_reset (c : Dev nD) (n : ℕ) (h : n < cfg5.N) (h0 : n % 9 = 0) : outsAt5 V c n h = resetAt V c n h :=
  (outsAt5_A V c ⟨n, h⟩ h0).trans
    (out_A c (grid5.coords ⟨n, h⟩) (ms5_0 ⟨n, h⟩) (hs5_0 ⟨n, h⟩) (ms5_1 ⟨n, h⟩) (hs5_1 ⟨n, h⟩) (ms5_2 ⟨n, h⟩) (hs5_2 ⟨n, h⟩)
      ((hcond5_0 ⟨n, h⟩).mpr h0) (iblk5 V c 0 ⟨n, h⟩) (iblk5 V c 1 ⟨n, h⟩))

theorem outsAt_step (c : Dev nD) (n : ℕ) (h : n + 1 < cfg5.N) (h0 : ¬(n + 1) % 9 = 0) :
    outsAt5 V c (n + 1) h = stepAt V c (n + 1) h (outsAt5 V c n (Nat.lt_of_succ_lt h)) :=
  (outsAt5_B V c ⟨n + 1, h⟩ h0).trans
    (out_B c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩)
      (fun hh => h0 ((hcond5_0 ⟨n + 1, h⟩).mp hh)) (iblk5 V c 0 ⟨n + 1, h⟩) (iblk5 V c 1 ⟨n + 1, h⟩) (outsAt5 V c n (Nat.lt_of_succ_lt h)))

/-- An accumulating point adds its addend at every row. -/
theorem step_apply (c : Dev nD) (n : ℕ) (h : n < cfg5.N) (acc : Vec Ideal S1x160x1 .f32) (y : S1x160x1.Idx) :
    stepAt V c n h acc y = (acc y : EReal) + addend V c n y := by
  obtain ⟨u, d, v, rfl⟩ : ∃ (u : Fin 1) (d : Fin 160) (v : Fin 1), y = ix3 u d v := ⟨y 0, y 1, y 2, eq_ix3 y⟩
  obtain rfl : u = 0 := Subsingleton.elim _ _
  obtain rfl : v = 0 := Subsingleton.elim _ _
  unfold addend
  rw [dif_pos h]
  exact update_apply (iblk5 V c 0 ⟨n, h⟩) (iblk5 V c 1 ⟨n, h⟩) acc d

/-- A resetting point leaves zero plus its addend. -/
theorem reset_apply (c : Dev nD) (n : ℕ) (h : n < cfg5.N) (y : S1x160x1.Idx) :
    resetAt V c n h y = (0 : EReal) + addend V c n y :=
  (step_apply V c n h (k5_pay1 (F := Ideal)) y).trans (congrArg (· + addend V c n y) (zeroBlock_apply y))

/-- After point `t` the output block holds the sum of the addends of its run's points up to `t`. -/
theorem outsAt_fold (c : Dev nD) (t : ℕ) (ht : t < cfg5.N) (y : S1x160x1.Idx) :
    (outsAt5 V c t ht y : EReal) = 0 + ∑ s ∈ Finset.range (t % 9 + 1), addend V c (9 * (t / 9) + s) y := by
  have h' : 9 * (t / 9) + t % 9 < cfg5.N := by rw [Nat.div_add_mod]; exact ht
  rw [Pipeline.eq_accAt_of_mod (outsAt5 V c) 9 (resetAt V c) (stepAt V c) (fun n h h0 => outsAt_reset V c n h h0)
    (fun n h h0 => outsAt_step V c n h h0) (by norm_num) t ht h']
  exact Pipeline.accAt_add_apply (β := EReal) (resetAt V c) (stepAt V c) (fun _ => 0) (addend V c) (9 * (t / 9)) 8
    (fun h i => reset_apply V c _ h i) (fun n h acc i _ _ => step_apply V c n h acc i) (t % 9) (by omega) h' y

end Fold

section Array

/-- The addend of point `9·b + s` is tile `s` of batch `b`'s products. -/
theorem addend_eq (c : Dev nD) (b : Fin 4) (s : ℕ) (hs : s < 9) (d : Fin 160) (u v : Fin 1) :
    addend V c (9 * b.val + s) (ix3 u d v)
      = ∑ j ∈ Finset.range 9216, term (V c main_v0) (V c main_v51) b d (9216 * s + j) := by
  have hN : cfg5.N = 36 := N_5
  have hb : b.val < 4 := b.isLt
  have h : 9 * b.val + s < cfg5.N := by rw [hN]; omega
  unfold addend
  rw [dif_pos h, Finset.sum_range]
  refine Finset.sum_congr rfl fun j _ => ?_
  have hj : j.val < 9216 := j.isLt
  have hlt : 9216 * s + j.val < 82944 := by omega
  unfold term
  rw [dif_pos hlt]
  exact congrArg₂ (· * ·)
    (xblk_apply V c ⟨9 * b.val + s, h⟩ b (by dsimp only; omega) d j ⟨9216 * s + j.val, hlt⟩ (by dsimp only; omega))
    (cblk_apply V c ⟨9 * b.val + s, h⟩ b (by dsimp only; omega) j ⟨9216 * s + j.val, hlt⟩ (by dsimp only; omega))

/-- After the last point of batch `b`'s run the output block holds the whole contraction over the columns. -/
theorem outsAt_last (c : Dev nD) (t : Fin cfg5.N) (h8 : t.val % 9 = 8) (b : Fin 4) (hb : b.val = t.val / 9) (d : Fin 160)
    (u v : Fin 1) :
    (outsAt5 V c t.val t.isLt (ix3 u d v) : EReal) = numB (V c main_v0) (V c main_v51) (ix3 b d (0 : Fin 1)) := by
  rw [outsAt_fold V c t.val t.isLt, h8, zero_add, numB_apply, ← hb]
  exact (Finset.sum_congr rfl fun s hs => addend_eq V c b s (Finset.mem_range.mp hs) d u v).trans
    (sum_tiles 9216 (term (V c main_v0) (V c main_v51) b d) 9)

/-- What a flushing point writes back is its block of the contraction. -/
theorem flushed_eq (c : Dev nD) (t : Fin cfg5.N) (hf : (cfg5.win 2).flush t = true) :
    (dat5 V c).flushed 2 t = ((cfg5.win 2).blk t).view.read (Elt Ideal) (numB (V c main_v0) (V c main_v51)) := by
  have h8 : t.val % 9 = 8 := (flush5_2 t).mp hf
  have hN : t.val < 36 := lt_of_lt_of_eq t.isLt N_5
  obtain ⟨-, -, -, -, -, -, e0, e1, e2⟩ := idx_facts t
  show (cfg5.win 2).cut (grid5.coords t) ((dat5 V c).after 2 t) = _
  rw [after5_2]
  funext y
  obtain ⟨u, d, v, rfl⟩ : ∃ (u : Fin 1) (d : Fin 160) (v : Fin 1), y = ix3 u d v := ⟨y 0, y 1, y 2, eq_ix3 y⟩
  rw [View.read_apply]
  refine (outsAt_last V c t h8 ⟨t.val / 9, by omega⟩ rfl d u v).trans ?_
  refine Eq.trans ?_ (cast_eq _ _).symm
  refine congrArg (numB (V c main_v0) (V c main_v51)) (funext fun a => Fin.ext ?_)
  have hu : u.val < 1 := u.isLt
  have hv : v.val < 1 := v.isLt
  match a with
  | ⟨0, _⟩ => show t.val / 9 = win5_2.index t (0 : Fin 3) * 1 + 1 * u.val; omega
  | ⟨1, _⟩ => show d.val = win5_2.index t (1 : Fin 3) * 160 + 1 * d.val; omega
  | ⟨2, _⟩ => show 0 = win5_2.index t (2 : Fin 3) * 1 + 1 * v.val; omega

/-- Every entry of the output array is in the block the last point of its batch's run writes back. -/
theorem cover (c : Dev nD) (i : ((cfg5.win 2).arr.view.loc (c.tc : Thread nD τ)).2.ty.Idx) :
    ∃ t : Fin cfg5.N, (cfg5.win 2).flush t = true ∧ i ∈ ((cfg5.win 2).blk t).view.set := by
  have h0 : (i 0 : ℕ) < 4 := (i 0).isLt
  have h1 : (i 1 : ℕ) < 160 := (i 1).isLt
  have h2 : (i 2 : ℕ) < 1 := (i 2).isLt
  have hN : cfg5.N = 36 := N_5
  have ht : 9 * (i 0 : ℕ) + 8 < cfg5.N := by rw [hN]; omega
  refine ⟨⟨9 * (i 0 : ℕ) + 8, ht⟩, (flush5_2 _).mpr (by dsimp only; omega), ?_⟩
  obtain ⟨-, -, -, -, -, -, e0, e1, e2⟩ := idx_facts ⟨9 * (i 0 : ℕ) + 8, ht⟩
  dsimp only at e0
  show i ∈ ((View.whole main_v52).slice (win5_2.rect ⟨9 * (i 0 : ℕ) + 8, ht⟩)).set
  rw [View.set_slice_whole, Rect.mem_set_unit]
  intro a
  match a with
  | ⟨0, _⟩ =>
    show win5_2.index ⟨9 * (i 0 : ℕ) + 8, ht⟩ (0 : Fin 3) * 1 ≤ (i 0 : ℕ) ∧ (i 0 : ℕ) < win5_2.index ⟨9 * (i 0 : ℕ) + 8, ht⟩ (0 : Fin 3) * 1 + 1
    omega
  | ⟨1, _⟩ =>
    show win5_2.index ⟨9 * (i 0 : ℕ) + 8, ht⟩ (1 : Fin 3) * 160 ≤ (i 1 : ℕ) ∧ (i 1 : ℕ) < win5_2.index ⟨9 * (i 0 : ℕ) + 8, ht⟩ (1 : Fin 3) * 160 + 160
    omega
  | ⟨2, _⟩ =>
    show win5_2.index ⟨9 * (i 0 : ℕ) + 8, ht⟩ (2 : Fin 3) * 1 ≤ (i 2 : ℕ) ∧ (i 2 : ℕ) < win5_2.index ⟨9 * (i 0 : ℕ) + 8, ht⟩ (2 : Fin 3) * 1 + 1
    omega

end Array

theorem arr (c : Dev nD) : (dat5 (F := Ideal) V c).arrAt 2 cfg5.N = numB (V c main_v0) (V c main_v51) :=
  (dat5 V c).arrAt_eq_of_cover 2 (numB (V c main_v0) (V c main_v51)) (flushed_eq V c) (cover c)

end Cert.KernelIdeal.RegN5

end
-- ==== Proof.KRegN7.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegN7
open Cert.KernelIdeal Cert.KernelIdeal.Gen Cert.Nmf

open Idealize.ShloMosaic.ValueIdx

variable (V : (c : Dev nD) → (b : Ref sig .tc) → Buf (Elt Ideal) ((c : Thread nD τ).loc b))

/-- Nine (or any number of) consecutive tiles of `J` terms are one run of `J·k` terms. -/
theorem sum_tiles {β : Type*} [AddCommMonoid β] (J : ℕ) (f : ℕ → β) :
    ∀ k : ℕ, ∑ s ∈ Finset.range k, ∑ j ∈ Finset.range J, f (J * s + j) = ∑ n ∈ Finset.range (J * k), f n
  | 0 => by simp
  | k + 1 => by
    rw [Finset.sum_range_succ, sum_tiles J f k, Nat.mul_succ, Finset.sum_range_add]

section Pieces
variable {F : FTy → Type} [FloatOps F]

/-- The three zero offsets, as the constant function. -/
theorem hzero : (![0, 0, 0] : Fin 3 → Nat) = fun _ => 0 := funext fun a => by fin_cases a <;> rfl

/-- A point that does not reset leaves, over the running contents `xo`, the update of `xo` by the point's blocks. -/
theorem out_B (c : Dev nD) (i : grid7.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : ¬cond7_0 i) (x0 : Vec F S1x160x9216 .f32) (x1 : Vec F S1x1x9216 .f32) (xo : Vec F S1x160x1 .f32) :
    out7_B_2 c i a2 h2 a3 h3 a4 h4 hc x0 x1 xo = k7_pay2 x0 x1 xo := by
  unfold out7_B_2
  rw [View.read_writes_eq_canon _ _ _ (cover7_B_2 c i a2 h2 a3 h3 a4 h4 hc x0 x1 xo)]
  unfold kernelRun7_B
  dsimp only
  sl_unfold_words
  rw [View.canon_unit_zero hzero]
  simp only [View.readAt_eq_ld, h2.read_unread, h3.read_unread, h4.read_unread,
    View.ld_unit_zero (S := S1x160x9216) hzero, View.ld_unit_zero (S := S1x1x9216) hzero, View.ld_unit_zero (S := S1x160x1) hzero]

/-- A point that resets leaves the update of the zero block by the point's blocks. -/
theorem out_A (c : Dev nD) (i : grid7.Coords) (a2 : Memref sig .tc .vmem S1x160x9216 .f32) (h2 : a2.IsWhole)
    (a3 : Memref sig .tc .vmem S1x1x9216 .f32) (h3 : a3.IsWhole) (a4 : Memref sig .tc .vmem S1x160x1 .f32) (h4 : a4.IsWhole)
    (hc : cond7_0 i) (x0 : Vec F S1x160x9216 .f32) (x1 : Vec F S1x1x9216 .f32) :
    out7_A_2 c i a2 h2 a3 h3 a4 h4 hc x0 x1 = k7_pay2 x0 x1 k7_pay1 := by
  unfold out7_A_2
  rw [View.read_writes_eq_canon _ _ _ (cover7_A_2 c i a2 h2 a3 h3 a4 h4 hc x0 x1)]
  unfold kernelRun7_A
  dsimp only
  sl_unfold_words
  rw [View.canon_cons_unit_zero (S := S1x160x1) hzero, View.readCov_unit_zero (S := S1x160x1) _ hzero]
  simp only [View.readAt_eq_ld, h2.read_unread, h3.read_unread,
    View.ld_unit_zero (S := S1x160x9216) hzero, View.ld_unit_zero (S := S1x1x9216) hzero]
end Pieces

section Payload

/-- The reduced axis put back: the index of row `d`, column `j`. -/
theorem lift_row (d : Fin 160) (j : Fin 9216) :
    reduces_S160x9216_S160.lift (ix1 d) j = (ix2 d j : S160x9216.Idx) := by
  funext a
  match a with
  | ⟨0, _⟩ => exact Fin.ext rfl
  | ⟨1, _⟩ => exact Fin.ext rfl

/-- A row's sum over the lanes, written at the block's own coordinates. -/
theorem laneSum_apply (v8 : FVec Ideal S160x9216 .f32) (hacc : (0x00000000#32 : BitVec 32) = 0x00000000#32) (d : Fin 160) :
    multiReduction (F := Ideal) .add [1] S160 v8 0x00000000#32 reduces_S160x9216_S160 (.inl rfl) hacc (ix1 d)
      = ∑ j : Fin 9216, v8 (ix2 d j) := by
  refine (Ideal.multiReduction_add_single v8 0x00000000#32 reduces_S160x9216_S160 (.inl rfl) hacc (ix1 d)).trans ?_
  exact Finset.sum_congr rfl fun j _ => congrArg v8 (lift_row d j)

/-- The update read at row `d`: the running value there plus the row's products summed over the block's columns. -/
theorem update_apply (v3 : Vec Ideal S1x160x9216 .f32) (v5 : Vec Ideal S1x1x9216 .f32) (v11 : Vec Ideal S1x160x1 .f32) (d : Fin 160) :
    k7_pay2 (F := Ideal) v3 v5 v11 (ix3 (0 : Fin 1) d (0 : Fin 1))
      = v11 (ix3 (0 : Fin 1) d (0 : Fin 1)) + ∑ j : Fin 9216, v3 (ix3 (0 : Fin 1) d j) * v5 (ix3 (0 : Fin 1) (0 : Fin 1) j) := by
  unfold k7_pay2
  dsimp only
  refine (shapeCast_ab_1ab_apply _ shapeCasts_S160x1_S1x160x1 (0 : Fin 1) d (0 : Fin 1)).trans ?_
  refine (addf_apply _ _ _).trans ?_
  refine congrArg₂ (· + ·) ?_ ?_
  · exact shapeCast_1ab_ab_apply v11 shapeCasts_S1x160x1_S160x1 d (0 : Fin 1)
  · refine (shapeCast_apply _ shapeCasts_S160_S160x1 (ix2 d (0 : Fin 1)) (ix1 d) ?_).trans ?_
    · rw [Shape.rowMajor_val_two, Shape.rowMajor_val_one]
      show d.val = d.val * 1 + 0
      omega
    refine (laneSum_apply _ rfl d).trans ?_
    refine Finset.sum_congr rfl fun j _ => ?_
    refine (mulf_apply _ _ _).trans ?_
    refine congrArg₂ (· * ·) ?_ ?_
    · exact shapeCast_1ab_ab_apply v3 shapeCasts_S1x160x9216_S160x9216 d j
    · refine (broadcastTo_1b_ab_apply _ broadcasts_S1x9216_S160x9216 d j).trans ?_
      exact shapeCast_1ab_ab_apply v5 shapeCasts_S1x1x9216_S1x9216 (0 : Fin 1) j

/-- The zero block is zero everywhere. -/
theorem zeroBlock_apply (y : S1x160x1.Idx) : k7_pay1 (F := Ideal) y = (0 : EReal) := by
  unfold k7_pay1
  exact Ideal.ofBits_zero_f32

end Payload

section Blocks

/-- The windows' block indices at point `t`: batch `t / 9`, column tile `t % 9` for the two inputs, the output's block fixed along a run. -/
theorem idx_facts : ∀ t : Fin cfg7.N,
    win7_0.index t (0 : Fin 3) = t.val / 9 ∧ win7_0.index t (1 : Fin 3) = 0 ∧ win7_0.index t (2 : Fin 3) = t.val % 9
    ∧ win7_1.index t (0 : Fin 3) = t.val / 9 ∧ win7_1.index t (1 : Fin 3) = 0 ∧ win7_1.index t (2 : Fin 3) = t.val % 9
    ∧ win7_2.index t (0 : Fin 3) = t.val / 9 ∧ win7_2.index t (1 : Fin 3) = 0 ∧ win7_2.index t (2 : Fin 3) = 0 :=
  (by decide +kernel : ∀ t : Fin grid7.N, _)

/-- The data block at point `t`: batch `t / 9`, all rows, columns `9216·(t % 9) …`. -/
theorem xblk_apply (c : Dev nD) (t : Fin cfg7.N) (b : Fin 4) (hb : b.val = t.val / 9) (d : Fin 160) (j : Fin 9216)
    (n : Fin 82944) (hn : n.val = 9216 * (t.val % 9) + j.val) :
    (iblk7 V c 0 t : Vec Ideal S1x160x9216 .f32) (ix3 (0 : Fin 1) d j) = (V c main_v0 : Vec Ideal S4x160x82944 .f32) (ix3 b d n) := by
  obtain ⟨e0, e1, e2, -⟩ := idx_facts t
  unfold iblk7
  rw [View.read_apply]
  show V c main_v0 _ = V c main_v0 _
  congr 1
  funext a
  apply Fin.ext
  match a with
  | ⟨0, _⟩ => show win7_0.index t (0 : Fin 3) * 1 + 1 * 0 = b.val; omega
  | ⟨1, _⟩ => show win7_0.index t (1 : Fin 3) * 160 + 1 * d.val = d.val; omega
  | ⟨2, _⟩ => show win7_0.index t (2 : Fin 3) * 9216 + 1 * j.val = n.val; omega

/-- The coefficient block at point `t`: batch `t / 9`, columns `9216·(t % 9) …`. -/
theorem cblk_apply (c : Dev nD) (t : Fin cfg7.N) (b : Fin 4) (hb : b.val = t.val / 9) (j : Fin 9216)
    (n : Fin 82944) (hn : n.val = 9216 * (t.val % 9) + j.val) :
    (iblk7 V c 1 t : Vec Ideal S1x1x9216 .f32) (ix3 (0 : Fin 1) (0 : Fin 1) j) = (V c main_v71 : Vec Ideal S4x1x82944 .f32) (ix3 b (0 : Fin 1) n) := by
  obtain ⟨-, -, -, e0, e1, e2, -⟩ := idx_facts t
  unfold iblk7
  rw [View.read_apply]
  show V c main_v71 _ = V c main_v71 _
  congr 1
  funext a
  apply Fin.ext
  match a with
  | ⟨0, _⟩ => show win7_1.index t (0 : Fin 3) * 1 + 1 * 0 = b.val; omega
  | ⟨1, _⟩ => show win7_1.index t (1 : Fin 3) * 1 + 1 * 0 = 0; omega
  | ⟨2, _⟩ => show win7_1.index t (2 : Fin 3) * 9216 + 1 * j.val = n.val; omega

end Blocks

section Fold

/-- One product of the contraction over the columns, at a natural column number (zero past the last column). -/
def term (x : FVec Ideal SX .f32) (cc : FVec Ideal SC .f32) (b : Fin 4) (d : Fin 160) (n : ℕ) : EReal :=
  if h : n < 82944 then x (ix3 b d ⟨n, h⟩) * cc (ix3 b (0 : Fin 1) ⟨n, h⟩) else 0

/-- The contraction over the columns is the sum of the products over the first 82944 naturals. -/
theorem numB_apply (x : FVec Ideal SX .f32) (cc : FVec Ideal SC .f32) (b : Fin 4) (d : Fin 160) :
    numB x cc (ix3 b d (0 : Fin 1)) = ∑ n ∈ Finset.range 82944, term x cc b d n := by
  rw [Finset.sum_range]
  show ∑ n : Fin 82944, x (ix3 b d n) * cc (ix3 b (0 : Fin 1) n) = _
  refine Finset.sum_congr rfl fun n _ => ?_
  unfold term
  rw [dif_pos n.isLt]

/-- The data block at point `t`, at its literal type. -/
abbrev xblk (c : Dev nD) (t : Fin cfg7.N) : Vec Ideal S1x160x9216 .f32 := iblk7 V c 0 t
/-- The coefficient block at point `t`, at its literal type. -/
abbrev cblk (c : Dev nD) (t : Fin cfg7.N) : Vec Ideal S1x1x9216 .f32 := iblk7 V c 1 t

/-- What point `n` adds to row `y` of the output block: the products over the point's 9216 columns, summed. -/
def addend (c : Dev nD) (n : ℕ) (y : S1x160x1.Idx) : EReal :=
  if h : n < cfg7.N then
    ∑ j : Fin 9216, xblk V c ⟨n, h⟩ (ix3 (0 : Fin 1) (y 1 : Fin 160) j) * cblk V c ⟨n, h⟩ (ix3 (0 : Fin 1) (0 : Fin 1) j)
  else 0

/-- What a resetting point leaves. -/
abbrev resetAt (c : Dev nD) (n : ℕ) (h : n < cfg7.N) : Vec Ideal S1x160x1 .f32 :=
  k7_pay2 (F := Ideal) (iblk7 V c 0 ⟨n, h⟩) (iblk7 V c 1 ⟨n, h⟩) (k7_pay1 (F := Ideal))

/-- What an accumulating point leaves over `acc`. -/
abbrev stepAt (c : Dev nD) (n : ℕ) (h : n < cfg7.N) (acc : Vec Ideal S1x160x1 .f32) : Vec Ideal S1x160x1 .f32 :=
  k7_pay2 (F := Ideal) (iblk7 V c 0 ⟨n, h⟩) (iblk7 V c 1 ⟨n, h⟩) acc

theorem outsAt_reset (c : Dev nD) (n : ℕ) (h : n < cfg7.N) (h0 : n % 9 = 0) : outsAt7 V c n h = resetAt V c n h :=
  (outsAt7_A V c ⟨n, h⟩ h0).trans
    (out_A c (grid7.coords ⟨n, h⟩) (ms7_0 ⟨n, h⟩) (hs7_0 ⟨n, h⟩) (ms7_1 ⟨n, h⟩) (hs7_1 ⟨n, h⟩) (ms7_2 ⟨n, h⟩) (hs7_2 ⟨n, h⟩)
      ((hcond7_0 ⟨n, h⟩).mpr h0) (iblk7 V c 0 ⟨n, h⟩) (iblk7 V c 1 ⟨n, h⟩))

theorem outsAt_step (c : Dev nD) (n : ℕ) (h : n + 1 < cfg7.N) (h0 : ¬(n + 1) % 9 = 0) :
    outsAt7 V c (n + 1) h = stepAt V c (n + 1) h (outsAt7 V c n (Nat.lt_of_succ_lt h)) :=
  (outsAt7_B V c ⟨n + 1, h⟩ h0).trans
    (out_B c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩)
      (fun hh => h0 ((hcond7_0 ⟨n + 1, h⟩).mp hh)) (iblk7 V c 0 ⟨n + 1, h⟩) (iblk7 V c 1 ⟨n + 1, h⟩) (outsAt7 V c n (Nat.lt_of_succ_lt h)))

/-- An accumulating point adds its addend at every row. -/
theorem step_apply (c : Dev nD) (n : ℕ) (h : n < cfg7.N) (acc : Vec Ideal S1x160x1 .f32) (y : S1x160x1.Idx) :
    stepAt V c n h acc y = (acc y : EReal) + addend V c n y := by
  obtain ⟨u, d, v, rfl⟩ : ∃ (u : Fin 1) (d : Fin 160) (v : Fin 1), y = ix3 u d v := ⟨y 0, y 1, y 2, eq_ix3 y⟩
  obtain rfl : u = 0 := Subsingleton.elim _ _
  obtain rfl : v = 0 := Subsingleton.elim _ _
  unfold addend
  rw [dif_pos h]
  exact update_apply (iblk7 V c 0 ⟨n, h⟩) (iblk7 V c 1 ⟨n, h⟩) acc d

/-- A resetting point leaves zero plus its addend. -/
theorem reset_apply (c : Dev nD) (n : ℕ) (h : n < cfg7.N) (y : S1x160x1.Idx) :
    resetAt V c n h y = (0 : EReal) + addend V c n y :=
  (step_apply V c n h (k7_pay1 (F := Ideal)) y).trans (congrArg (· + addend V c n y) (zeroBlock_apply y))

/-- After point `t` the output block holds the sum of the addends of its run's points up to `t`. -/
theorem outsAt_fold (c : Dev nD) (t : ℕ) (ht : t < cfg7.N) (y : S1x160x1.Idx) :
    (outsAt7 V c t ht y : EReal) = 0 + ∑ s ∈ Finset.range (t % 9 + 1), addend V c (9 * (t / 9) + s) y := by
  have h' : 9 * (t / 9) + t % 9 < cfg7.N := by rw [Nat.div_add_mod]; exact ht
  rw [Pipeline.eq_accAt_of_mod (outsAt7 V c) 9 (resetAt V c) (stepAt V c) (fun n h h0 => outsAt_reset V c n h h0)
    (fun n h h0 => outsAt_step V c n h h0) (by norm_num) t ht h']
  exact Pipeline.accAt_add_apply (β := EReal) (resetAt V c) (stepAt V c) (fun _ => 0) (addend V c) (9 * (t / 9)) 8
    (fun h i => reset_apply V c _ h i) (fun n h acc i _ _ => step_apply V c n h acc i) (t % 9) (by omega) h' y

end Fold

section Array

/-- The addend of point `9·b + s` is tile `s` of batch `b`'s products. -/
theorem addend_eq (c : Dev nD) (b : Fin 4) (s : ℕ) (hs : s < 9) (d : Fin 160) (u v : Fin 1) :
    addend V c (9 * b.val + s) (ix3 u d v)
      = ∑ j ∈ Finset.range 9216, term (V c main_v0) (V c main_v71) b d (9216 * s + j) := by
  have hN : cfg7.N = 36 := N_7
  have hb : b.val < 4 := b.isLt
  have h : 9 * b.val + s < cfg7.N := by rw [hN]; omega
  unfold addend
  rw [dif_pos h, Finset.sum_range]
  refine Finset.sum_congr rfl fun j _ => ?_
  have hj : j.val < 9216 := j.isLt
  have hlt : 9216 * s + j.val < 82944 := by omega
  unfold term
  rw [dif_pos hlt]
  exact congrArg₂ (· * ·)
    (xblk_apply V c ⟨9 * b.val + s, h⟩ b (by dsimp only; omega) d j ⟨9216 * s + j.val, hlt⟩ (by dsimp only; omega))
    (cblk_apply V c ⟨9 * b.val + s, h⟩ b (by dsimp only; omega) j ⟨9216 * s + j.val, hlt⟩ (by dsimp only; omega))

/-- After the last point of batch `b`'s run the output block holds the whole contraction over the columns. -/
theorem outsAt_last (c : Dev nD) (t : Fin cfg7.N) (h8 : t.val % 9 = 8) (b : Fin 4) (hb : b.val = t.val / 9) (d : Fin 160)
    (u v : Fin 1) :
    (outsAt7 V c t.val t.isLt (ix3 u d v) : EReal) = numB (V c main_v0) (V c main_v71) (ix3 b d (0 : Fin 1)) := by
  rw [outsAt_fold V c t.val t.isLt, h8, zero_add, numB_apply, ← hb]
  exact (Finset.sum_congr rfl fun s hs => addend_eq V c b s (Finset.mem_range.mp hs) d u v).trans
    (sum_tiles 9216 (term (V c main_v0) (V c main_v71) b d) 9)

/-- What a flushing point writes back is its block of the contraction. -/
theorem flushed_eq (c : Dev nD) (t : Fin cfg7.N) (hf : (cfg7.win 2).flush t = true) :
    (dat7 V c).flushed 2 t = ((cfg7.win 2).blk t).view.read (Elt Ideal) (numB (V c main_v0) (V c main_v71)) := by
  have h8 : t.val % 9 = 8 := (flush7_2 t).mp hf
  have hN : t.val < 36 := lt_of_lt_of_eq t.isLt N_7
  obtain ⟨-, -, -, -, -, -, e0, e1, e2⟩ := idx_facts t
  show (cfg7.win 2).cut (grid7.coords t) ((dat7 V c).after 2 t) = _
  rw [after7_2]
  funext y
  obtain ⟨u, d, v, rfl⟩ : ∃ (u : Fin 1) (d : Fin 160) (v : Fin 1), y = ix3 u d v := ⟨y 0, y 1, y 2, eq_ix3 y⟩
  rw [View.read_apply]
  refine (outsAt_last V c t h8 ⟨t.val / 9, by omega⟩ rfl d u v).trans ?_
  refine Eq.trans ?_ (cast_eq _ _).symm
  refine congrArg (numB (V c main_v0) (V c main_v71)) (funext fun a => Fin.ext ?_)
  have hu : u.val < 1 := u.isLt
  have hv : v.val < 1 := v.isLt
  match a with
  | ⟨0, _⟩ => show t.val / 9 = win7_2.index t (0 : Fin 3) * 1 + 1 * u.val; omega
  | ⟨1, _⟩ => show d.val = win7_2.index t (1 : Fin 3) * 160 + 1 * d.val; omega
  | ⟨2, _⟩ => show 0 = win7_2.index t (2 : Fin 3) * 1 + 1 * v.val; omega

/-- Every entry of the output array is in the block the last point of its batch's run writes back. -/
theorem cover (c : Dev nD) (i : ((cfg7.win 2).arr.view.loc (c.tc : Thread nD τ)).2.ty.Idx) :
    ∃ t : Fin cfg7.N, (cfg7.win 2).flush t = true ∧ i ∈ ((cfg7.win 2).blk t).view.set := by
  have h0 : (i 0 : ℕ) < 4 := (i 0).isLt
  have h1 : (i 1 : ℕ) < 160 := (i 1).isLt
  have h2 : (i 2 : ℕ) < 1 := (i 2).isLt
  have hN : cfg7.N = 36 := N_7
  have ht : 9 * (i 0 : ℕ) + 8 < cfg7.N := by rw [hN]; omega
  refine ⟨⟨9 * (i 0 : ℕ) + 8, ht⟩, (flush7_2 _).mpr (by dsimp only; omega), ?_⟩
  obtain ⟨-, -, -, -, -, -, e0, e1, e2⟩ := idx_facts ⟨9 * (i 0 : ℕ) + 8, ht⟩
  dsimp only at e0
  show i ∈ ((View.whole main_v72).slice (win7_2.rect ⟨9 * (i 0 : ℕ) + 8, ht⟩)).set
  rw [View.set_slice_whole, Rect.mem_set_unit]
  intro a
  match a with
  | ⟨0, _⟩ =>
    show win7_2.index ⟨9 * (i 0 : ℕ) + 8, ht⟩ (0 : Fin 3) * 1 ≤ (i 0 : ℕ) ∧ (i 0 : ℕ) < win7_2.index ⟨9 * (i 0 : ℕ) + 8, ht⟩ (0 : Fin 3) * 1 + 1
    omega
  | ⟨1, _⟩ =>
    show win7_2.index ⟨9 * (i 0 : ℕ) + 8, ht⟩ (1 : Fin 3) * 160 ≤ (i 1 : ℕ) ∧ (i 1 : ℕ) < win7_2.index ⟨9 * (i 0 : ℕ) + 8, ht⟩ (1 : Fin 3) * 160 + 160
    omega
  | ⟨2, _⟩ =>
    show win7_2.index ⟨9 * (i 0 : ℕ) + 8, ht⟩ (2 : Fin 3) * 1 ≤ (i 2 : ℕ) ∧ (i 2 : ℕ) < win7_2.index ⟨9 * (i 0 : ℕ) + 8, ht⟩ (2 : Fin 3) * 1 + 1
    omega

end Array

theorem arr (c : Dev nD) : (dat7 (F := Ideal) V c).arrAt 2 cfg7.N = numB (V c main_v0) (V c main_v71) :=
  (dat7 V c).arrAt_eq_of_cover 2 (numB (V c main_v0) (V c main_v71)) (flushed_eq V c) (cover c)

end Cert.KernelIdeal.RegN7

end
-- ==== Proof.KRegO9.lean ====
import proofs.«150630_j3693671875223_1_alg».proof.Proof.Gen.KernelIdeal.Frame
import proofs.«150630_j3693671875223_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegO9
open Cert.KernelIdeal Cert.KernelIdeal.Gen Cert.Nmf

variable (V : (c : Dev nD) → (b : Ref sig .tc) → Buf (Elt Ideal) ((c : Thread nD τ).loc b))

open Idealize.ShloMosaic.ValueIdx

/-- The body's payload at an index: the base's entry of the row times the coefficient's entry of the column. -/
theorem pay_apply (x0 : Vec Ideal S1x160x1 .f32) (x1 : Vec Ideal S1x1x9216 .f32) (d : Fin 160) (j : Fin 9216) :
    k9_pay1 (F := Ideal) x0 x1 (ix3 (0 : Fin 1) d j)
      = x0 (ix3 (0 : Fin 1) d (0 : Fin 1)) * x1 (ix3 (0 : Fin 1) (0 : Fin 1) j) := by
  unfold k9_pay1
  rw [shapeCast_apply _ _ _ (ix2 d j) (by
    rw [Shape.rowMajor_val_two, Shape.rowMajor_val_three]
    show d.val * 9216 + j.val = ((0 : Nat) * 160 + d.val) * 9216 + j.val
    omega)]
  rw [mulf_apply]
  rw [broadcastTo_apply _ _ _ (ix2 d (0 : Fin 1)) (by
    intro a
    match a with
    | ⟨0, _⟩ => rfl
    | ⟨1, _⟩ => rfl)]
  rw [broadcastTo_apply _ _ _ (ix2 (0 : Fin 1) j) (by
    intro a
    match a with
    | ⟨0, _⟩ => rfl
    | ⟨1, _⟩ => rfl)]
  rw [shapeCast_apply _ _ _ (ix3 (0 : Fin 1) d (0 : Fin 1)) (by
    rw [Shape.rowMajor_val_two, Shape.rowMajor_val_three]
    show ((0 : Nat) * 160 + d.val) * 1 + 0 = d.val * 1 + 0
    omega)]
  rw [shapeCast_apply _ _ _ (ix3 (0 : Fin 1) (0 : Fin 1) j) (by
    rw [Shape.rowMajor_val_two, Shape.rowMajor_val_three]
    show ((0 : Nat) * 1 + 0) * 9216 + j.val = 0 * 9216 + j.val
    omega)]

/-- The same at any index of the block: its leading coordinate is 0. -/
theorem pay_at (x0 : Vec Ideal S1x160x1 .f32) (x1 : Vec Ideal S1x1x9216 .f32) (j : S1x160x9216.Idx) :
    k9_pay1 (F := Ideal) x0 x1 j
      = x0 (ix3 (0 : Fin 1) (j 1 : Fin 160) (0 : Fin 1)) * x1 (ix3 (0 : Fin 1) (0 : Fin 1) (j 2 : Fin 9216)) := by
  obtain ⟨z, d, n, rfl⟩ : ∃ (z : Fin 1) (d : Fin 160) (n : Fin 9216), j = ix3 z d n := ⟨j 0, j 1, j 2, eq_ix3 j⟩
  have hz : z = 0 := Fin.ext (by have := z.isLt; omega)
  subst hz
  exact pay_apply x0 x1 d n

theorem off_zero : (![0, 0, 0] : Fin 3 → Nat) = fun _ => 0 := funext fun a => by fin_cases a <;> rfl

/-- The printed index maps over the grid: the bases' block is (b,0,0), the coefficients' and the result's (b,0,s),
    at point 9·b + s. -/
theorem idx_facts : ∀ t : Fin cfg9.N,
    win9_0.index t (0 : Fin 3) = win9_2.index t (0 : Fin 3) ∧ win9_0.index t (1 : Fin 3) = 0 ∧ win9_0.index t (2 : Fin 3) = 0
    ∧ win9_1.index t (0 : Fin 3) = win9_2.index t (0 : Fin 3) ∧ win9_1.index t (1 : Fin 3) = 0
    ∧ win9_1.index t (2 : Fin 3) = win9_2.index t (2 : Fin 3)
    ∧ win9_2.index t (0 : Fin 3) = t.val / 9 ∧ win9_2.index t (1 : Fin 3) = 0 ∧ win9_2.index t (2 : Fin 3) = t.val % 9 :=
  (by decide +kernel : ∀ t : Fin grid9.N, _)

/-- Reading the two input blocks of point `t` where an index `j` of its output block says is reading the bases and
    the coefficients at the array index `j` stands for: the rank-one product there. -/
theorem blocks_at (w : FVec Ideal SW .f32) (cc : FVec Ideal SC .f32) (t : Fin cfg9.N) (j : S1x160x9216.Idx) :
    w (((cfg9.win 0).blk t).view.emb (ix3 (0 : Fin 1) (j 1 : Fin 160) (0 : Fin 1)))
        * cc (((cfg9.win 1).blk t).view.emb (ix3 (0 : Fin 1) (0 : Fin 1) (j 2 : Fin 9216)))
      = outer w cc (((cfg9.win 2).blk t).view.emb j) := by
  obtain ⟨e00, e01, e02, e10, e11, e12, e20, e21, e22⟩ := idx_facts t
  have hj0 : (j 0).val < 1 := (j 0).isLt
  have h0 : ((cfg9.win 0).blk t).view.emb (ix3 (0 : Fin 1) (j 1 : Fin 160) (0 : Fin 1))
      = ix3 ((((cfg9.win 2).blk t).view.emb j) 0 : Fin 4) ((((cfg9.win 2).blk t).view.emb j) 1 : Fin 160) (0 : Fin 1) := by
    funext a; apply Fin.ext
    match a with
    | ⟨0, _⟩ => show win9_0.index t (0 : Fin 3) * 1 + 1 * 0 = win9_2.index t (0 : Fin 3) * 1 + 1 * (j 0).val; omega
    | ⟨1, _⟩ => show win9_0.index t (1 : Fin 3) * 160 + 1 * (j 1).val = win9_2.index t (1 : Fin 3) * 160 + 1 * (j 1).val; omega
    | ⟨2, _⟩ => show win9_0.index t (2 : Fin 3) * 1 + 1 * 0 = 0; omega
  have h1 : ((cfg9.win 1).blk t).view.emb (ix3 (0 : Fin 1) (0 : Fin 1) (j 2 : Fin 9216))
      = ix3 ((((cfg9.win 2).blk t).view.emb j) 0 : Fin 4) (0 : Fin 1) ((((cfg9.win 2).blk t).view.emb j) 2 : Fin 82944) := by
    funext a; apply Fin.ext
    match a with
    | ⟨0, _⟩ => show win9_1.index t (0 : Fin 3) * 1 + 1 * 0 = win9_2.index t (0 : Fin 3) * 1 + 1 * (j 0).val; omega
    | ⟨1, _⟩ => show win9_1.index t (1 : Fin 3) * 1 + 1 * 0 = 0; omega
    | ⟨2, _⟩ => show win9_1.index t (2 : Fin 3) * 9216 + 1 * (j 2).val = win9_2.index t (2 : Fin 3) * 9216 + 1 * (j 2).val; omega
  rw [h0, h1]
  rfl

/-- What point `t` writes back is block `t` of the rank-one product of the bases and the coefficients. -/
theorem flushed_eq (c : Dev nD) (t : Fin cfg9.N) :
    (dat9 (F := Ideal) V c).flushed 2 t
      = ((cfg9.win 2).blk t).view.read (Elt Ideal) (outer (V c main_v81) (V c main_v91)) := by
  show (cfg9.win 2).cut (grid9.coords t) ((dat9 V c).after 2 t) = _
  rw [after9_2]
  unfold out9_2
  rw [View.canon_unit_zero off_zero]
  simp only [View.ld_unit_zero (S := S1x160x1) off_zero, View.ld_unit_zero (S := S1x1x9216) off_zero]
  funext j
  refine (pay_at (iblk9 V c 0 t) (iblk9 V c 1 t) j).trans ?_
  exact blocks_at (V c main_v81) (V c main_v91) t j

/-- An index of the array is in point `t`'s block iff each coordinate is in the block's range on its axis. -/
theorem mem_blk (t : Fin cfg9.N) (i : S4x160x82944.Idx) :
    i ∈ ((cfg9.win 2).blk t).view.set ↔ ∀ a : Fin 3, win9_2.index t a * S1x160x9216.size a ≤ (i a).val
      ∧ (i a).val < win9_2.index t a * S1x160x9216.size a + S1x160x9216.size a := by
  show i ∈ ((View.whole main_v92).slice (win9_2.rect t)).set ↔ _
  rw [View.set_slice_whole, Rect.mem_set_unit]
  exact Iff.rfl

/-- Every index (b, d, n) of the array is in the block of point 9·b + n / 9216, which is written back. -/
theorem cover (i : S4x160x82944.Idx) :
    ∃ t : Fin cfg9.N, (cfg9.win 2).flush t = true ∧ i ∈ ((cfg9.win 2).blk t).view.set := by
  have hi0 : (i 0).val < 4 := (i 0).isLt
  have hi1 : (i 1).val < 160 := (i 1).isLt
  have hi2 : (i 2).val < 82944 := (i 2).isLt
  have hN : 9 * (i 0).val + (i 2).val / 9216 < cfg9.N := by
    show _ < grid9.N
    rw [N_9]
    omega
  obtain ⟨t, ht⟩ : ∃ t : Fin cfg9.N, t.val = 9 * (i 0).val + (i 2).val / 9216 := ⟨⟨_, hN⟩, rfl⟩
  obtain ⟨-, -, -, -, -, -, e20, e21, e22⟩ := idx_facts t
  refine ⟨t, flush9_2 t, ?_⟩
  rw [mem_blk]
  intro a
  match a with
  | ⟨0, _⟩ =>
    show win9_2.index t (0 : Fin 3) * 1 ≤ (i 0).val ∧ (i 0).val < win9_2.index t (0 : Fin 3) * 1 + 1
    omega
  | ⟨1, _⟩ =>
    show win9_2.index t (1 : Fin 3) * 160 ≤ (i 1).val ∧ (i 1).val < win9_2.index t (1 : Fin 3) * 160 + 160
    omega
  | ⟨2, _⟩ =>
    show win9_2.index t (2 : Fin 3) * 9216 ≤ (i 2).val ∧ (i 2).val < win9_2.index t (2 : Fin 3) * 9216 + 9216
    omega

/-- After the region the output array holds the rank-one product of the bases and the coefficients. -/
theorem arr (c : Dev nD) : (dat9 (F := Ideal) V c).arrAt 2 cfg9.N = outer (V c main_v81) (V c main_v91) :=
  (dat9 V c).arrAt_eq_of_cover 2 (outer (V c main_v81) (V c main_v91)) (fun t _ => flushed_eq V c t) cover

end Cert.KernelIdeal.RegO9

end
-- ==== Proof.KChain.lean ====
/-
  The idealized kernel program's buffers, boundary by boundary.

  The program is ten kernel regions among eleven stretches of host operations.  Between two boundaries either a
  stretch of host operations runs (the buffer it writes last holds the operations' term of what they read, every other
  buffer of interest is kept) or a region runs (its output array holds the region's sum or product of its two input
  arrays, its input arrays and every other buffer are kept).  Reading the buffers that matter at every boundary gives
  the rounds of the specification one after the other: the coefficients c₁ … c₅ and the bases w₁ … w₄, and at the
  end the rank-one product, read back in the result's shape.
-/
import proofs.«150630_j3693671875223_1_alg».proof.Proof.Gen.KernelIdeal.Frame
import proofs.«150630_j3693671875223_1_alg».proof.Proof.Spec
import proofs.«150630_j3693671875223_1_alg».proof.Proof.SpecEqs
import proofs.«150630_j3693671875223_1_alg».proof.Proof.KHost
import proofs.«150630_j3693671875223_1_alg».proof.Proof.KRegD0
import proofs.«150630_j3693671875223_1_alg».proof.Proof.KRegD2
import proofs.«150630_j3693671875223_1_alg».proof.Proof.KRegD4
import proofs.«150630_j3693671875223_1_alg».proof.Proof.KRegD6
import proofs.«150630_j3693671875223_1_alg».proof.Proof.KRegD8
import proofs.«150630_j3693671875223_1_alg».proof.Proof.KRegN1
import proofs.«150630_j3693671875223_1_alg».proof.Proof.KRegN3
import proofs.«150630_j3693671875223_1_alg».proof.Proof.KRegN5
import proofs.«150630_j3693671875223_1_alg».proof.Proof.KRegN7
import proofs.«150630_j3693671875223_1_alg».proof.Proof.KRegO9
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Chain
open Cert.KernelIdeal Cert.KernelIdeal.Gen Cert.Nmf Cert.KernelIdeal.HostVal

/-- A buffer that no operation of a host stretch writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg)

/-- The data argument read row-major as [4,160,82944], and the bases argument. -/
abbrev xs (c : Dev nD) : FVec Ideal SX .f32 :=
  shapeCast S4x160x82944 (m ((c : Thread nD τ).loc main_arg0)) shapeCasts_S4x16x160x72x72_S4x160x82944
abbrev ws (c : Dev nD) : FVec Ideal SW .f32 := m ((c : Thread nD τ).loc main_arg1)

theorem b1_main_v0 (c : Dev nD) : W1 m ρ c (Proc.devRef .tc main_v0) = (xs m c) := by
  show StableHlo.after hostOps0 (W0 m ρ c) (Proc.devRef .tc main_v0) = _
  after_results <;> rfl

theorem b1_main_v1 (c : Dev nD) : W1 m ρ c (Proc.devRef .tc main_v1) = ones := by
  refine Eq.trans ?_ ones_eq
  show StableHlo.after hostOps0 (W0 m ρ c) (Proc.devRef .tc main_v1) = _
  after_results <;> rfl

theorem b1_main_arg1 (c : Dev nD) : W1 m ρ c (Proc.devRef .tc main_arg1) = (ws m c) := by
  show StableHlo.after hostOps0 (W0 m ρ c) (Proc.devRef .tc main_arg1) = _
  host_keeps hostOps0

theorem b2_main_v2 (c : Dev nD) : W2 m ρ c (Proc.devRef .tc main_v2) = (numC (xs m c) (ws m c)) := by
  have h := (W2_arr m ρ c 2).trans (RegD0.arr (V1 m ρ) c)
  rw [show V1 m ρ c main_v0 = (xs m c) from b1_main_v0 m ρ c, show V1 m ρ c main_arg1 = (ws m c) from b1_main_arg1 m ρ c] at h
  exact h

theorem b2_main_v0 (c : Dev nD) : W2 m ρ c (Proc.devRef .tc main_v0) = (xs m c) := by
  exact ((W2_arr m ρ c 0).trans (((dat0 (V1 m ρ) c).arrAt_in 0 rfl _).trans (A_eq0 (V1 m ρ) c 0))).trans (b1_main_v0 m ρ c)

theorem b2_main_v1 (c : Dev nD) : W2 m ρ c (Proc.devRef .tc main_v1) = ones := by
  exact (W2_of_ne m ρ c main_v1 (by decide)).trans (b1_main_v1 m ρ c)

theorem b2_main_arg1 (c : Dev nD) : W2 m ρ c (Proc.devRef .tc main_arg1) = (ws m c) := by
  exact ((W2_arr m ρ c 1).trans (((dat0 (V1 m ρ) c).arrAt_in 1 rfl _).trans (A_eq0 (V1 m ρ) c 1))).trans (b1_main_arg1 m ρ c)

set_option maxHeartbeats 4000000 in
theorem b3_main_v11 (c : Dev nD) : W3 m ρ c (Proc.devRef .tc main_v11) = (c1 (xs m c) (ws m c)) := by
  have h : W3 m ρ c (Proc.devRef .tc main_v11) = termC (W2 m ρ c (Proc.devRef .tc main_v1)) (W2 m ρ c (Proc.devRef .tc main_v2)) (W2 m ρ c (Proc.devRef .tc main_arg1)) := by
    show StableHlo.after hostOps1 (W2 m ρ c) (Proc.devRef .tc main_v11) = _
    after_results <;> rfl
  rw [h, b2_main_v1, b2_main_v2, b2_main_arg1, termC_eq, c1_eq]

theorem b3_main_v0 (c : Dev nD) : W3 m ρ c (Proc.devRef .tc main_v0) = (xs m c) := by
  refine Eq.trans ?_ (b2_main_v0 m ρ c)
  show StableHlo.after hostOps1 (W2 m ρ c) (Proc.devRef .tc main_v0) = _
  host_keeps hostOps1

theorem b3_main_arg1 (c : Dev nD) : W3 m ρ c (Proc.devRef .tc main_arg1) = (ws m c) := by
  refine Eq.trans ?_ (b2_main_arg1 m ρ c)
  show StableHlo.after hostOps1 (W2 m ρ c) (Proc.devRef .tc main_arg1) = _
  host_keeps hostOps1

theorem b4_main_v12 (c : Dev nD) : W4 m ρ c (Proc.devRef .tc main_v12) = (numB (xs m c) (c1 (xs m c) (ws m c))) := by
  have h := (W4_arr m ρ c 2).trans (RegN1.arr (V3 m ρ) c)
  rw [show V3 m ρ c main_v0 = (xs m c) from b3_main_v0 m ρ c, show V3 m ρ c main_v11 = (c1 (xs m c) (ws m c)) from b3_main_v11 m ρ c] at h
  exact h

theorem b4_main_v0 (c : Dev nD) : W4 m ρ c (Proc.devRef .tc main_v0) = (xs m c) := by
  exact ((W4_arr m ρ c 0).trans (((dat1 (V3 m ρ) c).arrAt_in 0 rfl _).trans (A_eq1 (V3 m ρ) c 0))).trans (b3_main_v0 m ρ c)

theorem b4_main_v11 (c : Dev nD) : W4 m ρ c (Proc.devRef .tc main_v11) = (c1 (xs m c) (ws m c)) := by
  exact ((W4_arr m ρ c 1).trans (((dat1 (V3 m ρ) c).arrAt_in 1 rfl _).trans (A_eq1 (V3 m ρ) c 1))).trans (b3_main_v11 m ρ c)

theorem b4_main_arg1 (c : Dev nD) : W4 m ρ c (Proc.devRef .tc main_arg1) = (ws m c) := by
  exact (W4_of_ne m ρ c main_arg1 (by decide)).trans (b3_main_arg1 m ρ c)

set_option maxHeartbeats 4000000 in
theorem b5_main_v21 (c : Dev nD) : W5 m ρ c (Proc.devRef .tc main_v21) = (w1 (xs m c) (ws m c)) := by
  have h : W5 m ρ c (Proc.devRef .tc main_v21) = termB (W4 m ρ c (Proc.devRef .tc main_arg1)) (W4 m ρ c (Proc.devRef .tc main_v12)) (W4 m ρ c (Proc.devRef .tc main_v11)) := by
    show StableHlo.after hostOps2 (W4 m ρ c) (Proc.devRef .tc main_v21) = _
    after_results <;> rfl
  rw [h, b4_main_arg1, b4_main_v12, b4_main_v11, termB_eq, w1_eq]

theorem b5_main_v0 (c : Dev nD) : W5 m ρ c (Proc.devRef .tc main_v0) = (xs m c) := by
  refine Eq.trans ?_ (b4_main_v0 m ρ c)
  show StableHlo.after hostOps2 (W4 m ρ c) (Proc.devRef .tc main_v0) = _
  host_keeps hostOps2

theorem b5_main_v11 (c : Dev nD) : W5 m ρ c (Proc.devRef .tc main_v11) = (c1 (xs m c) (ws m c)) := by
  refine Eq.trans ?_ (b4_main_v11 m ρ c)
  show StableHlo.after hostOps2 (W4 m ρ c) (Proc.devRef .tc main_v11) = _
  host_keeps hostOps2

theorem b6_main_v22 (c : Dev nD) : W6 m ρ c (Proc.devRef .tc main_v22) = (numC (xs m c) (w1 (xs m c) (ws m c))) := by
  have h := (W6_arr m ρ c 2).trans (RegD2.arr (V5 m ρ) c)
  rw [show V5 m ρ c main_v0 = (xs m c) from b5_main_v0 m ρ c, show V5 m ρ c main_v21 = (w1 (xs m c) (ws m c)) from b5_main_v21 m ρ c] at h
  exact h

theorem b6_main_v0 (c : Dev nD) : W6 m ρ c (Proc.devRef .tc main_v0) = (xs m c) := by
  exact ((W6_arr m ρ c 0).trans (((dat2 (V5 m ρ) c).arrAt_in 0 rfl _).trans (A_eq2 (V5 m ρ) c 0))).trans (b5_main_v0 m ρ c)

theorem b6_main_v11 (c : Dev nD) : W6 m ρ c (Proc.devRef .tc main_v11) = (c1 (xs m c) (ws m c)) := by
  exact (W6_of_ne m ρ c main_v11 (by decide)).trans (b5_main_v11 m ρ c)

theorem b6_main_v21 (c : Dev nD) : W6 m ρ c (Proc.devRef .tc main_v21) = (w1 (xs m c) (ws m c)) := by
  exact ((W6_arr m ρ c 1).trans (((dat2 (V5 m ρ) c).arrAt_in 1 rfl _).trans (A_eq2 (V5 m ρ) c 1))).trans (b5_main_v21 m ρ c)

set_option maxHeartbeats 4000000 in
theorem b7_main_v31 (c : Dev nD) : W7 m ρ c (Proc.devRef .tc main_v31) = (c2 (xs m c) (ws m c)) := by
  have h : W7 m ρ c (Proc.devRef .tc main_v31) = termC (W6 m ρ c (Proc.devRef .tc main_v11)) (W6 m ρ c (Proc.devRef .tc main_v22)) (W6 m ρ c (Proc.devRef .tc main_v21)) := by
    show StableHlo.after hostOps3 (W6 m ρ c) (Proc.devRef .tc main_v31) = _
    after_results <;> rfl
  rw [h, b6_main_v11, b6_main_v22, b6_main_v21, termC_eq, c2_eq]

theorem b7_main_v0 (c : Dev nD) : W7 m ρ c (Proc.devRef .tc main_v0) = (xs m c) := by
  refine Eq.trans ?_ (b6_main_v0 m ρ c)
  show StableHlo.after hostOps3 (W6 m ρ c) (Proc.devRef .tc main_v0) = _
  host_keeps hostOps3

theorem b7_main_v21 (c : Dev nD) : W7 m ρ c (Proc.devRef .tc main_v21) = (w1 (xs m c) (ws m c)) := by
  refine Eq.trans ?_ (b6_main_v21 m ρ c)
  show StableHlo.after hostOps3 (W6 m ρ c) (Proc.devRef .tc main_v21) = _
  host_keeps hostOps3

theorem b8_main_v32 (c : Dev nD) : W8 m ρ c (Proc.devRef .tc main_v32) = (numB (xs m c) (c2 (xs m c) (ws m c))) := by
  have h := (W8_arr m ρ c 2).trans (RegN3.arr (V7 m ρ) c)
  rw [show V7 m ρ c main_v0 = (xs m c) from b7_main_v0 m ρ c, show V7 m ρ c main_v31 = (c2 (xs m c) (ws m c)) from b7_main_v31 m ρ c] at h
  exact h

theorem b8_main_v0 (c : Dev nD) : W8 m ρ c (Proc.devRef .tc main_v0) = (xs m c) := by
  exact ((W8_arr m ρ c 0).trans (((dat3 (V7 m ρ) c).arrAt_in 0 rfl _).trans (A_eq3 (V7 m ρ) c 0))).trans (b7_main_v0 m ρ c)

theorem b8_main_v21 (c : Dev nD) : W8 m ρ c (Proc.devRef .tc main_v21) = (w1 (xs m c) (ws m c)) := by
  exact (W8_of_ne m ρ c main_v21 (by decide)).trans (b7_main_v21 m ρ c)

theorem b8_main_v31 (c : Dev nD) : W8 m ρ c (Proc.devRef .tc main_v31) = (c2 (xs m c) (ws m c)) := by
  exact ((W8_arr m ρ c 1).trans (((dat3 (V7 m ρ) c).arrAt_in 1 rfl _).trans (A_eq3 (V7 m ρ) c 1))).trans (b7_main_v31 m ρ c)

set_option maxHeartbeats 4000000 in
theorem b9_main_v41 (c : Dev nD) : W9 m ρ c (Proc.devRef .tc main_v41) = (w2 (xs m c) (ws m c)) := by
  have h : W9 m ρ c (Proc.devRef .tc main_v41) = termB (W8 m ρ c (Proc.devRef .tc main_v21)) (W8 m ρ c (Proc.devRef .tc main_v32)) (W8 m ρ c (Proc.devRef .tc main_v31)) := by
    show StableHlo.after hostOps4 (W8 m ρ c) (Proc.devRef .tc main_v41) = _
    after_results <;> rfl
  rw [h, b8_main_v21, b8_main_v32, b8_main_v31, termB_eq, w2_eq]

theorem b9_main_v0 (c : Dev nD) : W9 m ρ c (Proc.devRef .tc main_v0) = (xs m c) := by
  refine Eq.trans ?_ (b8_main_v0 m ρ c)
  show StableHlo.after hostOps4 (W8 m ρ c) (Proc.devRef .tc main_v0) = _
  host_keeps hostOps4

theorem b9_main_v31 (c : Dev nD) : W9 m ρ c (Proc.devRef .tc main_v31) = (c2 (xs m c) (ws m c)) := by
  refine Eq.trans ?_ (b8_main_v31 m ρ c)
  show StableHlo.after hostOps4 (W8 m ρ c) (Proc.devRef .tc main_v31) = _
  host_keeps hostOps4

theorem b10_main_v42 (c : Dev nD) : W10 m ρ c (Proc.devRef .tc main_v42) = (numC (xs m c) (w2 (xs m c) (ws m c))) := by
  have h := (W10_arr m ρ c 2).trans (RegD4.arr (V9 m ρ) c)
  rw [show V9 m ρ c main_v0 = (xs m c) from b9_main_v0 m ρ c, show V9 m ρ c main_v41 = (w2 (xs m c) (ws m c)) from b9_main_v41 m ρ c] at h
  exact h

theorem b10_main_v0 (c : Dev nD) : W10 m ρ c (Proc.devRef .tc main_v0) = (xs m c) := by
  exact ((W10_arr m ρ c 0).trans (((dat4 (V9 m ρ) c).arrAt_in 0 rfl _).trans (A_eq4 (V9 m ρ) c 0))).trans (b9_main_v0 m ρ c)

theorem b10_main_v31 (c : Dev nD) : W10 m ρ c (Proc.devRef .tc main_v31) = (c2 (xs m c) (ws m c)) := by
  exact (W10_of_ne m ρ c main_v31 (by decide)).trans (b9_main_v31 m ρ c)

theorem b10_main_v41 (c : Dev nD) : W10 m ρ c (Proc.devRef .tc main_v41) = (w2 (xs m c) (ws m c)) := by
  exact ((W10_arr m ρ c 1).trans (((dat4 (V9 m ρ) c).arrAt_in 1 rfl _).trans (A_eq4 (V9 m ρ) c 1))).trans (b9_main_v41 m ρ c)

set_option maxHeartbeats 4000000 in
theorem b11_main_v51 (c : Dev nD) : W11 m ρ c (Proc.devRef .tc main_v51) = (c3 (xs m c) (ws m c)) := by
  have h : W11 m ρ c (Proc.devRef .tc main_v51) = termC (W10 m ρ c (Proc.devRef .tc main_v31)) (W10 m ρ c (Proc.devRef .tc main_v42)) (W10 m ρ c (Proc.devRef .tc main_v41)) := by
    show StableHlo.after hostOps5 (W10 m ρ c) (Proc.devRef .tc main_v51) = _
    after_results <;> rfl
  rw [h, b10_main_v31, b10_main_v42, b10_main_v41, termC_eq, c3_eq]

theorem b11_main_v0 (c : Dev nD) : W11 m ρ c (Proc.devRef .tc main_v0) = (xs m c) := by
  refine Eq.trans ?_ (b10_main_v0 m ρ c)
  show StableHlo.after hostOps5 (W10 m ρ c) (Proc.devRef .tc main_v0) = _
  host_keeps hostOps5

theorem b11_main_v41 (c : Dev nD) : W11 m ρ c (Proc.devRef .tc main_v41) = (w2 (xs m c) (ws m c)) := by
  refine Eq.trans ?_ (b10_main_v41 m ρ c)
  show StableHlo.after hostOps5 (W10 m ρ c) (Proc.devRef .tc main_v41) = _
  host_keeps hostOps5

theorem b12_main_v52 (c : Dev nD) : W12 m ρ c (Proc.devRef .tc main_v52) = (numB (xs m c) (c3 (xs m c) (ws m c))) := by
  have h := (W12_arr m ρ c 2).trans (RegN5.arr (V11 m ρ) c)
  rw [show V11 m ρ c main_v0 = (xs m c) from b11_main_v0 m ρ c, show V11 m ρ c main_v51 = (c3 (xs m c) (ws m c)) from b11_main_v51 m ρ c] at h
  exact h

theorem b12_main_v0 (c : Dev nD) : W12 m ρ c (Proc.devRef .tc main_v0) = (xs m c) := by
  exact ((W12_arr m ρ c 0).trans (((dat5 (V11 m ρ) c).arrAt_in 0 rfl _).trans (A_eq5 (V11 m ρ) c 0))).trans (b11_main_v0 m ρ c)

theorem b12_main_v41 (c : Dev nD) : W12 m ρ c (Proc.devRef .tc main_v41) = (w2 (xs m c) (ws m c)) := by
  exact (W12_of_ne m ρ c main_v41 (by decide)).trans (b11_main_v41 m ρ c)

theorem b12_main_v51 (c : Dev nD) : W12 m ρ c (Proc.devRef .tc main_v51) = (c3 (xs m c) (ws m c)) := by
  exact ((W12_arr m ρ c 1).trans (((dat5 (V11 m ρ) c).arrAt_in 1 rfl _).trans (A_eq5 (V11 m ρ) c 1))).trans (b11_main_v51 m ρ c)

set_option maxHeartbeats 4000000 in
theorem b13_main_v61 (c : Dev nD) : W13 m ρ c (Proc.devRef .tc main_v61) = (w3 (xs m c) (ws m c)) := by
  have h : W13 m ρ c (Proc.devRef .tc main_v61) = termB (W12 m ρ c (Proc.devRef .tc main_v41)) (W12 m ρ c (Proc.devRef .tc main_v52)) (W12 m ρ c (Proc.devRef .tc main_v51)) := by
    show StableHlo.after hostOps6 (W12 m ρ c) (Proc.devRef .tc main_v61) = _
    after_results <;> rfl
  rw [h, b12_main_v41, b12_main_v52, b12_main_v51, termB_eq, w3_eq]

theorem b13_main_v0 (c : Dev nD) : W13 m ρ c (Proc.devRef .tc main_v0) = (xs m c) := by
  refine Eq.trans ?_ (b12_main_v0 m ρ c)
  show StableHlo.after hostOps6 (W12 m ρ c) (Proc.devRef .tc main_v0) = _
  host_keeps hostOps6

theorem b13_main_v51 (c : Dev nD) : W13 m ρ c (Proc.devRef .tc main_v51) = (c3 (xs m c) (ws m c)) := by
  refine Eq.trans ?_ (b12_main_v51 m ρ c)
  show StableHlo.after hostOps6 (W12 m ρ c) (Proc.devRef .tc main_v51) = _
  host_keeps hostOps6

theorem b14_main_v62 (c : Dev nD) : W14 m ρ c (Proc.devRef .tc main_v62) = (numC (xs m c) (w3 (xs m c) (ws m c))) := by
  have h := (W14_arr m ρ c 2).trans (RegD6.arr (V13 m ρ) c)
  rw [show V13 m ρ c main_v0 = (xs m c) from b13_main_v0 m ρ c, show V13 m ρ c main_v61 = (w3 (xs m c) (ws m c)) from b13_main_v61 m ρ c] at h
  exact h

theorem b14_main_v0 (c : Dev nD) : W14 m ρ c (Proc.devRef .tc main_v0) = (xs m c) := by
  exact ((W14_arr m ρ c 0).trans (((dat6 (V13 m ρ) c).arrAt_in 0 rfl _).trans (A_eq6 (V13 m ρ) c 0))).trans (b13_main_v0 m ρ c)

theorem b14_main_v51 (c : Dev nD) : W14 m ρ c (Proc.devRef .tc main_v51) = (c3 (xs m c) (ws m c)) := by
  exact (W14_of_ne m ρ c main_v51 (by decide)).trans (b13_main_v51 m ρ c)

theorem b14_main_v61 (c : Dev nD) : W14 m ρ c (Proc.devRef .tc main_v61) = (w3 (xs m c) (ws m c)) := by
  exact ((W14_arr m ρ c 1).trans (((dat6 (V13 m ρ) c).arrAt_in 1 rfl _).trans (A_eq6 (V13 m ρ) c 1))).trans (b13_main_v61 m ρ c)

set_option maxHeartbeats 4000000 in
theorem b15_main_v71 (c : Dev nD) : W15 m ρ c (Proc.devRef .tc main_v71) = (c4 (xs m c) (ws m c)) := by
  have h : W15 m ρ c (Proc.devRef .tc main_v71) = termC (W14 m ρ c (Proc.devRef .tc main_v51)) (W14 m ρ c (Proc.devRef .tc main_v62)) (W14 m ρ c (Proc.devRef .tc main_v61)) := by
    show StableHlo.after hostOps7 (W14 m ρ c) (Proc.devRef .tc main_v71) = _
    after_results <;> rfl
  rw [h, b14_main_v51, b14_main_v62, b14_main_v61, termC_eq, c4_eq]

theorem b15_main_v0 (c : Dev nD) : W15 m ρ c (Proc.devRef .tc main_v0) = (xs m c) := by
  refine Eq.trans ?_ (b14_main_v0 m ρ c)
  show StableHlo.after hostOps7 (W14 m ρ c) (Proc.devRef .tc main_v0) = _
  host_keeps hostOps7

theorem b15_main_v61 (c : Dev nD) : W15 m ρ c (Proc.devRef .tc main_v61) = (w3 (xs m c) (ws m c)) := by
  refine Eq.trans ?_ (b14_main_v61 m ρ c)
  show StableHlo.after hostOps7 (W14 m ρ c) (Proc.devRef .tc main_v61) = _
  host_keeps hostOps7

theorem b16_main_v72 (c : Dev nD) : W16 m ρ c (Proc.devRef .tc main_v72) = (numB (xs m c) (c4 (xs m c) (ws m c))) := by
  have h := (W16_arr m ρ c 2).trans (RegN7.arr (V15 m ρ) c)
  rw [show V15 m ρ c main_v0 = (xs m c) from b15_main_v0 m ρ c, show V15 m ρ c main_v71 = (c4 (xs m c) (ws m c)) from b15_main_v71 m ρ c] at h
  exact h

theorem b16_main_v0 (c : Dev nD) : W16 m ρ c (Proc.devRef .tc main_v0) = (xs m c) := by
  exact ((W16_arr m ρ c 0).trans (((dat7 (V15 m ρ) c).arrAt_in 0 rfl _).trans (A_eq7 (V15 m ρ) c 0))).trans (b15_main_v0 m ρ c)

theorem b16_main_v61 (c : Dev nD) : W16 m ρ c (Proc.devRef .tc main_v61) = (w3 (xs m c) (ws m c)) := by
  exact (W16_of_ne m ρ c main_v61 (by decide)).trans (b15_main_v61 m ρ c)

theorem b16_main_v71 (c : Dev nD) : W16 m ρ c (Proc.devRef .tc main_v71) = (c4 (xs m c) (ws m c)) := by
  exact ((W16_arr m ρ c 1).trans (((dat7 (V15 m ρ) c).arrAt_in 1 rfl _).trans (A_eq7 (V15 m ρ) c 1))).trans (b15_main_v71 m ρ c)

set_option maxHeartbeats 4000000 in
theorem b17_main_v81 (c : Dev nD) : W17 m ρ c (Proc.devRef .tc main_v81) = (w4 (xs m c) (ws m c)) := by
  have h : W17 m ρ c (Proc.devRef .tc main_v81) = termB (W16 m ρ c (Proc.devRef .tc main_v61)) (W16 m ρ c (Proc.devRef .tc main_v72)) (W16 m ρ c (Proc.devRef .tc main_v71)) := by
    show StableHlo.after hostOps8 (W16 m ρ c) (Proc.devRef .tc main_v81) = _
    after_results <;> rfl
  rw [h, b16_main_v61, b16_main_v72, b16_main_v71, termB_eq, w4_eq]

theorem b17_main_v0 (c : Dev nD) : W17 m ρ c (Proc.devRef .tc main_v0) = (xs m c) := by
  refine Eq.trans ?_ (b16_main_v0 m ρ c)
  show StableHlo.after hostOps8 (W16 m ρ c) (Proc.devRef .tc main_v0) = _
  host_keeps hostOps8

theorem b17_main_v71 (c : Dev nD) : W17 m ρ c (Proc.devRef .tc main_v71) = (c4 (xs m c) (ws m c)) := by
  refine Eq.trans ?_ (b16_main_v71 m ρ c)
  show StableHlo.after hostOps8 (W16 m ρ c) (Proc.devRef .tc main_v71) = _
  host_keeps hostOps8

theorem b18_main_v82 (c : Dev nD) : W18 m ρ c (Proc.devRef .tc main_v82) = (numC (xs m c) (w4 (xs m c) (ws m c))) := by
  have h := (W18_arr m ρ c 2).trans (RegD8.arr (V17 m ρ) c)
  rw [show V17 m ρ c main_v0 = (xs m c) from b17_main_v0 m ρ c, show V17 m ρ c main_v81 = (w4 (xs m c) (ws m c)) from b17_main_v81 m ρ c] at h
  exact h

theorem b18_main_v71 (c : Dev nD) : W18 m ρ c (Proc.devRef .tc main_v71) = (c4 (xs m c) (ws m c)) := by
  exact (W18_of_ne m ρ c main_v71 (by decide)).trans (b17_main_v71 m ρ c)

theorem b18_main_v81 (c : Dev nD) : W18 m ρ c (Proc.devRef .tc main_v81) = (w4 (xs m c) (ws m c)) := by
  exact ((W18_arr m ρ c 1).trans (((dat8 (V17 m ρ) c).arrAt_in 1 rfl _).trans (A_eq8 (V17 m ρ) c 1))).trans (b17_main_v81 m ρ c)

set_option maxHeartbeats 4000000 in
theorem b19_main_v91 (c : Dev nD) : W19 m ρ c (Proc.devRef .tc main_v91) = (c5 (xs m c) (ws m c)) := by
  have h : W19 m ρ c (Proc.devRef .tc main_v91) = termC (W18 m ρ c (Proc.devRef .tc main_v71)) (W18 m ρ c (Proc.devRef .tc main_v82)) (W18 m ρ c (Proc.devRef .tc main_v81)) := by
    show StableHlo.after hostOps9 (W18 m ρ c) (Proc.devRef .tc main_v91) = _
    after_results <;> rfl
  rw [h, b18_main_v71, b18_main_v82, b18_main_v81, termC_eq, c5_eq]

theorem b19_main_v81 (c : Dev nD) : W19 m ρ c (Proc.devRef .tc main_v81) = (w4 (xs m c) (ws m c)) := by
  refine Eq.trans ?_ (b18_main_v81 m ρ c)
  show StableHlo.after hostOps9 (W18 m ρ c) (Proc.devRef .tc main_v81) = _
  host_keeps hostOps9

theorem b20_main_v92 (c : Dev nD) : W20 m ρ c (Proc.devRef .tc main_v92) = result (xs m c) (ws m c) := by
  have h := (W20_arr m ρ c 2).trans (RegO9.arr (V19 m ρ) c)
  rw [show V19 m ρ c main_v81 = (w4 (xs m c) (ws m c)) from b19_main_v81 m ρ c, show V19 m ρ c main_v91 = (c5 (xs m c) (ws m c)) from b19_main_v91 m ρ c] at h
  exact h

/-- The result buffer at the last boundary: the specification's function of the two arguments. -/
theorem result_eq (c : Dev nD) :
    W21 (F := Ideal) m ρ c (Proc.devRef .tc main_v93)
      = final (m ((c : Thread nD τ).loc main_arg0)) (m ((c : Thread nD τ).loc main_arg1)) shapeCasts_S4x16x160x72x72_S4x160x82944 shapeCasts_S4x160x82944_S4x16x160x72x72 := by
  have h : W21 m ρ c (Proc.devRef .tc main_v93) = shapeCast S4x16x160x72x72 (W20 m ρ c (Proc.devRef .tc main_v92)) shapeCasts_S4x160x82944_S4x16x160x72x72 := by
    show StableHlo.after hostOps10 (W20 m ρ c) (Proc.devRef .tc main_v93) = _
    after_results <;> rfl
  rw [h, b20_main_v92]; rfl

end Cert.KernelIdeal.Chain

end
-- ==== Proof.RDotsA.lean ====
import proofs.«150630_j3693671875223_1_alg».proof.Proof.Gen.ReferenceIdeal
import proofs.«150630_j3693671875223_1_alg».proof.Proof.Spec
import proofs.«150630_j3693671875223_1_alg».proof.Proof.LibRealSums
import Idealize.ShloMosaic.Lib.Pipeline.Value
import Idealize.ShloMosaic.Lib.ValueIdx
import Idealize.ShloMosaic.PureOps.Ideal.Laws

noncomputable section

open Idealize.ShloMosaic

namespace Cert.ReferenceIdeal.Dots
open Cert.ReferenceIdeal Cert.ReferenceIdeal.Gen Cert.Nmf Idealize.ShloMosaic.RealSums

open Idealize.ShloMosaic.ValueIdx

/-!
  The reference's three batched contractions read index by index. Each has batch axis 0 and ONE contracting axis a side,
  so at a result index the value is the sum, over that axis, of the products of the two operands at the indices the
  dimension numbers assign: batch and free coordinates from the result index, the contracted coordinate from the
  summation index. Per contraction: the operand indices coordinate by coordinate, then the sum re-indexed over the
  contracted axis' extent (160 rows, 82944 columns, or the single entry of a unit axis, where the sum is its one term).
-/

/-! ### The contraction over the rows: operand indices coordinate by coordinate -/

theorem lhsC_0 (j : S4x82944x1.Idx) (k : dot_S4x160x82944_S4x160x1_S4x82944x1_1_1_2_2_0_0.contr.Idx) :
    (dot_S4x160x82944_S4x160x1_S4x82944x1_1_1_2_2_0_0.lhsIdx j k 0 : ℕ) = j 0 := by
  simp [DotDims.lhsIdx, dot_S4x160x82944_S4x160x1_S4x82944x1_1_1_2_2_0_0]; rfl
theorem lhsC_1 (j : S4x82944x1.Idx) (k : dot_S4x160x82944_S4x160x1_S4x82944x1_1_1_2_2_0_0.contr.Idx) :
    (dot_S4x160x82944_S4x160x1_S4x82944x1_1_1_2_2_0_0.lhsIdx j k 1 : ℕ) = k ⟨0, by decide⟩ := by
  simp [DotDims.lhsIdx, dot_S4x160x82944_S4x160x1_S4x82944x1_1_1_2_2_0_0]; rfl
theorem lhsC_2 (j : S4x82944x1.Idx) (k : dot_S4x160x82944_S4x160x1_S4x82944x1_1_1_2_2_0_0.contr.Idx) :
    (dot_S4x160x82944_S4x160x1_S4x82944x1_1_1_2_2_0_0.lhsIdx j k 2 : ℕ) = j 1 := by
  simp [DotDims.lhsIdx, dot_S4x160x82944_S4x160x1_S4x82944x1_1_1_2_2_0_0]; rfl
theorem rhsC_0 (j : S4x82944x1.Idx) (k : dot_S4x160x82944_S4x160x1_S4x82944x1_1_1_2_2_0_0.contr.Idx) :
    (dot_S4x160x82944_S4x160x1_S4x82944x1_1_1_2_2_0_0.rhsIdx j k 0 : ℕ) = j 0 := by
  simp [DotDims.rhsIdx, dot_S4x160x82944_S4x160x1_S4x82944x1_1_1_2_2_0_0]; rfl
theorem rhsC_1 (j : S4x82944x1.Idx) (k : dot_S4x160x82944_S4x160x1_S4x82944x1_1_1_2_2_0_0.contr.Idx) :
    (dot_S4x160x82944_S4x160x1_S4x82944x1_1_1_2_2_0_0.rhsIdx j k 1 : ℕ) = k ⟨0, by decide⟩ := by
  simp [DotDims.rhsIdx, dot_S4x160x82944_S4x160x1_S4x82944x1_1_1_2_2_0_0]; rfl
theorem rhsC_2 (j : S4x82944x1.Idx) (k : dot_S4x160x82944_S4x160x1_S4x82944x1_1_1_2_2_0_0.contr.Idx) :
    (dot_S4x160x82944_S4x160x1_S4x82944x1_1_1_2_2_0_0.rhsIdx j k 2 : ℕ) = j 2 := by
  simp [DotDims.rhsIdx, dot_S4x160x82944_S4x160x1_S4x82944x1_1_1_2_2_0_0]
  have h : (j 2).val < 1 := (j 2).isLt
  omega

theorem dot_numC (x : FVec Ideal S4x160x82944 .f32) (w : FVec Ideal S4x160x1 .f32) :
    Host.dotGeneral dot_S4x160x82944_S4x160x1_S4x82944x1_1_1_2_2_0_0 none x w = toCol (numC x w) := by
  funext i
  obtain ⟨b, n, u, rfl⟩ : ∃ (b : Fin 4) (n : Fin 82944) (u : Fin 1), i = ix3 b n u := ⟨i 0, i 1, i 2, eq_ix3 i⟩
  simp only [Host.dotGeneral]
  rw [Ideal.dotGeneral_apply]
  rw [← Equiv.sum_comp (contrEquiv1 dot_S4x160x82944_S4x160x1_S4x82944x1_1_1_2_2_0_0 160 rfl rfl).symm]
  show _ = ∑ d : Fin 160, x (ix3 b d n) * w (ix3 b d (0 : Fin 1))
  refine Finset.sum_congr rfl fun d _ => ?_
  have hk := contrEquiv1_symm_val dot_S4x160x82944_S4x160x1_S4x82944x1_1_1_2_2_0_0 160 rfl rfl d
  refine congrArg₂ (· * ·) (congrArg x (funext fun a => Fin.ext ?_)) (congrArg w (funext fun a => Fin.ext ?_))
  · match a with
    | ⟨0, _⟩ => exact lhsC_0 _ _
    | ⟨1, _⟩ => exact (lhsC_1 _ _).trans hk
    | ⟨2, _⟩ => exact lhsC_2 _ _
  · match a with
    | ⟨0, _⟩ => exact rhsC_0 _ _
    | ⟨1, _⟩ => exact (rhsC_1 _ _).trans hk
    | ⟨2, _⟩ => exact (rhsC_2 _ _).trans (by have h : (u : ℕ) < 1 := u.isLt; show (u : ℕ) = 0; omega)

/-! ### The contraction over the columns -/

theorem lhsB_0 (j : S4x160x1.Idx) (k : dot_S4x160x82944_S4x82944x1_S4x160x1_2_1_1_2_0_0.contr.Idx) :
    (dot_S4x160x82944_S4x82944x1_S4x160x1_2_1_1_2_0_0.lhsIdx j k 0 : ℕ) = j 0 := by
  simp [DotDims.lhsIdx, dot_S4x160x82944_S4x82944x1_S4x160x1_2_1_1_2_0_0]; rfl
theorem lhsB_1 (j : S4x160x1.Idx) (k : dot_S4x160x82944_S4x82944x1_S4x160x1_2_1_1_2_0_0.contr.Idx) :
    (dot_S4x160x82944_S4x82944x1_S4x160x1_2_1_1_2_0_0.lhsIdx j k 1 : ℕ) = j 1 := by
  simp [DotDims.lhsIdx, dot_S4x160x82944_S4x82944x1_S4x160x1_2_1_1_2_0_0]; rfl
theorem lhsB_2 (j : S4x160x1.Idx) (k : dot_S4x160x82944_S4x82944x1_S4x160x1_2_1_1_2_0_0.contr.Idx) :
    (dot_S4x160x82944_S4x82944x1_S4x160x1_2_1_1_2_0_0.lhsIdx j k 2 : ℕ) = k ⟨0, by decide⟩ := by
  simp [DotDims.lhsIdx, dot_S4x160x82944_S4x82944x1_S4x160x1_2_1_1_2_0_0]; rfl
theorem rhsB_0 (j : S4x160x1.Idx) (k : dot_S4x160x82944_S4x82944x1_S4x160x1_2_1_1_2_0_0.contr.Idx) :
    (dot_S4x160x82944_S4x82944x1_S4x160x1_2_1_1_2_0_0.rhsIdx j k 0 : ℕ) = j 0 := by
  simp [DotDims.rhsIdx, dot_S4x160x82944_S4x82944x1_S4x160x1_2_1_1_2_0_0]; rfl
theorem rhsB_1 (j : S4x160x1.Idx) (k : dot_S4x160x82944_S4x82944x1_S4x160x1_2_1_1_2_0_0.contr.Idx) :
    (dot_S4x160x82944_S4x82944x1_S4x160x1_2_1_1_2_0_0.rhsIdx j k 1 : ℕ) = k ⟨0, by decide⟩ := by
  simp [DotDims.rhsIdx, dot_S4x160x82944_S4x82944x1_S4x160x1_2_1_1_2_0_0]; rfl

theorem dot_numB (x : FVec Ideal S4x160x82944 .f32) (c : FVec Ideal SC .f32) :
    Host.dotGeneral dot_S4x160x82944_S4x82944x1_S4x160x1_2_1_1_2_0_0 none x (toCol c) = numB x c := by
  funext i
  obtain ⟨b, d, u, rfl⟩ : ∃ (b : Fin 4) (d : Fin 160) (u : Fin 1), i = ix3 b d u := ⟨i 0, i 1, i 2, eq_ix3 i⟩
  simp only [Host.dotGeneral]
  rw [Ideal.dotGeneral_apply]
  rw [← Equiv.sum_comp (contrEquiv1 dot_S4x160x82944_S4x82944x1_S4x160x1_2_1_1_2_0_0 82944 rfl rfl).symm]
  show _ = ∑ n : Fin 82944, x (ix3 b d n) * c (ix3 b (0 : Fin 1) n)
  refine Finset.sum_congr rfl fun n _ => ?_
  have hk := contrEquiv1_symm_val dot_S4x160x82944_S4x82944x1_S4x160x1_2_1_1_2_0_0 82944 rfl rfl n
  refine congrArg₂ (· * ·) (congrArg x (funext fun a => Fin.ext ?_)) ?_
  · match a with
    | ⟨0, _⟩ => exact lhsB_0 _ _
    | ⟨1, _⟩ => exact lhsB_1 _ _
    | ⟨2, _⟩ => exact (lhsB_2 _ _).trans hk
  · show c (ix3 _ _ _) = c (ix3 b (0 : Fin 1) n)
    refine congrArg c (funext fun a => Fin.ext ?_)
    match a with
    | ⟨0, _⟩ => exact rhsB_0 _ _
    | ⟨1, _⟩ => rfl
    | ⟨2, _⟩ => exact (rhsB_1 _ _).trans hk

/-! ### The contraction over an axis of one entry -/

theorem lhsO_0 (j : S4x160x82944.Idx) (k : dot_S4x160x1_S4x82944x1_S4x160x82944_2_2_1_1_0_0.contr.Idx) :
    (dot_S4x160x1_S4x82944x1_S4x160x82944_2_2_1_1_0_0.lhsIdx j k 0 : ℕ) = j 0 := by
  simp [DotDims.lhsIdx, dot_S4x160x1_S4x82944x1_S4x160x82944_2_2_1_1_0_0]; rfl
theorem lhsO_1 (j : S4x160x82944.Idx) (k : dot_S4x160x1_S4x82944x1_S4x160x82944_2_2_1_1_0_0.contr.Idx) :
    (dot_S4x160x1_S4x82944x1_S4x160x82944_2_2_1_1_0_0.lhsIdx j k 1 : ℕ) = j 1 := by
  simp [DotDims.lhsIdx, dot_S4x160x1_S4x82944x1_S4x160x82944_2_2_1_1_0_0]; rfl
theorem lhsO_2 (j : S4x160x82944.Idx) (k : dot_S4x160x1_S4x82944x1_S4x160x82944_2_2_1_1_0_0.contr.Idx) :
    (dot_S4x160x1_S4x82944x1_S4x160x82944_2_2_1_1_0_0.lhsIdx j k 2 : ℕ) = 0 := by
  have h : (dot_S4x160x1_S4x82944x1_S4x160x82944_2_2_1_1_0_0.lhsIdx j k 2 : ℕ) < 1 := (dot_S4x160x1_S4x82944x1_S4x160x82944_2_2_1_1_0_0.lhsIdx j k 2).isLt
  omega
theorem rhsO_0 (j : S4x160x82944.Idx) (k : dot_S4x160x1_S4x82944x1_S4x160x82944_2_2_1_1_0_0.contr.Idx) :
    (dot_S4x160x1_S4x82944x1_S4x160x82944_2_2_1_1_0_0.rhsIdx j k 0 : ℕ) = j 0 := by
  simp [DotDims.rhsIdx, dot_S4x160x1_S4x82944x1_S4x160x82944_2_2_1_1_0_0]; rfl
theorem rhsO_1 (j : S4x160x82944.Idx) (k : dot_S4x160x1_S4x82944x1_S4x160x82944_2_2_1_1_0_0.contr.Idx) :
    (dot_S4x160x1_S4x82944x1_S4x160x82944_2_2_1_1_0_0.rhsIdx j k 1 : ℕ) = j 2 := by
  simp [DotDims.rhsIdx, dot_S4x160x1_S4x82944x1_S4x160x82944_2_2_1_1_0_0]; rfl

theorem dot_outer (w : FVec Ideal S4x160x1 .f32) (c : FVec Ideal SC .f32) :
    Host.dotGeneral dot_S4x160x1_S4x82944x1_S4x160x82944_2_2_1_1_0_0 none w (toCol c) = outer w c := by
  funext i
  obtain ⟨b, d, n, rfl⟩ : ∃ (b : Fin 4) (d : Fin 160) (n : Fin 82944), i = ix3 b d n := ⟨i 0, i 1, i 2, eq_ix3 i⟩
  simp only [Host.dotGeneral]
  rw [Ideal.dotGeneral_apply]
  rw [← Equiv.sum_comp (contrEquiv1 dot_S4x160x1_S4x82944x1_S4x160x82944_2_2_1_1_0_0 1 rfl rfl).symm, Fin.sum_univ_one]
  show _ = w (ix3 b d (0 : Fin 1)) * c (ix3 b (0 : Fin 1) n)
  refine congrArg₂ (· * ·) (congrArg w (funext fun a => Fin.ext ?_)) ?_
  · match a with
    | ⟨0, _⟩ => exact lhsO_0 _ _
    | ⟨1, _⟩ => exact lhsO_1 _ _
    | ⟨2, _⟩ => exact lhsO_2 _ _
  · show c (ix3 _ _ _) = c (ix3 b (0 : Fin 1) n)
    refine congrArg c (funext fun a => Fin.ext ?_)
    match a with
    | ⟨0, _⟩ => exact rhsO_0 _ _
    | ⟨1, _⟩ => rfl
    | ⟨2, _⟩ => exact rhsO_1 _ _

end Cert.ReferenceIdeal.Dots

end
-- ==== Proof.RDotsB.lean ====
import proofs.«150630_j3693671875223_1_alg».proof.Proof.Gen.ReferenceIdeal
import proofs.«150630_j3693671875223_1_alg».proof.Proof.Spec
import proofs.«150630_j3693671875223_1_alg».proof.Proof.LibRealSums
import Idealize.ShloMosaic.Lib.Pipeline.Value
import Idealize.ShloMosaic.Lib.ValueIdx
import Idealize.ShloMosaic.PureOps.Ideal.Laws
import Idealize.ShloMosaic.Lib.StackMember

noncomputable section

open Idealize.ShloMosaic

namespace Cert.ReferenceIdeal.Dots
open Cert.ReferenceIdeal Cert.ReferenceIdeal.Gen Cert.Nmf Idealize.ShloMosaic.RealSums
open Idealize.ShloMosaic.ValueIdx

/-! ## Each contraction read at an index

Two of the reference's four products contract a long axis of an array with itself (a sum of squares); the other two
contract a unit axis, a sum of one term. -/

/-- The bases contracted with themselves over the rows: at batch `b` the sum of the squares. -/
theorem dot_ww_apply (w : FVec Ideal S4x160x1 .f32) (b : Fin 4) (p q : Fin 1) :
    Host.dotGeneral dot_S4x160x1_S4x160x1_S4x1x1_1_1_2_2_0_0 none w w (ix3 b p q)
      = ∑ d : Fin 160, w (ix3 b d (0 : Fin 1)) * w (ix3 b d (0 : Fin 1)) := by
  show FloatOps.dotGeneral _ none _ w w (ix3 b p q) = _
  rw [Ideal.dotGeneral_apply,
    ← Equiv.sum_comp (contrEquiv1 dot_S4x160x1_S4x160x1_S4x1x1_1_1_2_2_0_0 160 rfl rfl).symm]
  refine Finset.sum_congr rfl fun d _ => ?_
  have hk := contrEquiv1_symm_val dot_S4x160x1_S4x160x1_S4x1x1_1_1_2_2_0_0 160 rfl rfl d
  have hl : dot_S4x160x1_S4x160x1_S4x1x1_1_1_2_2_0_0.lhsIdx (ix3 b p q)
      ((contrEquiv1 _ 160 rfl rfl).symm d) = ix3 b d (0 : Fin 1) := by
    funext ax; apply Fin.ext
    match ax with
    | ⟨0, _⟩ => simp [DotDims.lhsIdx, dot_S4x160x1_S4x160x1_S4x1x1_1_1_2_2_0_0]; rfl
    | ⟨1, _⟩ => simp [DotDims.lhsIdx, dot_S4x160x1_S4x160x1_S4x1x1_1_1_2_2_0_0]; exact hk
    | ⟨2, _⟩ =>
      show _ = (0 : ℕ)
      exact Nat.lt_one_iff.mp (Fin.isLt _)
  have hr : dot_S4x160x1_S4x160x1_S4x1x1_1_1_2_2_0_0.rhsIdx (ix3 b p q)
      ((contrEquiv1 _ 160 rfl rfl).symm d) = ix3 b d (0 : Fin 1) := by
    funext ax; apply Fin.ext
    match ax with
    | ⟨0, _⟩ => simp [DotDims.rhsIdx, dot_S4x160x1_S4x160x1_S4x1x1_1_1_2_2_0_0]; rfl
    | ⟨1, _⟩ => simp [DotDims.rhsIdx, dot_S4x160x1_S4x160x1_S4x1x1_1_1_2_2_0_0]; exact hk
    | ⟨2, _⟩ =>
      show _ = (0 : ℕ)
      exact Nat.lt_one_iff.mp (Fin.isLt _)
  rw [hl, hr]

/-- A column of coefficients contracted with itself over its long axis: at batch `b` the sum of the squares. -/
theorem dot_cc_apply (w : FVec Ideal S4x82944x1 .f32) (b : Fin 4) (p q : Fin 1) :
    Host.dotGeneral dot_S4x82944x1_S4x82944x1_S4x1x1_1_1_2_2_0_0 none w w (ix3 b p q)
      = ∑ d : Fin 82944, w (ix3 b d (0 : Fin 1)) * w (ix3 b d (0 : Fin 1)) := by
  show FloatOps.dotGeneral _ none _ w w (ix3 b p q) = _
  rw [Ideal.dotGeneral_apply,
    ← Equiv.sum_comp (contrEquiv1 dot_S4x82944x1_S4x82944x1_S4x1x1_1_1_2_2_0_0 82944 rfl rfl).symm]
  refine Finset.sum_congr rfl fun d _ => ?_
  have hk := contrEquiv1_symm_val dot_S4x82944x1_S4x82944x1_S4x1x1_1_1_2_2_0_0 82944 rfl rfl d
  have hl : dot_S4x82944x1_S4x82944x1_S4x1x1_1_1_2_2_0_0.lhsIdx (ix3 b p q)
      ((contrEquiv1 _ 82944 rfl rfl).symm d) = ix3 b d (0 : Fin 1) := by
    funext ax; apply Fin.ext
    match ax with
    | ⟨0, _⟩ => simp [DotDims.lhsIdx, dot_S4x82944x1_S4x82944x1_S4x1x1_1_1_2_2_0_0]; rfl
    | ⟨1, _⟩ => simp [DotDims.lhsIdx, dot_S4x82944x1_S4x82944x1_S4x1x1_1_1_2_2_0_0]; exact hk
    | ⟨2, _⟩ =>
      show _ = (0 : ℕ)
      exact Nat.lt_one_iff.mp (Fin.isLt _)
  have hr : dot_S4x82944x1_S4x82944x1_S4x1x1_1_1_2_2_0_0.rhsIdx (ix3 b p q)
      ((contrEquiv1 _ 82944 rfl rfl).symm d) = ix3 b d (0 : Fin 1) := by
    funext ax; apply Fin.ext
    match ax with
    | ⟨0, _⟩ => simp [DotDims.rhsIdx, dot_S4x82944x1_S4x82944x1_S4x1x1_1_1_2_2_0_0]; rfl
    | ⟨1, _⟩ => simp [DotDims.rhsIdx, dot_S4x82944x1_S4x82944x1_S4x1x1_1_1_2_2_0_0]; exact hk
    | ⟨2, _⟩ =>
      show _ = (0 : ℕ)
      exact Nat.lt_one_iff.mp (Fin.isLt _)
  rw [hl, hr]

/-- A column times a [4,1,1] array over the unit axis: a sum of one term, the product of the two entries. -/
theorem dot_cs_apply (c : FVec Ideal S4x82944x1 .f32) (s : FVec Ideal S4x1x1 .f32) (b : Fin 4) (n : Fin 82944) (u : Fin 1) :
    Host.dotGeneral dot_S4x82944x1_S4x1x1_S4x82944x1_2_1_1_2_0_0 none c s (ix3 b n u)
      = c (ix3 b n (0 : Fin 1)) * s (ix3 b (0 : Fin 1) u) := by
  have h := StackMember.dotGeneral_stack_apply (G := 4) (m := 82944) (n := 1) (k := 1)
    Facts₀.dot_S4x82944x1_S4x1x1_S4x82944x1_2_1_1_2_0_0_wf none c s b n u
  rw [Fin.sum_univ_one] at h
  exact h

/-- The bases times a [4,1,1] array over the unit axis: the product of the two entries. -/
theorem dot_ws_apply (w : FVec Ideal S4x160x1 .f32) (s : FVec Ideal S4x1x1 .f32) (b : Fin 4) (d : Fin 160) (u : Fin 1) :
    Host.dotGeneral dot_S4x160x1_S4x1x1_S4x160x1_2_1_1_2_0_0 none w s (ix3 b d u)
      = w (ix3 b d (0 : Fin 1)) * s (ix3 b (0 : Fin 1) u) := by
  have h := StackMember.dotGeneral_stack_apply (G := 4) (m := 160) (n := 1) (k := 1)
    Facts₀.dot_S4x160x1_S4x1x1_S4x160x1_2_1_1_2_0_0_wf none w s b d u
  rw [Fin.sum_univ_one] at h
  exact h

/-! ## The two updates -/

/-- The reference's coefficient update, as one term of the three arrays it reads (the coefficients as a column). -/
def refC (c nc : FVec Ideal S4x82944x1 .f32) (w : FVec Ideal S4x160x1 .f32) : FVec Ideal S4x82944x1 .f32 :=
  Host.divf (mulf c nc) (addf (Host.dotGeneral dot_S4x82944x1_S4x1x1_S4x82944x1_2_1_1_2_0_0 none c (Host.dotGeneral dot_S4x160x1_S4x160x1_S4x1x1_1_1_2_2_0_0 none w w)) (broadcastInDim S4x82944x1 ![] bcast_S_S4x82944x1 (constant (F := Ideal) S_ .f32 0x358637BD#32)))

theorem refC_eq (c nc : FVec Ideal SC .f32) (w : FVec Ideal S4x160x1 .f32) : refC (toCol c) (toCol nc) w = toCol (updC c nc w) := by
  funext i
  obtain ⟨b, n, u, rfl⟩ : ∃ (b : Fin 4) (n : Fin 82944) (u : Fin 1), i = ix3 b n u := ⟨i 0, i 1, i 2, eq_ix3 i⟩
  have hu : u = 0 := Fin.eq_zero u
  subst hu
  show Ideal.div (toCol c (ix3 b n 0) * toCol nc (ix3 b n 0))
      (Host.dotGeneral dot_S4x82944x1_S4x1x1_S4x82944x1_2_1_1_2_0_0 none (toCol c)
          (Host.dotGeneral dot_S4x160x1_S4x160x1_S4x1x1_1_1_2_2_0_0 none w w) (ix3 b n 0)
        + Ideal.ofBits .f32 0x358637BD#32) = _
  rw [dot_cs_apply, dot_ww_apply]
  rfl

/-- The reference's bases update, as one term of the three arrays it reads. -/
def refB (w nb : FVec Ideal S4x160x1 .f32) (c : FVec Ideal S4x82944x1 .f32) : FVec Ideal S4x160x1 .f32 :=
  Host.divf (mulf w nb) (addf (Host.dotGeneral dot_S4x160x1_S4x1x1_S4x160x1_2_1_1_2_0_0 none w (Host.dotGeneral dot_S4x82944x1_S4x82944x1_S4x1x1_1_1_2_2_0_0 none c c)) (broadcastInDim S4x160x1 ![] bcast_S_S4x160x1 (constant (F := Ideal) S_ .f32 0x358637BD#32)))

theorem refB_eq (w nb : FVec Ideal S4x160x1 .f32) (c : FVec Ideal SC .f32) : refB w nb (toCol c) = updB w nb c := by
  funext i
  obtain ⟨b, d, u, rfl⟩ : ∃ (b : Fin 4) (d : Fin 160) (u : Fin 1), i = ix3 b d u := ⟨i 0, i 1, i 2, eq_ix3 i⟩
  have hu : u = 0 := Fin.eq_zero u
  subst hu
  show Ideal.div (w (ix3 b d 0) * nb (ix3 b d 0))
      (Host.dotGeneral dot_S4x160x1_S4x1x1_S4x160x1_2_1_1_2_0_0 none w
          (Host.dotGeneral dot_S4x82944x1_S4x82944x1_S4x1x1_1_1_2_2_0_0 none (toCol c) (toCol c)) (ix3 b d 0)
        + Ideal.ofBits .f32 0x358637BD#32) = _
  rw [dot_ws_apply, dot_cc_apply]
  rfl

end Cert.ReferenceIdeal.Dots

end
-- ==== Proof.RSoft.lean ====
import proofs.«150630_j3693671875223_1_alg».proof.Proof.Gen.ReferenceIdeal
import proofs.«150630_j3693671875223_1_alg».proof.Proof.Spec
import proofs.«150630_j3693671875223_1_alg».proof.Proof.LibRealSums
import Idealize.ShloMosaic.Lib.Pipeline.Value
import Idealize.ShloMosaic.Lib.ValueIdx
import Idealize.ShloMosaic.PureOps.Ideal.Laws
import Idealize.ShloMosaic.Lib.IdealHost

noncomputable section

open Idealize.ShloMosaic

namespace Cert.ReferenceIdeal.Soft
open Cert.ReferenceIdeal Cert.ReferenceIdeal.Gen Cert.Nmf Idealize.ShloMosaic.RealSums

/-- The reference's first coefficients: a softmax over an axis of ONE entry, of the column `z`. -/
def soft (z : FVec Ideal S4x82944x1 .f32) : FVec Ideal S4x82944x1 .f32 :=
  Host.divf
    (Host.exp (subf (mulf (broadcastInDim S4x82944x1 ![] bcast_S_S4x82944x1 (constant (F := Ideal) S_ .f32 0x3F800000#32)) z) (broadcastInDim S4x82944x1 ![0, 1] bcast_S4x82944_S4x82944x1_0_1 (maximumf (broadcastInDim S4x82944 ![] bcast_S_S4x82944 (constant (F := Ideal) S_ .f32 0xFF800000#32)) (Host.reduce FloatOps.maximumf (mulf (broadcastInDim S4x82944x1 ![] bcast_S_S4x82944x1 (constant (F := Ideal) S_ .f32 0x3F800000#32)) z) (constant (F := Ideal) S_ .f32 0xFF800000#32) reducesTo_S4x82944x1_S4x82944_d2 h_S_)))))
    (broadcastInDim S4x82944x1 ![0, 1] bcast_S4x82944_S4x82944x1_0_1 (Host.reduceAdd (Host.exp (subf (mulf (broadcastInDim S4x82944x1 ![] bcast_S_S4x82944x1 (constant (F := Ideal) S_ .f32 0x3F800000#32)) z) (broadcastInDim S4x82944x1 ![0, 1] bcast_S4x82944_S4x82944x1_0_1 (maximumf (broadcastInDim S4x82944 ![] bcast_S_S4x82944 (constant (F := Ideal) S_ .f32 0xFF800000#32)) (Host.reduce FloatOps.maximumf (mulf (broadcastInDim S4x82944x1 ![] bcast_S_S4x82944x1 (constant (F := Ideal) S_ .f32 0x3F800000#32)) z) (constant (F := Ideal) S_ .f32 0xFF800000#32) reducesTo_S4x82944x1_S4x82944_d2 h_S_))))) (constant (F := Ideal) S_ .f32 0x00000000#32) reducesTo_S4x82944x1_S4x82944_d2 h_S_))

section Pieces
open Idealize.ShloMosaic.ValueIdx

/-- The witness that dropping the last axis of [4,82944,1] leaves [4,82944]. -/
theorem red2 : S4x82944x1.Reduces [2] S4x82944 := by decide

/-- The pair (b, n) with the unit coordinate put back on axis 2 is the triple (b, n, 0). -/
theorem lift_ix2 (b : Fin 4) (n : Fin 82944) (k : Fin (S4x82944x1.size 2)) :
    red2.lift (ix2 b n) k = ix3 b n (0 : Fin 1) := by
  funext c
  match c with
  | ⟨0, _⟩ => rfl
  | ⟨1, _⟩ => rfl
  | ⟨2, _⟩ => exact Fin.ext (by have hk : k.val < 1 := k.isLt; show k.val = 0; omega)

/-- The constant one broadcast, times z, is z. -/
theorem v3_apply (z : FVec Ideal S4x82944x1 .f32) (i : S4x82944x1.Idx) :
    mulf (broadcastInDim S4x82944x1 ![] bcast_S_S4x82944x1 (constant (F := Ideal) S_ .f32 0x3F800000#32)) z i = z i := by
  rw [mulf_apply, broadcastInDim_scalar_apply, constant_apply, Ideal.ofBits_one_f32, one_mul]

theorem negInf : Ideal.ofBits .f32 0xFF800000#32 = ⊥ := by
  simp [Ideal.ofBits, Ideal.ieee]

/-- The maximum over the unit axis, from −∞, of v at (b, n) is v (b, n, 0). -/
theorem hmax_apply (v : FVec Ideal S4x82944x1 .f32) (b : Fin 4) (n : Fin 82944) :
    Host.reduce FloatOps.maximumf v (constant (F := Ideal) S_ .f32 0xFF800000#32) reducesTo_S4x82944x1_S4x82944_d2 h_S_ (ix2 b n)
      = v (ix3 b n (0 : Fin 1)) := by
  rw [Host.reduce_eq_fold_single FloatOps.maximumf v _ reducesTo_S4x82944x1_S4x82944_d2 red2 h_S_]
  haveI : Unique (Fin (S4x82944x1.size 2)) := (inferInstance : Unique (Fin 1))
  rw [Finset.univ_unique, Finset.fold_singleton, Function.comp_apply, lift_ix2, constant_apply, negInf,
    Ideal.maximumf_def, max_bot_right]

/-- A [4,82944] array broadcast along axes 0 and 1 of [4,82944,1] reads the pair (b, n). -/
theorem bcast01_apply (m : FVec Ideal S4x82944 .f32) (b : Fin 4) (n : Fin 82944) :
    broadcastInDim S4x82944x1 ![0, 1] bcast_S4x82944_S4x82944x1_0_1 m (ix3 b n (0 : Fin 1)) = m (ix2 b n) :=
  broadcastInDim_apply _ _ _ _ _ (fun a => match a with | ⟨0, _⟩ => rfl | ⟨1, _⟩ => rfl)

/-- The exponentials the softmax divides: exp (1·z − max over the unit axis). -/
def expo (z : FVec Ideal S4x82944x1 .f32) : FVec Ideal S4x82944x1 .f32 :=
  Host.exp (subf (mulf (broadcastInDim S4x82944x1 ![] bcast_S_S4x82944x1 (constant (F := Ideal) S_ .f32 0x3F800000#32)) z) (broadcastInDim S4x82944x1 ![0, 1] bcast_S4x82944_S4x82944x1_0_1 (maximumf (broadcastInDim S4x82944 ![] bcast_S_S4x82944 (constant (F := Ideal) S_ .f32 0xFF800000#32)) (Host.reduce FloatOps.maximumf (mulf (broadcastInDim S4x82944x1 ![] bcast_S_S4x82944x1 (constant (F := Ideal) S_ .f32 0x3F800000#32)) z) (constant (F := Ideal) S_ .f32 0xFF800000#32) reducesTo_S4x82944x1_S4x82944_d2 h_S_))))

/-- Where z (b, n, 0) is the real r the exponential there is exp (r − r) = 1. -/
theorem expo_apply (z : FVec Ideal S4x82944x1 .f32) (b : Fin 4) (n : Fin 82944) (r : ℝ)
    (hr : z (ix3 b n (0 : Fin 1)) = (r : EReal)) : expo z (ix3 b n (0 : Fin 1)) = 1 := by
  show FloatOps.hostUnary .exp (subf _ _ (ix3 b n (0 : Fin 1))) = 1
  rw [subf_apply, v3_apply, bcast01_apply, maximumf_apply, broadcastInDim_scalar_apply, constant_apply, negInf,
    hmax_apply, v3_apply, max_bot_left, hr, ← EReal.coe_sub, sub_self, Ideal.hostUnary_exp_def, Ideal.exp_coe,
    Real.exp_zero, EReal.coe_one]

/-- The quotient of one by one. -/
theorem div_one_one : Ideal.div 1 1 = 1 := by
  have h := Ideal.div_coe (y := 1) one_ne_zero 1
  rw [EReal.coe_one] at h
  rw [h]; norm_num

/-- The sum over the unit axis, from zero, of e at (b, n) is e (b, n, 0). -/
theorem hsum_apply (e : FVec Ideal S4x82944x1 .f32) (b : Fin 4) (n : Fin 82944) :
    Host.reduceAdd e (constant (F := Ideal) S_ .f32 0x00000000#32) reducesTo_S4x82944x1_S4x82944_d2 h_S_ (ix2 b n)
      = e (ix3 b n (0 : Fin 1)) := by
  rw [hostReduceAdd_apply, Ideal.hostReduceAdd_single reducesTo_S4x82944x1_S4x82944_d2 red2, constant_apply,
    Ideal.ofBits_zero_f32, zero_add]
  haveI : Unique (Fin (S4x82944x1.size 2)) := (inferInstance : Unique (Fin 1))
  rw [Fintype.sum_unique, lift_ix2]

/-- The softmax is the exponentials over their sums along the unit axis. -/
theorem soft_eq (z : FVec Ideal S4x82944x1 .f32) :
    soft z = Host.divf (expo z) (broadcastInDim S4x82944x1 ![0, 1] bcast_S4x82944_S4x82944x1_0_1
      (Host.reduceAdd (expo z) (constant (F := Ideal) S_ .f32 0x00000000#32) reducesTo_S4x82944x1_S4x82944_d2 h_S_)) := rfl

/-- Where z (b, n, 0) is real the softmax there is 1 / (0 + 1) = 1. -/
theorem soft_apply (z : FVec Ideal S4x82944x1 .f32) (b : Fin 4) (n : Fin 82944) (r : ℝ)
    (hr : z (ix3 b n (0 : Fin 1)) = (r : EReal)) : soft z (ix3 b n (0 : Fin 1)) = 1 := by
  rw [soft_eq, hostDivf_apply, bcast01_apply, hsum_apply, expo_apply z b n r hr, div_one_one]

/-- An index of [4,82944,1] is (b, n, 0). -/
theorem idx_eq (i : S4x82944x1.Idx) : ∃ (b : Fin 4) (n : Fin 82944), i = ix3 b n (0 : Fin 1) := by
  refine ⟨i 0, i 1, funext fun a => ?_⟩
  match a with
  | ⟨0, _⟩ => rfl
  | ⟨1, _⟩ => rfl
  | ⟨2, _⟩ => exact Fin.ext (by have h2 : (i 2).val < 1 := (i 2).isLt; show (i 2).val = 0; omega)

end Pieces

/-- Where every entry of `z` is a real number the softmax over one entry is 1 everywhere. -/
theorem soft_eq_ones (z : FVec Ideal S4x82944x1 .f32) (hz : ∀ i, IsReal (z i)) : soft z = toCol ones := by
  funext i
  obtain ⟨b, n, rfl⟩ := idx_eq i
  obtain ⟨r, hr⟩ := hz (ValueIdx.ix3 b n (0 : Fin 1))
  exact (soft_apply z b n r hr).trans rfl

/-- The contraction of real data with real bases is real, entry by entry. -/
theorem numC_real (x : FVec Ideal SX .f32) (w : FVec Ideal SW .f32) (hx : ∀ i, IsReal (x i)) (hw : ∀ i, IsReal (w i)) :
    ∀ i, IsReal (toCol (numC x w) i) := by
  intro i
  unfold toCol numC
  exact IsReal.sum _ _ (fun d _ => IsReal.mul (hx _) (hw _))

end Cert.ReferenceIdeal.Soft

end
-- ==== Proof.RChain.lean ====
/-
  The idealized reference program's values, round by round.

  The reference is one straight line of host operations; its run names the value after each round.  Each of those is
  the specification's: the first coefficients are a softmax over ONE entry, which is 1 wherever its argument is a real
  number (the only place the finiteness of the inputs is used); every later round is a contraction (a sum over the
  rows or the columns, or a product with a per-batch scalar), two pointwise products, a sum and a quotient — the same
  as the specification's update, with the coefficients kept as a column.
-/
import proofs.«150630_j3693671875223_1_alg».proof.Proof.Gen.ReferenceIdeal.Run
import proofs.«150630_j3693671875223_1_alg».proof.Proof.Spec
import proofs.«150630_j3693671875223_1_alg».proof.Proof.SpecEqs
import proofs.«150630_j3693671875223_1_alg».proof.Proof.LibRealSums
import proofs.«150630_j3693671875223_1_alg».proof.Proof.RDotsA
import proofs.«150630_j3693671875223_1_alg».proof.Proof.RDotsB
import proofs.«150630_j3693671875223_1_alg».proof.Proof.RSoft

set_option maxRecDepth 16384

noncomputable section

open Idealize.ShloMosaic Idealize.ShloMosaic.TcCoe Idealize.SL.Sem

namespace Cert.ReferenceIdeal.Chain
open Cert.ReferenceIdeal Cert.ReferenceIdeal.Gen Cert.ReferenceIdeal.Value Cert.Nmf Cert.ReferenceIdeal.Dots Cert.ReferenceIdeal.Soft
open Idealize.ShloMosaic.RealSums

variable (V0 : Valuation τ sig (Elt Ideal))

/-- The data argument read row-major as [4,160,82944], and the bases argument. -/
abbrev xs : FVec Ideal SX .f32 :=
  shapeCast S4x160x82944 (V0 (Proc.devRef .tc main_arg0)) shapeCasts_S4x16x160x72x72_S4x160x82944
abbrev ws : FVec Ideal SW .f32 := V0 (Proc.devRef .tc main_arg1)

theorem data_eq : res_main_v0 (F := Ideal) V0 = xs V0 := rfl

/-- Reading an array in another shape keeps its entries, so real entries stay real. -/
theorem xs_real (hx : ∀ i, IsReal (V0 (Proc.devRef .tc main_arg0) i)) : ∀ i, IsReal (xs V0 i) := fun i => by
  unfold xs shapeCast; exact hx _

variable (hx : ∀ i, IsReal (V0 (Proc.devRef .tc main_arg0) i)) (hw : ∀ i, IsReal (V0 (Proc.devRef .tc main_arg1) i))
include hx hw

/-- The reference's first coefficients are all ones: a softmax over one entry of a real number. -/
theorem soft_first : res_main_v12 (F := Ideal) V0 = toCol ones := by
  have h : res_main_v12 (F := Ideal) V0 = soft (Host.dotGeneral dot_S4x160x82944_S4x160x1_S4x82944x1_1_1_2_2_0_0 none (res_main_v0 V0) (ws V0)) := rfl
  rw [h, data_eq, dot_numC]
  exact soft_eq_ones _ (numC_real _ _ (xs_real V0 hx) hw)

theorem round_c1 : res_main_v19 (F := Ideal) V0 = toCol (c1 (xs V0) (ws V0)) := by
  have h : res_main_v19 (F := Ideal) V0 = refC (res_main_v12 V0) (Host.dotGeneral dot_S4x160x82944_S4x160x1_S4x82944x1_1_1_2_2_0_0 none (res_main_v0 V0) (ws V0)) (ws V0) := rfl
  rw [h, soft_first V0 hx hw, data_eq, dot_numC, refC_eq, c1_eq]

theorem round_w1 : res_main_v26 (F := Ideal) V0 = (w1 (xs V0) (ws V0)) := by
  have h : res_main_v26 (F := Ideal) V0 = refB (ws V0) (Host.dotGeneral dot_S4x160x82944_S4x82944x1_S4x160x1_2_1_1_2_0_0 none (res_main_v0 V0) (res_main_v19 V0)) (res_main_v19 V0) := rfl
  rw [h, round_c1 V0 hx hw, data_eq, dot_numB, refB_eq, w1_eq]

theorem round_c2 : res_main_v33 (F := Ideal) V0 = toCol (c2 (xs V0) (ws V0)) := by
  have h : res_main_v33 (F := Ideal) V0 = refC (res_main_v19 V0) (Host.dotGeneral dot_S4x160x82944_S4x160x1_S4x82944x1_1_1_2_2_0_0 none (res_main_v0 V0) (res_main_v26 V0)) (res_main_v26 V0) := rfl
  rw [h, round_c1 V0 hx hw, round_w1 V0 hx hw, data_eq, dot_numC, refC_eq, c2_eq]

theorem round_w2 : res_main_v40 (F := Ideal) V0 = (w2 (xs V0) (ws V0)) := by
  have h : res_main_v40 (F := Ideal) V0 = refB (res_main_v26 V0) (Host.dotGeneral dot_S4x160x82944_S4x82944x1_S4x160x1_2_1_1_2_0_0 none (res_main_v0 V0) (res_main_v33 V0)) (res_main_v33 V0) := rfl
  rw [h, round_w1 V0 hx hw, round_c2 V0 hx hw, data_eq, dot_numB, refB_eq, w2_eq]

theorem round_c3 : res_main_v47 (F := Ideal) V0 = toCol (c3 (xs V0) (ws V0)) := by
  have h : res_main_v47 (F := Ideal) V0 = refC (res_main_v33 V0) (Host.dotGeneral dot_S4x160x82944_S4x160x1_S4x82944x1_1_1_2_2_0_0 none (res_main_v0 V0) (res_main_v40 V0)) (res_main_v40 V0) := rfl
  rw [h, round_c2 V0 hx hw, round_w2 V0 hx hw, data_eq, dot_numC, refC_eq, c3_eq]

theorem round_w3 : res_main_v54 (F := Ideal) V0 = (w3 (xs V0) (ws V0)) := by
  have h : res_main_v54 (F := Ideal) V0 = refB (res_main_v40 V0) (Host.dotGeneral dot_S4x160x82944_S4x82944x1_S4x160x1_2_1_1_2_0_0 none (res_main_v0 V0) (res_main_v47 V0)) (res_main_v47 V0) := rfl
  rw [h, round_w2 V0 hx hw, round_c3 V0 hx hw, data_eq, dot_numB, refB_eq, w3_eq]

theorem round_c4 : res_main_v61 (F := Ideal) V0 = toCol (c4 (xs V0) (ws V0)) := by
  have h : res_main_v61 (F := Ideal) V0 = refC (res_main_v47 V0) (Host.dotGeneral dot_S4x160x82944_S4x160x1_S4x82944x1_1_1_2_2_0_0 none (res_main_v0 V0) (res_main_v54 V0)) (res_main_v54 V0) := rfl
  rw [h, round_c3 V0 hx hw, round_w3 V0 hx hw, data_eq, dot_numC, refC_eq, c4_eq]

theorem round_w4 : res_main_v68 (F := Ideal) V0 = (w4 (xs V0) (ws V0)) := by
  have h : res_main_v68 (F := Ideal) V0 = refB (res_main_v54 V0) (Host.dotGeneral dot_S4x160x82944_S4x82944x1_S4x160x1_2_1_1_2_0_0 none (res_main_v0 V0) (res_main_v61 V0)) (res_main_v61 V0) := rfl
  rw [h, round_w3 V0 hx hw, round_c4 V0 hx hw, data_eq, dot_numB, refB_eq, w4_eq]

/-- The last two operations before the final change of shape: one more update of the coefficients against the last
    bases, and the rank-one product. -/
theorem out_eq :
    Host.dotGeneral (φ₁ := .f32) (φ₂ := .f32) dot_S4x160x1_S4x82944x1_S4x160x82944_2_2_1_1_0_0 none (res_main_v68 (F := Ideal) V0)
        (refC (res_main_v61 V0) (Host.dotGeneral (φ₁ := .f32) (φ₂ := .f32) dot_S4x160x82944_S4x160x1_S4x82944x1_1_1_2_2_0_0 none (res_main_v0 V0) (res_main_v68 V0)) (res_main_v68 V0))
      = result (xs V0) (ws V0) := by
  rw [round_c4 V0 hx hw, round_w4 V0 hx hw, data_eq, dot_numC, refC_eq, dot_outer, result_eq]

end Cert.ReferenceIdeal.Chain

end
-- ==== Proof.lean ====
/-
  The certificate: an iterative multiplicative update (four rounds of "coefficients, then bases", one more update of
  the coefficients, and the rank-one product of bases and coefficients), computed by a kernel program of ten tiled
  regions and by a reference of plain contractions, are one function over the extended reals.

  Both programs are read against one specification (Proof/Spec.lean).  Round by round each computes the same sums:
  the kernel's regions sum the data against the bases over the rows, tile by tile of columns, and against the
  coefficients over the columns, accumulating nine tiles of 9216 columns into one sum over 82944 — on the extended
  reals addition is commutative and associative, so the grouping does not matter —; the reference's contractions
  are those sums, its contractions over an axis of one entry plain products.  The kernel starts the coefficients at
  1; the reference starts them at a softmax over ONE entry, which is 1 wherever its argument is a real number: the
  one place the inputs' finiteness is used (an infinite entry would make that softmax 0/0).

  The three frames are the generated runs.  The idealization rewrote nothing, so there is nothing to preserve.
-/
import proofs.«150630_j3693671875223_1_alg».proof.Defs
import proofs.«150630_j3693671875223_1_alg».proof.Proof.Gen.Kernel
import proofs.«150630_j3693671875223_1_alg».proof.Proof.Gen.Kernel.Skeleton
import proofs.«150630_j3693671875223_1_alg».proof.Proof.Gen.Kernel.Launch
import proofs.«150630_j3693671875223_1_alg».proof.Proof.Gen.Kernel.Points
import proofs.«150630_j3693671875223_1_alg».proof.Proof.Gen.Kernel.Frame
import proofs.«150630_j3693671875223_1_alg».proof.Proof.Gen.KernelIdeal
import proofs.«150630_j3693671875223_1_alg».proof.Proof.Gen.KernelIdeal.Skeleton
import proofs.«150630_j3693671875223_1_alg».proof.Proof.Gen.KernelIdeal.Launch
import proofs.«150630_j3693671875223_1_alg».proof.Proof.Gen.KernelIdeal.Points
import proofs.«150630_j3693671875223_1_alg».proof.Proof.Gen.KernelIdeal.Frame
import proofs.«150630_j3693671875223_1_alg».proof.Proof.Gen.ReferenceIdeal
import proofs.«150630_j3693671875223_1_alg».proof.Proof.Gen.ReferenceIdeal.Run
import proofs.«150630_j3693671875223_1_alg».proof.Proof.Gen.Pre_finite_inputs
import proofs.«150630_j3693671875223_1_alg».proof.Proof.Spec
import proofs.«150630_j3693671875223_1_alg».proof.Proof.Finite
import proofs.«150630_j3693671875223_1_alg».proof.Proof.KRun
import proofs.«150630_j3693671875223_1_alg».proof.Proof.KChain
import proofs.«150630_j3693671875223_1_alg».proof.Proof.RChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's function of the two arguments in their result buffers. -/
theorem algebraic : Cert.algebraic_KernelIdeal_ReferenceIdeal := by
  intro m ρ m' ρ' hpre hagree
  refine ⟨fun c => Cert.Nmf.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      Cert.KernelIdeal.Gen.shapeCasts_S4x16x160x72x72_S4x160x82944 Cert.KernelIdeal.Gen.shapeCasts_S4x160x82944_S4x16x160x72x72, ?_, ?_⟩
  · exact (θ_run Cert.KernelIdeal.defs _ _).mono
      (fun r h c => ⟨(h c).1.trans (Cert.KernelIdeal.Chain.result_eq m ρ c), (h c).2.1, (h c).2.2⟩)
      (Cert.KernelIdeal.Named.run_named (F := Ideal) m ρ)
  · refine (θ_run Cert.ReferenceIdeal.defs _ _).mono (fun r h c => ⟨(h c).1.trans ?_, (h c).2.1, (h c).2.2⟩)
      (Cert.ReferenceIdeal.Value.run (F := Ideal) m' ρ')
    obtain ⟨hx, hw⟩ := Cert.Nmf.Finite.isReal_of_pre _ _ (hpre c)
    rw [← (hagree c).1] at hx
    rw [← (hagree c).2] at hw
    have e := Cert.ReferenceIdeal.Chain.out_eq (StableHlo.launchContents m' c) hx hw
    show _ = Cert.Nmf.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) _ _
    rw [← (hagree c).1, ← (hagree c).2]
    unfold Cert.Nmf.final
    exact congrArg (fun t => shapeCast _ t _) e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
